-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)) (v1 : (c : Dev Cert.KernelIdeal.nD) → Buf (Elt Ideal) ((c.tc : Thread Cert.KernelIdeal.nD Cert.KernelIdeal.τ).loc Cert.KernelIdeal.main_v4)) (v2 : (c : Dev Cert.KernelIdeal.nD) → Buf (Elt Ideal) ((c.tc : Thread Cert.KernelIdeal.nD Cert.KernelIdeal.τ).loc Cert.KernelIdeal.main_v5)) (v3 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_v4) = v1 c
          ∧ r.2.mem ((c.tc : Thread Cert.KernelIdeal.nD Cert.KernelIdeal.τ).loc Cert.KernelIdeal.main_v5) = v2 c
          ∧ r.2.mem ((c.tc : Thread Cert.KernelIdeal.nD Cert.KernelIdeal.τ).loc Cert.KernelIdeal.main_v6) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_v2) = v1 c
          ∧ r.2.mem ((c.tc : Thread Cert.ReferenceIdeal.nD Cert.ReferenceIdeal.τ).loc Cert.ReferenceIdeal.main_v12) = v2 c
          ∧ r.2.mem ((c.tc : Thread Cert.ReferenceIdeal.nD Cert.ReferenceIdeal.τ).loc Cert.ReferenceIdeal.main_v15) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x4096 : Shape := ⟨2, ![16384, 4096]⟩
abbrev S1024x4096 : Shape := ⟨2, ![1024, 4096]⟩
abbrev S_ : Shape := ⟨0, ![]⟩

class Facts : Prop where
  bcast_S_S16384x4096 : S_.BroadcastsInDim S16384x4096 (![] : Fin 0 → Fin S16384x4096.rank)
  reducesTo_S16384x4096_S_d0_1 : S16384x4096.ReducesTo [0, 1] S_
  h_S_ : 0 < S_.numel
  bcast_S_S1024x4096 : S_.BroadcastsInDim S1024x4096 (![] : Fin 0 → Fin S1024x4096.rank)
  reducesTo_S1024x4096_S_d0_1 : S1024x4096.ReducesTo [0, 1] S_

variable [Facts]

def fn {F : FTy → Type} [FloatOps F] (main_arg0 : FVec F S16384x4096 .f32) (main_arg1 : FVec F S1024x4096 .f32) : IVec S_ 1 :=
  let main_v0 : FVec F S16384x4096 .f32 := Host.absf main_arg0
  let main_cst : FVec F S_ .f32 := constant S_ .f32 0x7F800000#32
  let main_v1 : FVec F S16384x4096 .f32 := broadcastInDim S16384x4096 ![] bcast_S_S16384x4096 main_cst
  let main_v2 : IVec S16384x4096 1 := cmpf .olt main_v0 main_v1
  let main_c : IVec S_ 1 := constantI S_ 1 1#1
  let main_v3 : IVec S_ 1 := (fun x v => Host.reduce IntOp.andi x v reducesTo_S16384x4096_S_d0_1 h_S_) main_v2 main_c
  let main_v4 : FVec F S1024x4096 .f32 := Host.absf main_arg1
  let main_cst_0 : FVec F S_ .f32 := constant S_ .f32 0x7F800000#32
  let main_v5 : FVec F S1024x4096 .f32 := broadcastInDim S1024x4096 ![] bcast_S_S1024x4096 main_cst_0
  let main_v6 : IVec S1024x4096 1 := cmpf .olt main_v4 main_v5
  let main_c_1 : IVec S_ 1 := constantI S_ 1 1#1
  let main_v7 : IVec S_ 1 := (fun x v => Host.reduce IntOp.andi x v reducesTo_S1024x4096_S_d0_1 h_S_) main_v6 main_c_1
  let main_v8 : IVec S_ 1 := andi main_v3 main_v7
  main_v8
-- ==== Kernel.lean ====
abbrev S16384x4096 : Shape := ⟨2, ![16384, 4096]⟩
abbrev S1024x4096 : Shape := ⟨2, ![1024, 4096]⟩
abbrev S16384x1024 : Shape := ⟨2, ![16384, 1024]⟩
abbrev S16384x1 : Shape := ⟨2, ![16384, 1]⟩
abbrev S256x4096 : Shape := ⟨2, ![256, 4096]⟩
abbrev S256x1024 : Shape := ⟨2, ![256, 1024]⟩
abbrev S256x1 : Shape := ⟨2, ![256, 1]⟩
abbrev S256 : Shape := ⟨1, ![256]⟩
abbrev S1x1 : Shape := ⟨2, ![1, 1]⟩
abbrev S2048x1024 : Shape := ⟨2, ![2048, 1024]⟩
abbrev S2048 : Shape := ⟨1, ![2048]⟩
abbrev S2048x1 : Shape := ⟨2, ![2048, 1]⟩
abbrev S1 : Shape := ⟨1, ![1]⟩
abbrev S1024x1024 : Shape := ⟨2, ![1024, 1024]⟩
abbrev S16384 : Shape := ⟨1, ![16384]⟩
abbrev S_ : Shape := ⟨0, ![]⟩

abbrev nBuf : Space → Nat
  | .hbm => 11
  | .vmem => 19
  | .smem => 0
  | _ => 0

abbrev bufTy : (tb : Table) → Fin (tcTables nBuf tb) → BufTy
  | .hbm, ⟨0, _⟩ => ⟨S16384x4096, .f32⟩
  | .hbm, ⟨1, _⟩ => ⟨S1024x4096, .f32⟩
  | .hbm, ⟨2, _⟩ => ⟨S1024x4096, .bf16⟩
  | .hbm, ⟨3, _⟩ => ⟨S16384x1024, .f32⟩
  | .hbm, ⟨4, _⟩ => ⟨S16384x1, .f32⟩
  | .hbm, ⟨5, _⟩ => ⟨S1x1, .f32⟩
  | .hbm, ⟨6, _⟩ => ⟨S1x1, .f32⟩
  | .hbm, ⟨7, _⟩ => ⟨S16384x1024, .f32⟩
  | .hbm, ⟨8, _⟩ => ⟨S16384, .f32⟩
  | .hbm, ⟨9, _⟩ => ⟨S_, .f32⟩
  | .hbm, ⟨10, _⟩ => ⟨S_, .f32⟩
  | .local _ .vmem, ⟨0, _⟩ => ⟨S256x4096, .f32⟩
  | .local _ .vmem, ⟨1, _⟩ => ⟨S256x4096, .f32⟩
  | .local _ .vmem, ⟨2, _⟩ => ⟨S1024x4096, .bf16⟩
  | .local _ .vmem, ⟨3, _⟩ => ⟨S256x1024, .f32⟩
  | .local _ .vmem, ⟨4, _⟩ => ⟨S256x1024, .f32⟩
  | .local _ .vmem, ⟨5, _⟩ => ⟨S256x1, .f32⟩
  | .local _ .vmem, ⟨6, _⟩ => ⟨S256x1, .f32⟩
  | .local _ .vmem, ⟨7, _⟩ => ⟨S2048x1024, .f32⟩
  | .local _ .vmem, ⟨8, _⟩ => ⟨S2048x1024, .f32⟩
  | .local _ .vmem, ⟨9, _⟩ => ⟨S1x1, .f32⟩
  | .local _ .vmem, ⟨10, _⟩ => ⟨S1x1, .f32⟩
  | .local _ .vmem, ⟨11, _⟩ => ⟨S1x1, .f32⟩
  | .local _ .vmem, ⟨12, _⟩ => ⟨S1x1, .f32⟩
  | .local _ .vmem, ⟨13, _⟩ => ⟨S1024x1024, .f32⟩
  | .local _ .vmem, ⟨14, _⟩ => ⟨S1024x1024, .f32⟩
  | .local _ .vmem, ⟨15, _⟩ => ⟨S1x1, .f32⟩
  | .local _ .vmem, ⟨16, _⟩ => ⟨S1x1, .f32⟩
  | .local _ .vmem, ⟨17, _⟩ => ⟨S1024x1024, .f32⟩
  | .local _ .vmem, ⟨18, _⟩ => ⟨S1024x1024, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v2_0 : Ref sig .tc := ⟨.hbm, 5, rfl⟩
abbrev main_v2_1 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_scratch0 : Ref sig .tc := ⟨.vmem, 11, rfl⟩
abbrev cc1_scratch1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg2_0 : Ref sig .tc := ⟨.vmem, 16, rfl⟩
abbrev cc2_stg3_0 : Ref sig .tc := ⟨.vmem, 17, rfl⟩
abbrev cc2_stg3_1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem3_0 : DmaSem sig := 15
abbrev cc2_sem3_1 : DmaSem sig := 16

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![8], ![false]⟩

def k1_cond3 (i : grid1.Coords) : BitVec 1 :=
  let arg0 : BitVec 32 := BitVec.ofNat 32 (i 0).val
  let c7_i32 : BitVec 32 := 7#32
  let v16 : BitVec 1 := Scalar.cmpi .eq arg0 c7_i32
  let v17 : BitVec 32 := Scalar.extui v16
  let c0_i32_7 : BitVec 32 := 0#32
  let v18 : BitVec 1 := Scalar.cmpi .ne v17 c0_i32_7
  v18

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S2048x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev grid2 : Pipeline.Grid := ⟨1, ![16], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1024x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x1 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x1 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S1024x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  bitsLt_bf16_f32 : FTy.bits .bf16 < FTy.bits .f32
  inb_S256x4096_S256x4096_0_0 : ∀ a, (![0, 0] : Fin 2 → Nat) a + S256x4096.size a ≤ S256x4096.size a
  h_S256x4096 : 0 < S256x4096.numel
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S256x1024_S256x1024_0_0 : ∀ a, (![0, 0] : Fin 2 → Nat) a + S256x1024.size a ≤ S256x1024.size a
  h_S256x1024 : 0 < S256x1024.numel
  reduces_S256x4096_S256 : S256x4096.Reduces [1] S256
  shapeCasts_S256_S256x1 : S256.ShapeCasts S256x1
  inb_S256x1_S256x1_0_0 : ∀ a, (![0, 0] : Fin 2 → Nat) a + S256x1.size a ≤ S256x1.size a
  h_S256x1 : 0 < S256x1.numel
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  reduces_S2048x1024_S2048 : S2048x1024.Reduces [1] S2048
  shapeCasts_S2048_S2048x1 : S2048.ShapeCasts S2048x1
  reduces_S2048x1_S1 : S2048x1.Reduces [0] S1
  shapeCasts_S1_S1x1 : S1.ShapeCasts S1x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  broadcasts_S1x1_S1024x1024 : S1x1.Broadcasts S1024x1024
  shapeCasts_S16384x1_S16384 : S16384x1.ShapeCasts S16384
  shapeCasts_S1x1_S_ : S1x1.ShapeCasts S_
  dot_S256x4096_S1024x4096_S256x1024_1_1_0_0_n_n_wf : DotDims.WF S256x4096 S1024x4096 S256x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S16384x4096.size a
  hwx0_0 : ∀ i : grid0.Coords, EltTy.bits .f32 = 32 ∨ (Rect.block (s := S16384x4096) S256x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x4096.size a ≤ S1024x4096.size a
  hwx0_1 : ∀ i : grid0.Coords, EltTy.bits .bf16 = 32 ∨ (Rect.block (s := S1024x4096) S1024x4096.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1024.size a ≤ S16384x1024.size a
  hwx0_2 : ∀ i : grid0.Coords, EltTy.bits .f32 = 32 ∨ (Rect.block (s := S16384x1024) S256x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x1.size a ≤ S16384x1.size a
  hwx0_3 : ∀ i : grid0.Coords, EltTy.bits .f32 = 32 ∨ (Rect.block (s := S16384x1) S256x1.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x1024.size a ≤ S16384x1024.size a
  hwx1_0 : ∀ i : grid1.Coords, EltTy.bits .f32 = 32 ∨ (Rect.block (s := S16384x1024) S2048x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x1.size a ≤ S1x1.size a
  hwx1_1 : ∀ i : grid1.Coords, EltTy.bits .f32 = 32 ∨ (Rect.block (s := S1x1) S1x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1.size a ≤ S1x1.size a
  hwx1_2 : ∀ i : grid1.Coords, EltTy.bits .f32 = 32 ∨ (Rect.block (s := S1x1) S1x1.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x1024.size a ≤ S16384x1024.size a
  hwx2_0 : ∀ i : grid2.Coords, EltTy.bits .f32 = 32 ∨ (Rect.block (s := S16384x1024) S1024x1024.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x1.size a ≤ S1x1.size a
  hwx2_1 : ∀ i : grid2.Coords, EltTy.bits .f32 = 32 ∨ (Rect.block (s := S1x1) S1x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x1.size a ≤ S1x1.size a
  hwx2_2 : ∀ i : grid2.Coords, EltTy.bits .f32 = 32 ∨ (Rect.block (s := S1x1) S1x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1024x1024.size a ≤ S16384x1024.size a
  hwx2_3 : ∀ i : grid2.Coords, EltTy.bits .f32 = 32 ∨ (Rect.block (s := S16384x1024) S1024x1024.size (cc2_transform_3 i) (hinb2_3 i)).WholeWords (EltTy.packing .f32)

variable [Facts₀]

def dot_S256x4096_S1024x4096_S256x1024_1_1_0_0_n_n : DotDims S256x4096 S1024x4096 S256x1024 where
  lhsContracting := [1]
  rhsContracting := [1]
  lhsNonContracting := [0]
  rhsNonContracting := [0]
  lhsBatch := []
  rhsBatch := []
  wf := dot_S256x4096_S1024x4096_S256x1024_1_1_0_0_n_n_wf

abbrev win0_0 : Pipeline.Window sig grid0 :=
  Pipeline.Window.ofSpec (Memref.whole main_arg0) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1_0) S256x1024.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1_1) S256x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v1_0) S2048x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2_0) S1x1.size cc1_transform_1 reads1_1 true true 1 stage1_1 sem1_1
    hrank1 hreads1_1 hinb1_1 nbuf1_1 (Memref.isWhole_whole _) hwx1_1 hstage1_1

abbrev win1_2 : Pipeline.Window sig grid1 :=
  Pipeline.Window.ofSpec (Memref.whole main_v2_1) S1x1.size cc1_transform_2 reads1_2 true true 1 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun i => !(k1_cond3 i == 1#1) | 2 => fun i => !(k1_cond3 i == 1#1) | ⟨_ + 3, h⟩ => absurd h (Nat.not_lt.2 (Nat.le_add_left _ _))

abbrev win2_0 : Pipeline.Window sig grid2 :=
  Pipeline.Window.ofSpec (Memref.whole main_v1_0) S1024x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v2_0) S1x1.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v2_1) S1x1.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v3) S1024x1024.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S16384x4096 : Shape := ⟨2, ![16384, 4096]⟩
abbrev S1024x4096 : Shape := ⟨2, ![1024, 4096]⟩
abbrev S4096x1024 : Shape := ⟨2, ![4096, 1024]⟩
abbrev S16384x1024 : Shape := ⟨2, ![16384, 1024]⟩
abbrev S_ : Shape := ⟨0, ![]⟩
abbrev S16384 : Shape := ⟨1, ![16384]⟩

abbrev nBuf : Space → Nat
  | .hbm => 43
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S1024x4096, .f32⟩
  | .hbm, ⟨2, _⟩ => ⟨S4096x1024, .f32⟩
  | .hbm, ⟨3, _⟩ => ⟨S16384x1024, .f32⟩
  | .hbm, ⟨4, _⟩ => ⟨S16384x4096, .f32⟩
  | .hbm, ⟨5, _⟩ => ⟨S_, .f32⟩
  | .hbm, ⟨6, _⟩ => ⟨S16384, .f32⟩
  | .hbm, ⟨7, _⟩ => ⟨S16384, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .i1⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S16384x1024, .f32⟩
  | .hbm, ⟨27, _⟩ => ⟨S16384x1024, .f32⟩
  | .hbm, ⟨28, _⟩ => ⟨S16384x1024, .f32⟩
  | .hbm, ⟨29, _⟩ => ⟨S16384x1024, .f32⟩
  | .hbm, ⟨30, _⟩ => ⟨S16384x1024, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S16384x1024, .f32⟩
  | .hbm, ⟨35, _⟩ => ⟨S16384x1024, .f32⟩
  | .hbm, ⟨36, _⟩ => ⟨S_, .f32⟩
  | .hbm, ⟨37, _⟩ => ⟨S16384x1024, .f32⟩
  | .hbm, ⟨38, _⟩ => ⟨S16384x1024, .f32⟩
  | .hbm, ⟨39, _⟩ => ⟨S16384x1024, .f32⟩
  | .hbm, ⟨40, _⟩ => ⟨S16384x1024, .f32⟩
  | .hbm, ⟨41, _⟩ => ⟨S16384x1024, .f32⟩
  | .hbm, ⟨42, _⟩ => ⟨S16384x1024, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_call0_v0 : Ref sig .tc := ⟨.hbm, 4, rfl⟩
abbrev main_call0_cst : Ref sig .tc := ⟨.hbm, 5, rfl⟩
abbrev main_call0_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_4 : Ref sig .tc := ⟨.hbm, 31, rfl⟩
abbrev main_cst_5 : Ref sig .tc := ⟨.hbm, 32, rfl⟩
abbrev main_call4_v0 : Ref sig .tc := ⟨.hbm, 33, rfl⟩
abbrev main_call4_v1 : Ref sig .tc := ⟨.hbm, 34, rfl⟩
abbrev main_call4_v2 : Ref sig .tc := ⟨.hbm, 35, rfl⟩
abbrev main_call4_v3 : Ref sig .tc := ⟨.hbm, 36, rfl⟩
abbrev main_call4_v4 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩

abbrev nD : Nat := 1
abbrev τ : Topo := Topo.v7x

variable {F : FTy → Type} [FloatOps F]

class Facts₀ : Prop where
  transposes_S1024x4096_S4096x1024_1_0 : S1024x4096.Transposes [1, 0] S4096x1024
  reducesTo_S16384x4096_S16384_d1 : S16384x4096.ReducesTo [1] S16384
  h_S_ : 0 < S_.numel
  reducesTo_S16384x1024_S_d0_1 : S16384x1024.ReducesTo [0, 1] S_
  bcast_S_S16384x1024 : S_.BroadcastsInDim S16384x1024 (![] : Fin 0 → Fin S16384x1024.rank)
  dot_S16384x4096_S4096x1024_S16384x1024_1_0_0_1_n_n_wf : DotDims.WF S16384x4096 S4096x1024 S16384x1024 [1] [0] [0] [1] [] []

variable [Facts₀]

def dot_S16384x4096_S4096x1024_S16384x1024_1_0_0_1_n_n : DotDims S16384x4096 S4096x1024 S16384x1024 where
  lhsContracting := [1]
  rhsContracting := [0]
  lhsNonContracting := [0]
  rhsNonContracting := [1]
  lhsBatch := []
  rhsBatch := []
  wf := dot_S16384x4096_S4096x1024_S16384x1024_1_0_0_1_n_n_wf

class Facts : Prop extends Facts₀ where

variable [Facts]
-- ==== Proof.KBData.lean ====
/-
  The proof data of the three pipelined kernels, stated at a parameter `V`: the contents of the TensorCore's
  buffers when a kernel region is entered.

  Region 0 (grid of 64 row blocks): block `t` of the projection is the matrix product of rows
  `256 t … 256 t + 255` of the keys with the whole (narrowed) sketch, contracted over all 4096 columns at once, and
  block `t` of the norms is the square root of each of those rows' sum of squares.
  Region 1 (grid of 8 row blocks of the projection, run in order): two one-word scratch buffers carry the least and
  the greatest entry met so far — set to block 0's extremes at the first point, joined with block `t`'s at every later
  one — and at the last point the quantisation step and offset are formed from them and stored.
  Region 2 (grid of 16 row blocks): each block of the projection is quantised entry by entry with that step and offset.
-/
import proofs.«133292_j61151744360781_1_alg».proof.Proof.Gen.Kernel.Launch
import proofs.«133292_j61151744360781_1_alg».proof.Proof.Gen.Kernel.Skeleton
import proofs.«133292_j61151744360781_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Region 0: the projection and the row norms -/

/-- Window `w`'s block at grid point `t`, read off its array as region 0 finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Region 0's proof data: the two inputs stay at their blocks; the projection's buffer ends at the product of the
    keys' block with the sketch, the norms' buffer at the square roots of the keys' block's row sums of squares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => k0_pay1 (iblk0 V c 0 t) (iblk0 V c 1 t)
    | ⟨3, _⟩ => k0_pay2 (iblk0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) :
    (dat0 V c).after 2 t = k0_pay1 (iblk0 V c 0 t) (iblk0 V c 1 t) := by dsimp only [dat0]
theorem after0_3 (c : Dev nD) (t : Fin cfg0.N) : (dat0 V c).after 3 t = k0_pay2 (iblk0 V c 0 t) := by dsimp only [dat0]

/-! ## Region 1: the running extremes, then the step and the offset -/

/-- Window `w`'s block at grid point `t`, read off its array as region 1 finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The first scratch word after point `n`: the least entry of blocks `0 … n` of the projection, block by block. -/
def runMin (c : Dev nD) : (n : ℕ) → n < cfg1.N → Vec F S1x1 .f32
  | 0, hn => k1_pay4 (iblk1 V c 0 ⟨0, hn⟩)
  | n + 1, hn => k1_pay6 (iblk1 V c 0 ⟨n + 1, hn⟩) (runMin c n (Nat.lt_of_succ_lt hn))

/-- The second scratch word after point `n`: the greatest entry of blocks `0 … n`, block by block. -/
def runMax (c : Dev nD) : (n : ℕ) → n < cfg1.N → Vec F S1x1 .f32
  | 0, hn => k1_pay5 (iblk1 V c 0 ⟨0, hn⟩)
  | n + 1, hn => k1_pay7 (iblk1 V c 0 ⟨n + 1, hn⟩) (runMax c n (Nat.lt_of_succ_lt hn))

/-- The two scratch words as whole memrefs. -/
abbrev scMin : Memref sig .tc .vmem S1x1 .f32 := Memref.whole cc1_scratch0
abbrev scMax : Memref sig .tc .vmem S1x1 .f32 := Memref.whole cc1_scratch1

/-- Region 1's invariant before position `n`: before the first point every scratch buffer holds anything; afterwards
    the two carried words hold the extremes of the blocks met so far, every other scoped buffer anything. -/
def Phi1 (c : Dev nD) : (n : ℕ) → n ≤ cfg1.N → sProp 𝕄
  | 0, _ => Pipeline.ΦA spec1 c
  | n + 1, hn => iprop(owns (c : Thread nD τ) scMin fullShare (runMin V c n hn)
      ∗ owns (c : Thread nD τ) scMax fullShare (runMax V c n hn)
      ∗ Pipeline.scopedRestBut (Ix := Unit) (Name := ℕ) (U := UR sig nD τ) (Lvl := ℕ) (Val := Elt F) spec1 c [cc1_scratch0, cc1_scratch1]
      ∗ (∃ r, prngReg c r))

/-- Region 1's proof data: the input stays at its block; the step's and the offset's one-word buffers, stored at
    the last point only, are formed from the two carried words there. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => k1_pay9 (runMin V c t.val t.isLt) (runMax V c t.val t.isLt)
    | ⟨2, _⟩ => k1_pay10 (runMin V c t.val t.isLt) (runMax V c t.val t.isLt)
  Φ t := Phi1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) :
    (dat1 V c).after 1 t = k1_pay9 (runMin V c t.val t.isLt) (runMax V c t.val t.isLt) := by dsimp only [dat1]
theorem after1_2 (c : Dev nD) (t : Fin cfg1.N) :
    (dat1 V c).after 2 t = k1_pay10 (runMin V c t.val t.isLt) (runMax V c t.val t.isLt) := by dsimp only [dat1]
theorem Phi1_at (c : Dev nD) (t : Fin (cfg1.N + 1)) :
    (dat1 V c).Φ t = Phi1 V c t.val (Nat.le_of_lt_succ t.isLt) := by dsimp only [dat1]

/-! ## Region 2: the quantisation -/

/-- Window `w`'s block at grid point `t`, read off its array as region 2 finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Region 2's proof data: the three inputs stay at their blocks; the output's buffer ends at the projection's
    block quantised with the step and the offset. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => k2_pay1 (iblk2 V c 1 t) (iblk2 V c 2 t) (iblk2 V c 0 t)
  Φ _ := Pipeline.ΦA spec2 c
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = k2_pay1 (iblk2 V c 1 t) (iblk2 V c 2 t) (iblk2 V c 0 t) := by dsimp only [dat2]

end Cert.Kernel.Hand

end
-- ==== Proof.KBBody0.lean ====
/-
  Region 0's body obligation. At every grid point the body finds the keys' block and the whole sketch in its two
  input buffers (the sketch is fetched once and its block index never moves), stores the product into the
  projection's buffer and the row norms into the norms' buffer, each through the whole buffer, and leaves the
  inputs as it found them.
-/
import proofs.«133292_j61151744360781_1_alg».proof.Proof.KBData

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The zero offsets of a rank-2 whole-buffer access. -/
theorem hz2 : (![0, 0] : Fin 2 → Nat) = fun _ => 0 := by
  funext a; fin_cases a <;> rfl

/-! ## The inputs' buffers hold their blocks -/

theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)

theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)

/-! ## The body's triple -/

set_option maxHeartbeats 1000000 in
/-- The kernel body on whole buffers: from the keys' block `x0` and the sketch `x1` it leaves their product in the
    third buffer and the row norms of `x0` in the fourth, the inputs untouched. -/
theorem sound_kernel0 (c : Dev nD) (E : Set ℕ) (i : grid0.Coords)
    (arg1 : Memref sig .tc .vmem S256x4096 .f32) (harg1 : arg1.IsWhole)
    (arg2 : Memref sig .tc .vmem S1024x4096 .bf16) (harg2 : arg2.IsWhole)
    (arg3 : Memref sig .tc .vmem S256x1024 .f32) (harg3 : arg3.IsWhole)
    (arg4 : Memref sig .tc .vmem S256x1 .f32) (harg4 : arg4.IsWhole)
    (x0 : Vec F S256x4096 .f32) (x1 : Vec F S1024x4096 .bf16) (K : PUnit → sProp 𝕄) :
    iprop(owns (c : Thread nD τ) arg1 fullShare x0 ∗ owns (c : Thread nD τ) arg2 fullShare x1
        ∗ (∃ d, owns (c : Thread nD τ) arg3 fullShare d) ∗ (∃ d, owns (c : Thread nD τ) arg4 fullShare d)
        ∗ (iprop(owns (c : Thread nD τ) arg1 fullShare x0 ∗ owns (c : Thread nD τ) arg2 fullShare x1
            ∗ owns (c : Thread nD τ) arg3 fullShare (k0_pay1 x0 x1)
            ∗ owns (c : Thread nD τ) arg4 fullShare (k0_pay2 x0)) -∗ K ⟨⟩))
      ⊢ wp frame (wpE (defs₀ (F := F)) Variants.none c none) E
          (cc0__mm_norm_kernel i arg1 harg1 arg2 harg2 arg3 harg3 arg4 harg4) K := by
  simp only [cc0__mm_norm_kernel_eq_skeleton]; unfold cc0__mm_norm_kernel_skel
  unfold owns
  iintro ⟨⟨%f0, %hf0, H0⟩, ⟨%f1, %hf1, H1⟩, ⟨%d2, %f2, -, H2⟩, ⟨%d3, %f3, -, H3⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    refine (View.read_writes_eq_canon _ _ _ (fun y => ⟨_, List.mem_singleton_self _, View.mem_set_unit_zero hz2 inb_S256x1024_S256x1024_0_0 y⟩)).trans ?_
    rw [View.canon_unit_zero hz2]
    simp only [View.readAt_eq_ld, View.ld_unit_zero (S := S256x4096) hz2, View.ld_unit_zero (S := S1024x4096) hz2]
  · iexists _; isplitr
    swap; · iexact H3
    ipureintro
    refine (View.read_writes_eq_canon _ _ _ (fun y => ⟨_, List.mem_singleton_self _, View.mem_set_unit_zero hz2 inb_S256x1_S256x1_0_0 y⟩)).trans ?_
    rw [View.canon_unit_zero hz2]
    simp only [View.readAt_eq_ld, View.ld_unit_zero (S := S256x4096) hz2]

/-! ## The body obligation -/

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of region 0, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KBBody1.lean ====
/-
  Region 1's body obligation. The grid's eight points run in order. At every point the body finds block `t` of the
  projection in its input buffer and reduces it to its least and its greatest entry. At the first point these two
  words are stored into the two carried one-word buffers; at every later point each carried word is joined with the
  block's extreme (the lesser of the two for the first word, the greater for the second) and stored back; at the
  last point, after that join, the two carried words are read back and the quantisation step and offset formed from
  them are stored into the two one-word output buffers. At every point but the last the body leaves the two output
  buffers as it found them, and the pipeline does not write them back there.
-/
import proofs.«133292_j61151744360781_1_alg».proof.Proof.KBData

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The zero offsets of a rank-2 whole-buffer access. -/
theorem hz1 : (![0, 0] : Fin 2 → Nat) = fun _ => 0 := by
  funext a; fin_cases a <;> rfl

/-- One store through the whole of a one-word buffer leaves its payload there, whatever the buffer held. -/
theorem read_store_word (v : View sig .tc .vmem S1x1 .f32) (f : v.ty.Contents (Elt F)) (w : Vec F S1x1 .f32) :
    v.read (Elt F) (v.writes (Elt F) f [(⟨Rect.unit ![0, 0] S1x1.size inb_S1x1_S1x1_0_0, w⟩ : View.Piece (Elt F) S1x1 .f32)]) = w := by
  refine (View.read_writes_eq_canon _ _ _ (fun y => ⟨(⟨Rect.unit ![0, 0] S1x1.size inb_S1x1_S1x1_0_0, w⟩ : View.Piece (Elt F) S1x1 .f32), List.mem_singleton_self _, View.mem_set_unit_zero hz1 inb_S1x1_S1x1_0_0 y⟩)).trans ?_
  rw [View.canon_unit_zero hz1]

/-! ## The body's three conditions, in closed form over the grid -/

/-- The condition under which the carried words are first set: the grid coordinate is `0`. -/
abbrev cond1_0 (i : grid1.Coords) : Prop := (Scalar.cmpi .ne (Scalar.extui (Scalar.cmpi .eq (BitVec.ofNat 32 (i 0).val) 0#32)) 0#32) = 1#1
/-- The condition under which the carried words are joined with the block's extremes: the coordinate is positive. -/
abbrev cond1_1 (i : grid1.Coords) : Prop := (Scalar.cmpi .ne (Scalar.extui (Scalar.cmpi .sgt (BitVec.ofNat 32 (i 0).val) 0#32)) 0#32) = 1#1
/-- The condition under which the step and the offset are stored: the coordinate is `7`. -/
abbrev cond1_2 (i : grid1.Coords) : Prop := k1_cond3 i = 1#1

/-- Each holds at exactly the points named, decided over the eight points. -/
theorem hcond1_0 : ∀ t : Fin cfg1.N, cond1_0 (grid1.coords t) ↔ t.val = 0 :=
  (by decide +kernel : ∀ t : Fin grid1.N, cond1_0 (grid1.coords t) ↔ t.val = 0)
theorem hcond1_1 : ∀ t : Fin cfg1.N, cond1_1 (grid1.coords t) ↔ t.val ≠ 0 :=
  (by decide +kernel : ∀ t : Fin grid1.N, cond1_1 (grid1.coords t) ↔ t.val ≠ 0)
theorem hcond1_2 : ∀ t : Fin cfg1.N, cond1_2 (grid1.coords t) ↔ t.val = 7 :=
  (by decide +kernel : ∀ t : Fin grid1.N, cond1_2 (grid1.coords t) ↔ t.val = 7)

/-! ## The body's triple, one per control case -/

set_option maxHeartbeats 1000000 in
/-- The first point: whatever the two carried buffers held, they end at the block's least and greatest entry;
    the input and the two output buffers are left as found. -/
theorem sound_kernel1_A (c : Dev nD) (E : Set ℕ) (i : grid1.Coords)
    (arg1 : Memref sig .tc .vmem S2048x1024 .f32) (harg1 : arg1.IsWhole)
    (arg2 : Memref sig .tc .vmem S1x1 .f32) (harg2 : arg2.IsWhole)
    (arg3 : Memref sig .tc .vmem S1x1 .f32) (harg3 : arg3.IsWhole)
    (arg4 : Memref sig .tc .vmem S1x1 .f32) (harg4 : arg4.IsWhole)
    (arg5 : Memref sig .tc .vmem S1x1 .f32) (harg5 : arg5.IsWhole)
    (hc0 : cond1_0 i) (hc1 : ¬cond1_1 i) (hc2 : ¬cond1_2 i)
    (x0 : Vec F S2048x1024 .f32) (y1 y2 : Vec F S1x1 .f32) (K : PUnit → sProp 𝕄) :
    iprop(owns (c : Thread nD τ) arg1 fullShare x0 ∗ owns (c : Thread nD τ) arg2 fullShare y1
        ∗ owns (c : Thread nD τ) arg3 fullShare y2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare y1
            ∗ owns (c : Thread nD τ) arg3 fullShare y2
            ∗ owns (c : Thread nD τ) arg4 fullShare (k1_pay4 x0)
            ∗ owns (c : Thread nD τ) arg5 fullShare (k1_pay5 x0)) -∗ K ⟨⟩))
      ⊢ wp frame (wpE (defs₀ (F := F)) Variants.none c none) E
          (cc1__minmax_kernel i arg1 harg1 arg2 harg2 arg3 harg3 arg4 harg4 arg5 harg5) K := by
  simp only [cc1__minmax_kernel_eq_skeleton]; unfold cc1__minmax_kernel_skel
  unfold owns
  iintro ⟨⟨%f0, %hf0, H0⟩, ⟨%f1, %hf1, H1⟩, ⟨%f2, %hf2, H2⟩, ⟨%d4, %f4, -, H4⟩, ⟨%d5, %f5, -, H5⟩, Hk⟩
  subst hf0; subst hf1; subst hf2
  sl_exec (disch := first | exact hc0 | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H4]
  · iexists _; isplitr
    swap; · iexact H4
    ipureintro
    refine (read_store_word _ _ _).trans ?_
    simp only [View.readAt_eq_ld, View.ld_unit_zero (S := S2048x1024) hz1]
  · iexists _; isplitr
    swap; · iexact H5
    ipureintro
    refine (read_store_word _ _ _).trans ?_
    simp only [View.readAt_eq_ld, View.ld_unit_zero (S := S2048x1024) hz1]

set_option maxHeartbeats 1000000 in
/-- A point strictly between the first and the last: the carried words `s0`, `s1` end joined with the block's
    extremes; the input and the two output buffers are left as found. -/
theorem sound_kernel1_B (c : Dev nD) (E : Set ℕ) (i : grid1.Coords)
    (arg1 : Memref sig .tc .vmem S2048x1024 .f32) (harg1 : arg1.IsWhole)
    (arg2 : Memref sig .tc .vmem S1x1 .f32) (harg2 : arg2.IsWhole)
    (arg3 : Memref sig .tc .vmem S1x1 .f32) (harg3 : arg3.IsWhole)
    (arg4 : Memref sig .tc .vmem S1x1 .f32) (harg4 : arg4.IsWhole)
    (arg5 : Memref sig .tc .vmem S1x1 .f32) (harg5 : arg5.IsWhole)
    (hc0 : ¬cond1_0 i) (hc1 : cond1_1 i) (hc2 : ¬cond1_2 i)
    (x0 : Vec F S2048x1024 .f32) (y1 y2 s0 s1 : Vec F S1x1 .f32) (K : PUnit → sProp 𝕄) :
    iprop(owns (c : Thread nD τ) arg1 fullShare x0 ∗ owns (c : Thread nD τ) arg2 fullShare y1
        ∗ owns (c : Thread nD τ) arg3 fullShare y2
        ∗ owns (c : Thread nD τ) arg4 fullShare s0 ∗ owns (c : Thread nD τ) arg5 fullShare s1
        ∗ (iprop(owns (c : Thread nD τ) arg1 fullShare x0 ∗ owns (c : Thread nD τ) arg2 fullShare y1
            ∗ owns (c : Thread nD τ) arg3 fullShare y2
            ∗ owns (c : Thread nD τ) arg4 fullShare (k1_pay6 x0 s0)
            ∗ owns (c : Thread nD τ) arg5 fullShare (k1_pay7 x0 s1)) -∗ K ⟨⟩))
      ⊢ wp frame (wpE (defs₀ (F := F)) Variants.none c none) E
          (cc1__minmax_kernel i arg1 harg1 arg2 harg2 arg3 harg3 arg4 harg4 arg5 harg5) K := by
  simp only [cc1__minmax_kernel_eq_skeleton]; unfold cc1__minmax_kernel_skel
  unfold owns
  iintro ⟨⟨%f0, %hf0, H0⟩, ⟨%f1, %hf1, H1⟩, ⟨%f2, %hf2, H2⟩, ⟨%f4, %hf4, H4⟩, ⟨%f5, %hf5, H5⟩, Hk⟩
  subst hf0; subst hf1; subst hf2; subst hf4; subst hf5
  sl_exec (disch := first | exact hc0 | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H4]
  · iexists _; isplitr
    swap; · iexact H4
    ipureintro
    refine (read_store_word _ _ _).trans ?_
    simp only [View.readAt_eq_ld, View.ld_unit_zero (S := S2048x1024) hz1, View.ld_unit_zero (S := S1x1) hz1]
  · iexists _; isplitr
    swap; · iexact H5
    ipureintro
    refine (read_store_word _ _ _).trans ?_
    simp only [View.readAt_eq_ld, View.ld_unit_zero (S := S2048x1024) hz1, View.ld_unit_zero (S := S1x1) hz1]

set_option maxHeartbeats 1000000 in
/-- The last point: the carried words end joined with the block's extremes, and the two output buffers end at
    the step and the offset formed from the joined words; the input is left as found. -/
theorem sound_kernel1_C (c : Dev nD) (E : Set ℕ) (i : grid1.Coords)
    (arg1 : Memref sig .tc .vmem S2048x1024 .f32) (harg1 : arg1.IsWhole)
    (arg2 : Memref sig .tc .vmem S1x1 .f32) (harg2 : arg2.IsWhole)
    (arg3 : Memref sig .tc .vmem S1x1 .f32) (harg3 : arg3.IsWhole)
    (arg4 : Memref sig .tc .vmem S1x1 .f32) (harg4 : arg4.IsWhole)
    (arg5 : Memref sig .tc .vmem S1x1 .f32) (harg5 : arg5.IsWhole)
    (hc0 : ¬cond1_0 i) (hc1 : cond1_1 i) (hc2 : cond1_2 i)
    (x0 : Vec F S2048x1024 .f32) (s0 s1 : Vec F S1x1 .f32) (K : PUnit → sProp 𝕄) :
    iprop(owns (c : Thread nD τ) arg1 fullShare x0 ∗ (∃ d, owns (c : Thread nD τ) arg2 fullShare d)
        ∗ (∃ d, owns (c : Thread nD τ) arg3 fullShare d)
        ∗ owns (c : Thread nD τ) arg4 fullShare s0 ∗ owns (c : Thread nD τ) arg5 fullShare s1
        ∗ (iprop(owns (c : Thread nD τ) arg1 fullShare x0
            ∗ owns (c : Thread nD τ) arg2 fullShare (k1_pay9 (k1_pay6 x0 s0) (k1_pay7 x0 s1))
            ∗ owns (c : Thread nD τ) arg3 fullShare (k1_pay10 (k1_pay6 x0 s0) (k1_pay7 x0 s1))
            ∗ owns (c : Thread nD τ) arg4 fullShare (k1_pay6 x0 s0)
            ∗ owns (c : Thread nD τ) arg5 fullShare (k1_pay7 x0 s1)) -∗ K ⟨⟩))
      ⊢ wp frame (wpE (defs₀ (F := F)) Variants.none c none) E
          (cc1__minmax_kernel i arg1 harg1 arg2 harg2 arg3 harg3 arg4 harg4 arg5 harg5) K := by
  simp only [cc1__minmax_kernel_eq_skeleton]; unfold cc1__minmax_kernel_skel
  unfold owns
  iintro ⟨⟨%f0, %hf0, H0⟩, ⟨%d1, %f1, -, H1⟩, ⟨%d2, %f2, -, H2⟩, ⟨%f4, %hf4, H4⟩, ⟨%f5, %hf5, H5⟩, Hk⟩
  subst hf0; subst hf4; subst hf5
  sl_exec (disch := first | exact hc0 | exact hc1 | exact hc2)
  sl_step
  iapply Hk
  isplitl [H0]
  · iexists f0; isplitr; · ipureintro; rfl
    iexact H0
  isplitl [H1]
  · iexists _; isplitr
    swap; · iexact H1
    ipureintro
    refine (read_store_word _ _ _).trans ?_
    sl_unfold_words
    simp only [View.readCov_unit_zero (S := S1x1) _ hz1, View.readAt_eq_ld, View.ld_unit_zero (S := S2048x1024) hz1, View.ld_unit_zero (S := S1x1) hz1]
  isplitl [H2]
  · iexists _; isplitr
    swap; · iexact H2
    ipureintro
    refine (read_store_word _ _ _).trans ?_
    sl_unfold_words
    simp only [View.readCov_unit_zero (S := S1x1) _ hz1, View.readAt_eq_ld, View.ld_unit_zero (S := S2048x1024) hz1, View.ld_unit_zero (S := S1x1) hz1]
  isplitl [H4]
  · iexists _; isplitr
    swap; · iexact H4
    ipureintro
    sl_unfold_words
    refine (read_store_word _ _ _).trans ?_
    simp only [View.readAt_eq_ld, View.ld_unit_zero (S := S2048x1024) hz1, View.ld_unit_zero (S := S1x1) hz1]
  · iexists _; isplitr
    swap; · iexact H5
    ipureintro
    sl_unfold_words
    refine (read_store_word _ _ _).trans ?_
    simp only [View.readAt_eq_ld, View.ld_unit_zero (S := S2048x1024) hz1, View.ld_unit_zero (S := S1x1) hz1]

/-! ## The invariant, position by position -/

theorem Phi1_zero (c : Dev nD) (n : ℕ) (h : n ≤ cfg1.N) (hz : n = 0) : Phi1 V c n h = Pipeline.ΦA spec1 c := by
  subst hz; rfl

/-- After point `n` (before point `n + 1`): the two carried words at that point's extremes. -/
theorem Phi1_succ (c : Dev nD) (n : ℕ) (hn : n < cfg1.N) :
    Phi1 V c (n + 1) hn = iprop(owns (c : Thread nD τ) scMin fullShare (runMin V c n hn)
      ∗ owns (c : Thread nD τ) scMax fullShare (runMax V c n hn)
      ∗ Pipeline.scopedRestBut (Ix := Unit) (Name := ℕ) (U := UR sig nD τ) (Lvl := ℕ) (Val := Elt F) spec1 c [cc1_scratch0, cc1_scratch1]
      ∗ (∃ r, prngReg c r)) := rfl

/-- Before a point that is not the first: the two carried words at what the point before left. -/
theorem Phi1_pos (c : Dev nD) (n : ℕ) (h : n ≤ cfg1.N) (hz : n ≠ 0) :
    Phi1 V c n h = iprop(owns (c : Thread nD τ) scMin fullShare (runMin V c (n - 1) (by omega))
      ∗ owns (c : Thread nD τ) scMax fullShare (runMax V c (n - 1) (by omega))
      ∗ Pipeline.scopedRestBut (Ix := Unit) (Name := ℕ) (U := UR sig nD τ) (Lvl := ℕ) (Val := Elt F) spec1 c [cc1_scratch0, cc1_scratch1]
      ∗ (∃ r, prngReg c r)) := by
  cases n with
  | zero => exact absurd rfl hz
  | succ n => rfl

theorem Phi1_castSucc (c : Dev nD) (t : Fin cfg1.N) :
    (dat1 V c).Φ t.castSucc = Phi1 V c t.val (Nat.le_of_lt t.isLt) := by
  dsimp only [dat1]; simp only [Fin.coe_castSucc]

/-- The running extremes at the first point and at a later one. -/
theorem runMin_zero (c : Dev nD) (t : Fin cfg1.N) (hz : t.val = 0) :
    runMin V c t.val t.isLt = k1_pay4 (iblk1 V c 0 t) := by
  obtain ⟨n, hn⟩ := t
  cases n with
  | zero => rfl
  | succ n => exact absurd hz (Nat.succ_ne_zero n)

theorem runMax_zero (c : Dev nD) (t : Fin cfg1.N) (hz : t.val = 0) :
    runMax V c t.val t.isLt = k1_pay5 (iblk1 V c 0 t) := by
  obtain ⟨n, hn⟩ := t
  cases n with
  | zero => rfl
  | succ n => exact absurd hz (Nat.succ_ne_zero n)

theorem runMin_pos (c : Dev nD) (t : Fin cfg1.N) (hz : t.val ≠ 0) :
    runMin V c t.val t.isLt
      = k1_pay6 (iblk1 V c 0 t) (runMin V c (t.val - 1) (Nat.lt_of_le_of_lt (Nat.sub_le _ _) t.isLt)) := by
  obtain ⟨n, hn⟩ := t
  cases n with
  | zero => exact absurd rfl hz
  | succ n => rfl

theorem runMax_pos (c : Dev nD) (t : Fin cfg1.N) (hz : t.val ≠ 0) :
    runMax V c t.val t.isLt
      = k1_pay7 (iblk1 V c 0 t) (runMax V c (t.val - 1) (Nat.lt_of_le_of_lt (Nat.sub_le _ _) t.isLt)) := by
  obtain ⟨n, hn⟩ := t
  cases n with
  | zero => exact absurd rfl hz
  | succ n => rfl

/-- What the launch hands the region, with the two carried words taken out of the scoped rest. -/
theorem PhiA1_eq (c : Dev nD) :
    (Pipeline.ΦA spec1 c : sProp 𝕄)
      = iprop((((∃ d, owns (c : Thread nD τ) scMin fullShare d) ∗ (∃ d, owns (c : Thread nD τ) scMax fullShare d))
          ∗ Pipeline.scopedRestBut (Ix := Unit) (Name := ℕ) (U := UR sig nD τ) (Lvl := ℕ) (Val := Elt F) spec1 c [cc1_scratch0, cc1_scratch1])
          ∗ (∃ r, prngReg c r)) := by
  unfold Pipeline.ΦA
  rw [Pipeline.scopedRest_split_of_list spec1 c [cc1_scratch0, cc1_scratch1] (by decide) (by decide)]
  simp only [bigSepL_cons_cons, bigSepL_singleton, scMin, scMax, owns_whole]
  try rfl

/-! ## The windows' buffers as the body finds them -/

theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)

/-- The input is never idle; the two outputs are idle, and not written back, at every point but the last. -/
theorem liveAt1_0 : ∀ t : Fin cfg1.N, cfg1.idle 0 (grid1.coords t) = false := fun _ => rfl
theorem idleAt1_1 : ∀ t : Fin cfg1.N, t.val ≠ 7 → cfg1.idle 1 (grid1.coords t) = true := by decide +kernel
theorem idleAt1_2 : ∀ t : Fin cfg1.N, t.val ≠ 7 → cfg1.idle 2 (grid1.coords t) = true := by decide +kernel
theorem liveAt1_1 : ∀ t : Fin cfg1.N, t.val = 7 → cfg1.idle 1 (grid1.coords t) = false := by decide +kernel
theorem liveAt1_2 : ∀ t : Fin cfg1.N, t.val = 7 → cfg1.idle 2 (grid1.coords t) = false := by decide +kernel
theorem noFlush1_1 (t : Fin cfg1.N) (h : t.val ≠ 7) : (cfg1.win 1).flush t = false := by
  have hN : t.val < 8 := lt_of_lt_of_eq t.isLt (show cfg1.N = 8 from N_1)
  cases hf : (cfg1.win 1).flush t with
  | false => rfl
  | true => exact absurd ((flush1_1 t).mp hf) (by omega)
theorem noFlush1_2 (t : Fin cfg1.N) (h : t.val ≠ 7) : (cfg1.win 2).flush t = false := by
  have hN : t.val < 8 := lt_of_lt_of_eq t.isLt (show cfg1.N = 8 from N_1)
  cases hf : (cfg1.win 2).flush t with
  | false => rfl
  | true => exact absurd ((flush1_2 t).mp hf) (by omega)

/-! ## The body obligation -/

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 1600000 in
/-- The body at any point, by the point's case: at the first point the invariant is the launch's, out of which the two
    carried buffers are taken at whatever they hold; at a later point it hands the body the carried words at the
    running extremes of the blocks before, and takes them back at the running extremes through this block. The two
    outputs are handed back as found at every point but the last, where they end at the step and the offset. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0]
  rw [show (dat1 V c).owesAt () t.succ = (dat1 V c).owesAt () t.castSucc from rfl]
  rw [show (dat1 V c).Φ t.succ = Phi1 V c (t.val + 1) t.isLt from rfl, Phi1_succ]
  rw [show (dat1 V c).leavesExact 0 t = owns (c : Thread nD τ) (st1_0 t) fullShare ((dat1 V c).after 0 t) from by
    unfold Dat.leavesExact; rw [liveAt1_0 t], after1_0]
  have hN : t.val < 8 := lt_of_lt_of_eq t.isLt (show cfg1.N = 8 from N_1)
  by_cases h0 : t.val = 0
  · rw [Dat.leavesExact_idle (dat1 V c) 1 t (idleAt1_1 t (by omega)) (noFlush1_1 t (by omega))]
    rw [Dat.leavesExact_idle (dat1 V c) 2 t (idleAt1_2 t (by omega)) (noFlush1_2 t (by omega))]
    rw [runMin_zero V c t h0, runMax_zero V c t h0]
    rw [Phi1_castSucc V c t, Phi1_zero V c _ _ h0, PhiA1_eq]
    iintro ⟨⟨⟨⟨HS0, HS1⟩, HR⟩, Hg⟩, Ho, ⟨%d0, H0⟩, ⟨%d1, H1⟩, ⟨%d2, H2⟩⟩
    iapply (sound_kernel1_A c Set.univ (grid1.coords t) _ _ _ _ _ _ _ _ _ _
      ((hcond1_0 t).mpr h0) (fun h => (hcond1_1 t).mp h h0) (fun h => by have := (hcond1_2 t).mp h; omega)
      (iblk1 V c 0 t) _ _ _)
    isplitl [H0]; · iexact H0
    isplitl [H1]; · iexact H1
    isplitl [H2]; · iexact H2
    isplitl [HS0]; · iexact HS0
    isplitl [HS1]; · iexact HS1
    iintro ⟨H0, H1, H2, HS0, HS1⟩
    isplitl [HS0 HS1 HR Hg]
    · isplitl [HS0]; · iexact HS0
      isplitl [HS1]; · iexact HS1
      isplitl [HR]; · iexact HR
      iexact Hg
    isplitl [Ho]; · iexact Ho
    isplitl [H0]; · iexact H0
    isplitl [H1]; · iexists _; iexact H1
    iexists _; iexact H2
  · by_cases h7 : t.val = 7
    · rw [show (dat1 V c).leavesExact 1 t = owns (c : Thread nD τ) (st1_1 t) fullShare ((dat1 V c).after 1 t) from by
        unfold Dat.leavesExact; rw [liveAt1_1 t h7], after1_1]
      rw [show (dat1 V c).leavesExact 2 t = owns (c : Thread nD τ) (st1_2 t) fullShare ((dat1 V c).after 2 t) from by
        unfold Dat.leavesExact; rw [liveAt1_2 t h7], after1_2]
      rw [runMin_pos V c t h0, runMax_pos V c t h0]
      rw [Phi1_castSucc V c t, Phi1_pos V c _ _ h0]
      iintro ⟨⟨HS0, HS1, HR, Hg⟩, Ho, ⟨%d0, H0⟩, ⟨%d1, H1⟩, ⟨%d2, H2⟩⟩
      iapply (sound_kernel1_C c Set.univ (grid1.coords t) _ _ _ _ _ _ _ _ _ _
        (fun h => h0 ((hcond1_0 t).mp h)) ((hcond1_1 t).mpr h0) ((hcond1_2 t).mpr h7)
        (iblk1 V c 0 t) _ _ _)
      isplitl [H0]; · iexact H0
      isplitl [H1]; · iexists _; iexact H1
      isplitl [H2]; · iexists _; iexact H2
      isplitl [HS0]; · iexact HS0
      isplitl [HS1]; · iexact HS1
      iintro ⟨H0, H1, H2, HS0, HS1⟩
      isplitl [HS0 HS1 HR Hg]
      · isplitl [HS0]; · iexact HS0
        isplitl [HS1]; · iexact HS1
        isplitl [HR]; · iexact HR
        iexact Hg
      isplitl [Ho]; · iexact Ho
      isplitl [H0]; · iexact H0
      isplitl [H1]; · iexact H1
      iexact H2
    · rw [Dat.leavesExact_idle (dat1 V c) 1 t (idleAt1_1 t h7) (noFlush1_1 t h7)]
      rw [Dat.leavesExact_idle (dat1 V c) 2 t (idleAt1_2 t h7) (noFlush1_2 t h7)]
      rw [runMin_pos V c t h0, runMax_pos V c t h0]
      rw [Phi1_castSucc V c t, Phi1_pos V c _ _ h0]
      iintro ⟨⟨HS0, HS1, HR, Hg⟩, Ho, ⟨%d0, H0⟩, ⟨%d1, H1⟩, ⟨%d2, H2⟩⟩
      iapply (sound_kernel1_B c Set.univ (grid1.coords t) _ _ _ _ _ _ _ _ _ _
        (fun h => h0 ((hcond1_0 t).mp h)) ((hcond1_1 t).mpr h0) (fun h => h7 ((hcond1_2 t).mp h))
        (iblk1 V c 0 t) _ _ _ _ _)
      isplitl [H0]; · iexact H0
      isplitl [H1]; · iexact H1
      isplitl [H2]; · iexact H2
      isplitl [HS0]; · iexact HS0
      isplitl [HS1]; · iexact HS1
      iintro ⟨H0, H1, H2, HS0, HS1⟩
      isplitl [HS0 HS1 HR Hg]
      · isplitl [HS0]; · iexact HS0
        isplitl [HS1]; · iexact HS1
        isplitl [HR]; · iexact HR
        iexact Hg
      isplitl [Ho]; · iexact Ho
      isplitl [H0]; · iexact H0
      isplitl [H1]; · iexists _; iexact H1
      iexists _; iexact H2

/-- The body obligation of region 1, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 (F := F) V c).Φ 0 := by
  rw [show (dat1 V c).Φ 0 = Phi1 V c 0 (Nat.zero_le _) from rfl, Phi1_zero V c 0 _ rfl]
  try exact Idealize.SL.BI.Entails.refl _

/-- After any point but the first the invariant gives the class's back: the carried words' contents are forgotten. -/
theorem Phi1_out (c : Dev nD) (t : Fin (cfg1.N + 1)) (ht : t.val ≠ 0) : (dat1 V c).Φ t ⊢ Pipeline.ΦA spec1 c := by
  rw [Phi1_at, Phi1_pos V c _ _ ht, PhiA1_eq]
  iintro ⟨HS0, HS1, HR, Hg⟩
  isplitl [HS0 HS1 HR]
  · isplitl [HS0 HS1]
    · isplitl [HS0]
      · iexists _; iexact HS0
      iexists _; iexact HS1
    iexact HR
  iexact Hg

theorem hout1 (c : Dev nD) : (dat1 (F := F) V c).Φ (Fin.last cfg1.N) ⊢ Pipeline.ΦA spec1 c :=
  Phi1_out V c _ (by rw [Fin.val_last]; have : cfg1.N = 8 := N_1; omega)

end Cert.Kernel.Hand

end
-- ==== Proof.KBBody2.lean ====
/-
  Region 2's body obligation. At every grid point the body finds a block of the projection and the one-word step
  and offset in its three input buffers (the two words are fetched once and their block index never moves),
  stores the quantised block into the output's buffer through the whole buffer, and leaves the inputs as it found
  them.
-/
import proofs.«133292_j61151744360781_1_alg».proof.Proof.KBData

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The zero offsets of a rank-2 whole-buffer access. -/
theorem hz2' : (![0, 0] : Fin 2 → Nat) = fun _ => 0 := by
  funext a; fin_cases a <;> rfl

/-! ## The inputs' buffers hold their blocks -/

theorem before2_0 (c : Dev nD) (t : Fin cfg2.N) (d) : (dat2 V c).before 0 t d = iblk2 V c 0 t :=
  ((dat2 V c).before_in_eq_fetched 0 rfl (fun _ => rfl) (fun _ _ _ => rfl)
    (fun t => by rw [after2_0]; unfold Dat.blockOf iblk2; rw [A_eq2]; try rfl) t d).trans
    (by unfold Dat.fetched Dat.blockOf iblk2; rw [A_eq2]; try rfl)

theorem before2_1 (c : Dev nD) (t : Fin cfg2.N) (d) : (dat2 V c).before 1 t d = iblk2 V c 1 t :=
  ((dat2 V c).before_in_eq_fetched 1 rfl (fun _ => rfl) (fun _ _ _ => rfl)
    (fun t => by rw [after2_1]; unfold Dat.blockOf iblk2; rw [A_eq2]; try rfl) t d).trans
    (by unfold Dat.fetched Dat.blockOf iblk2; rw [A_eq2]; try rfl)

theorem before2_2 (c : Dev nD) (t : Fin cfg2.N) (d) : (dat2 V c).before 2 t d = iblk2 V c 2 t :=
  ((dat2 V c).before_in_eq_fetched 2 rfl (fun _ => rfl) (fun _ _ _ => rfl)
    (fun t => by rw [after2_2]; unfold Dat.blockOf iblk2; rw [A_eq2]; try rfl) t d).trans
    (by unfold Dat.fetched Dat.blockOf iblk2; rw [A_eq2]; try rfl)

/-! ## The body's triple -/

set_option maxHeartbeats 1000000 in
/-- The kernel body on whole buffers: from the projection's block `x0`, the step `x1` and the offset `x2` it leaves
    the quantised block in the fourth buffer, the inputs untouched. -/
theorem sound_kernel2 (c : Dev nD) (E : Set ℕ) (i : grid2.Coords)
    (arg1 : Memref sig .tc .vmem S1024x1024 .f32) (harg1 : arg1.IsWhole)
    (arg2 : Memref sig .tc .vmem S1x1 .f32) (harg2 : arg2.IsWhole)
    (arg3 : Memref sig .tc .vmem S1x1 .f32) (harg3 : arg3.IsWhole)
    (arg4 : Memref sig .tc .vmem S1024x1024 .f32) (harg4 : arg4.IsWhole)
    (x0 : Vec F S1024x1024 .f32) (x1 : Vec F S1x1 .f32) (x2 : Vec F S1x1 .f32) (K : PUnit → sProp 𝕄) :
    iprop(owns (c : Thread nD τ) arg1 fullShare x0 ∗ owns (c : Thread nD τ) arg2 fullShare x1
        ∗ owns (c : Thread nD τ) arg3 fullShare x2 ∗ (∃ d, owns (c : Thread nD τ) arg4 fullShare d)
        ∗ (iprop(owns (c : Thread nD τ) arg1 fullShare x0 ∗ owns (c : Thread nD τ) arg2 fullShare x1
            ∗ owns (c : Thread nD τ) arg3 fullShare x2
            ∗ owns (c : Thread nD τ) arg4 fullShare (k2_pay1 x1 x2 x0)) -∗ K ⟨⟩))
      ⊢ wp frame (wpE (defs₀ (F := F)) Variants.none c none) E
          (cc2__quant_kernel i arg1 harg1 arg2 harg2 arg3 harg3 arg4 harg4) K := by
  simp only [cc2__quant_kernel_eq_skeleton]; unfold cc2__quant_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  · iexists _; isplitr
    swap; · iexact H3
    ipureintro
    refine (View.read_writes_eq_canon _ _ _ (fun y => ⟨_, List.mem_singleton_self _, View.mem_set_unit_zero hz2' inb_S1024x1024_S1024x1024_0_0 y⟩)).trans ?_
    rw [View.canon_unit_zero hz2']
    simp only [View.readAt_eq_ld, View.ld_unit_zero (S := S1024x1024) hz2', View.ld_unit_zero (S := S1x1) hz2']

/-! ## The body obligation -/

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of region 2, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.KBRun.lean ====
/-
  The run of the whole program: @main is a host stretch (the sketch narrowed), the three kernel regions one after
  the other, and a host stretch (three reshapes). The contents of the TensorCore's unscoped buffers at each of the
  five boundaries are a fold from the launch memory: a host stretch applies its operations; a kernel region leaves
  each of its output arrays at what its write-backs add up to and every other buffer as it found it. Each region is
  entered with every unscoped buffer held at the boundary's contents, beside the generator register and the core
  owing nothing, and left in the same form at the next boundary's contents; the launch then says that every weakly
  fair execution terminates with every unscoped buffer at the last boundary's contents.
-/
import proofs.«133292_j61151744360781_1_alg».proof.Proof.KBBody0
import proofs.«133292_j61151744360781_1_alg».proof.Proof.KBBody1
import proofs.«133292_j61151744360781_1_alg».proof.Proof.KBBody2
import proofs.«133292_j61151744360781_1_alg».proof.Proof.Gen.Kernel.Regions

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

variable (m : (ℓ : Loc nD τ sig) → Buf (Elt F) ℓ) (ρ : Dev nD → PrngReg)

/-! ## The buffers' contents at the five boundaries -/

/-- At launch. -/
abbrev W0 : Dev nD → Valuation τ sig (Elt F) := fun c b => m ((c : Dev nD), b)
/-- After the first host stretch (region 0's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- After region 0 (region 1's entry): the projection and the norms written. -/
def W2 (c : Dev nD) : Valuation τ sig (Elt F) :=
  Pipeline.withArrays spec0 c (W1 m c) fun w => (dat0 (V1 m) c).arrAt w cfg0.N
abbrev V2 : (c : Dev nD) → (b : Ref sig .tc) → Buf (Elt F) ((c : Thread nD τ).loc b) := fun c b => W2 m c b
/-- After region 1 (region 2's entry): the step and the offset written. -/
def W3 (c : Dev nD) : Valuation τ sig (Elt F) :=
  Pipeline.withArrays spec1 c (W2 m c) fun w => (dat1 (V2 m) c).arrAt w cfg1.N
abbrev V3 : (c : Dev nD) → (b : Ref sig .tc) → Buf (Elt F) ((c : Thread nD τ).loc b) := fun c b => W3 m c b
/-- After region 2: the quantised projection written. -/
def W4 (c : Dev nD) : Valuation τ sig (Elt F) :=
  Pipeline.withArrays spec2 c (W3 m c) fun w => (dat2 (V3 m) c).arrAt w cfg2.N
abbrev V4 : (c : Dev nD) → (b : Ref sig .tc) → Buf (Elt F) ((c : Thread nD τ).loc b) := fun c b => W4 m c b
/-- After the last host stretch: what @main returns. -/
abbrev W5 : Dev nD → Valuation τ sig (Elt F) := fun c => StableHlo.after hostOps3 (W4 m c)

theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

theorem W3_arr (c : Dev nD) (w : Fin cfg1.W) :
    W3 m c (Proc.devRef .tc (Pipeline.arrRef spec1 w)) = (dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
theorem hF1 (c : Dev nD) (w : Fin cfg1.W) : (dat1 (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)

theorem W4_arr (c : Dev nD) (w : Fin cfg2.W) :
    W4 m c (Proc.devRef .tc (Pipeline.arrRef spec2 w)) = (dat2 (V3 m) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m c (Proc.devRef .tc b) = W3 m c (Proc.devRef .tc b) := by
  unfold W4; exact Pipeline.withArrays_of_ne spec2 c _ _ b hb
theorem hF2 (c : Dev nD) (w : Fin cfg2.W) : (dat2 (V3 m) c).arrAt w cfg2.N = V4 m c (Pipeline.arrRef spec2 w) :=
  (W4_arr m c w).symm
theorem hrest2 (c : Dev nD) : ∀ b, b ∉ Finset.univ.image (Pipeline.arrRef spec2) → V4 m c b = V3 m c b :=
  fun b hb => W4_of_ne m c b fun w e => hb (Finset.mem_image.mpr ⟨w, Finset.mem_univ _, e⟩)

/-! ## The proof data family and the thread state -/

abbrev adm : (p : Fin 3) → (pcfgs (F := F) p).Adm := fun p => (cfgs p).toPCfg_adm

/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V2 m) c
  | ⟨2, _⟩ => fun c => dat2 (V3 m) c

abbrev 𝒱₀ : Variants := Variants.none
abbrev L : GSem nD τ sig → Finset Unit := fun _ => ∅
abbrev lv : GSem nD τ sig → Unit → ℕ := fun _ _ => 0

/-- What rides beside the buffers through every segment: the generator register at some state, the core owing nothing. -/
abbrev R (c : Dev nD) : sProp 𝕄 := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state without the core's debts: every unscoped buffer at the last boundary's contents. -/
abbrev Tₙ (c : Dev nD) : sProp 𝕄 := StableHlo.held (c : Thread nD τ) (Pipeline.ucRefs τ sig) (W5 m c)

/-- What rides beside the buffers yields the core owing nothing (the generator register is let go). -/
theorem R_owes (c : Dev nD) : R c ⊢ (iprop(∃ W, owes (c : Thread nD τ) (0 : CellTallies nD τ sig Unit) W) : sProp 𝕄) := by
  iintro ⟨-, HO⟩; iexact HO

/-! ## The regions as segments -/

set_option backward.isDefEq.respectTransparency.types false in
/-- Region 0 between the contents `W1` and `W2`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 between the contents `W2` and `W3`: its invariant starts from the scoped buffers at anything and ends
    by forgetting what the two carried words hold. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : Pipeline.ΦA spec1 c ⊢ (pdats m 1 c).Φ 0 := hin1 (V2 m) c
    unfold Pipeline.ΦA at h
    iintro ⟨Hp, -, Hr⟩
    iapply h
    isplitl [Hr]; · iexact Hr
    iexact Hp
  hout c := by
    have h : (pdats m 1 c).Φ (Fin.last _) ⊢ Pipeline.ΦA spec1 c := hout1 (V2 m) c
    unfold Pipeline.ΦA at h
    rw [Pipeline.ownSems0_none]
    iintro Hphi
    ihave H := h $$ Hphi
    icases H with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 between the contents `W3` and `W4`. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V3 m) c).loose
  hwaits := Pipeline.hwaits_of_owed_zero _ _ _ _ L lv 2 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec2 c (V3 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V3 m c) (V4 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- The last host stretch as a segment whose exit splits the core's debts off (what the launch's chain ends with). -/
abbrev segs : List (Pipeline.Seg (pcfgs (F := F)) adm (pdats m) () defs₀ 𝒱₀ L lv) :=
  [ .host (hseg hostOps0 hostOps0_sub hostOps0_fresh (W0 m)),
    .region (reg0 m),
    .region (reg1 m),
    .region (reg2 m),
    .host (hseg hostOps3 hostOps3_sub hostOps3_fresh (W4 m)) ]

theorem main_run (c : Dev nD) : main (F := F) c = Pipeline.Seg.run (segs m) := (main_chain c).trans (by chain_rfl)

set_option backward.isDefEq.respectTransparency.types false in
/-- THE RUN: from any memory with zero counters every weakly fair execution of @main terminates, nothing faulting,
    and every unscoped buffer of every core ends at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun c => sep_mono .rfl (R_owes c)⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      unfold Tₙ StableHlo.held
      iintro ⟨Hh, HSI⟩
      imodintro
      iapply (pointsTo_read_all (Pipeline.ucRefs τ sig) (fun b => (((c : Thread nD τ)).1, b)) (W5 m c) s')
      isplitl [Hh] <;> iassumption)
    (hQ := fun s h c => h c)

end Cert.Kernel.Hand

end
-- ==== Proof.KBFrame.lean ====
/-
  What the run leaves. No host operation writes an argument and no region has one as an output, so both arguments
  come back as launched: that is the frame. The projection reaches regions 1 and 2 as region 0 left it, the step and
  the offset reach region 2 and the last host stretch as region 1 left them, and the four results are region 2's
  output array and the reshapes of the norms, the step and the offset.
-/
import proofs.«133292_j61151744360781_1_alg».proof.Proof.KBRun

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

variable (m : (ℓ : Loc nD τ sig) → Buf (Elt F) ℓ) (ρ : Dev nD → PrngReg)

/-! ## The arguments come back as launched -/

theorem W5_of (c : Dev nD) (r : Ref sig .tc) (h : r ∉ hostOps3_W) : W5 m c r = W4 m c r :=
  StableHlo.after_of_writes_sub hostOps3 _ hostOps3_writes h
theorem W1_of (c : Dev nD) (r : Ref sig .tc) (h : r ∉ hostOps0_W) : W1 m c r = W0 m c r :=
  StableHlo.after_of_writes_sub hostOps0 _ hostOps0_writes h

/-- The keys are window 0's array of region 0 (an input: kept), no array of regions 1 and 2, and written by no host operation. -/
theorem W5_main_arg0 (c : Dev nD) : W5 m c main_arg0 = m ((c : Thread nD τ).loc main_arg0) :=
  calc W5 m c main_arg0
    _ = W4 m c main_arg0 := W5_of m c main_arg0 (by decide)
    _ = W3 m c main_arg0 := W4_of_ne m c main_arg0 (by decide)
    _ = W2 m c main_arg0 := W3_of_ne m c main_arg0 (by decide)
    _ = W1 m c main_arg0 := (W2_arr m c 0).trans (((dat0 (V1 m) c).arrAt_in 0 rfl _).trans (A_eq0 (V1 m) c 0))
    _ = W0 m c main_arg0 := W1_of m c main_arg0 (by decide)
    _ = m ((c : Thread nD τ).loc main_arg0) := rfl

/-- The sketch is no region's array (region 0 stages its narrowed copy) and is written by no host operation. -/
theorem W5_main_arg1 (c : Dev nD) : W5 m c main_arg1 = m ((c : Thread nD τ).loc main_arg1) :=
  calc W5 m c main_arg1
    _ = W4 m c main_arg1 := W5_of m c main_arg1 (by decide)
    _ = W3 m c main_arg1 := W4_of_ne m c main_arg1 (by decide)
    _ = W2 m c main_arg1 := W3_of_ne m c main_arg1 (by decide)
    _ = W1 m c main_arg1 := W2_of_ne m c main_arg1 (by decide)
    _ = W0 m c main_arg1 := W1_of m c main_arg1 (by decide)
    _ = m ((c : Thread nD τ).loc main_arg1) := rfl

/-- THE FRAME, at any instance: every weakly fair execution of @main terminates, nothing faulting, and both
    argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c _ (mem_uc main_arg0 (by decide))).trans (W5_main_arg0 m c),
     (h c _ (mem_uc main_arg1 (by decide))).trans (W5_main_arg1 m c)⟩) (run_all m ρ)

/-! ## What each region is entered with, and what @main returns -/

/-- Region 0 finds the keys as launched, -/
theorem V1_main_arg0 (c : Dev nD) : V1 m c main_arg0 = m ((c : Thread nD τ).loc main_arg0) :=
  (W1_of m c main_arg0 (by decide)).trans rfl

/-- and region 1 finds the projection as region 0's write-backs leave it. -/
theorem V2_main_v1_0 (c : Dev nD) : V2 m c main_v1_0 = (dat0 (V1 m) c).arrAt 2 cfg0.N := W2_arr m c 2

/-- Region 2 finds the projection unchanged by region 1 (its input there), -/
theorem V3_main_v1_0 (c : Dev nD) : V3 m c main_v1_0 = (dat0 (V1 m) c).arrAt 2 cfg0.N :=
  ((W3_arr m c 0).trans (((dat1 (V2 m) c).arrAt_in 0 rfl _).trans (A_eq1 (V2 m) c 0))).trans (V2_main_v1_0 m c)
/-- and the step and the offset as region 1's write-backs leave them. -/
theorem V3_main_v2_0 (c : Dev nD) : V3 m c main_v2_0 = (dat1 (V2 m) c).arrAt 1 cfg1.N := W3_arr m c 1
theorem V3_main_v2_1 (c : Dev nD) : V3 m c main_v2_1 = (dat1 (V2 m) c).arrAt 2 cfg1.N := W3_arr m c 2

/-- The first result: what region 2's write-backs leave. -/
theorem W5_main_v3 (c : Dev nD) : W5 m c main_v3 = (dat2 (V3 m) c).arrAt 3 cfg2.N :=
  (W5_of m c main_v3 (by decide)).trans (W4_arr m c 3)

/-- The norms, the step and the offset reach the last host stretch as their regions left them. -/
theorem W4_main_v1_1 (c : Dev nD) : W4 m c main_v1_1 = (dat0 (V1 m) c).arrAt 3 cfg0.N :=
  (W4_of_ne m c main_v1_1 (by decide)).trans ((W3_of_ne m c main_v1_1 (by decide)).trans (W2_arr m c 3))
theorem W4_main_v2_0 (c : Dev nD) : W4 m c main_v2_0 = (dat1 (V2 m) c).arrAt 1 cfg1.N :=
  ((W4_arr m c 1).trans (((dat2 (V3 m) c).arrAt_in 1 rfl _).trans (A_eq2 (V3 m) c 1))).trans (V3_main_v2_0 m c)
theorem W4_main_v2_1 (c : Dev nD) : W4 m c main_v2_1 = (dat1 (V2 m) c).arrAt 2 cfg1.N :=
  ((W4_arr m c 2).trans (((dat2 (V3 m) c).arrAt_in 2 rfl _).trans (A_eq2 (V3 m) c 2))).trans (V3_main_v2_1 m c)

/-! ## The host stretches' own results -/

/-- Region 0 finds the sketch narrowed entry by entry. -/
theorem V1_main_v0 (c : Dev nD) : V1 m c main_v0 = truncf .bf16 (m ((c : Thread nD τ).loc main_arg1)) bitsLt_bf16_f32 := by
  show StableHlo.after hostOps0 (W0 m c) (Proc.devRef .tc main_v0) = _
  after_results

/-- The last three results are the norms, the step and the offset re-laid without their unit axes. -/
theorem W5_main_v4 (c : Dev nD) : W5 m c main_v4 = shapeCast S16384 (W4 m c main_v1_1) shapeCasts_S16384x1_S16384 := by
  show StableHlo.after hostOps3 (W4 m c) (Proc.devRef .tc main_v4) = _
  after_results; rfl
theorem W5_main_v5 (c : Dev nD) : W5 m c main_v5 = shapeCast S_ (W4 m c main_v2_0) shapeCasts_S1x1_S_ := by
  show StableHlo.after hostOps3 (W4 m c) (Proc.devRef .tc main_v5) = _
  after_results; rfl
theorem W5_main_v6 (c : Dev nD) : W5 m c main_v6 = shapeCast S_ (W4 m c main_v2_1) shapeCasts_S1x1_S_ := by
  show StableHlo.after hostOps3 (W4 m c) (Proc.devRef .tc main_v6) = _
  after_results; rfl

end Cert.Kernel.Hand

end
-- ==== Proof.KIData.lean ====
/-
  The proof data of the three pipelined kernels, stated at a parameter `V`: the contents of the TensorCore's
  buffers when a kernel region is entered.

  Region 0 (grid of 64 row blocks): block `t` of the projection is the matrix product of rows
  `256 t … 256 t + 255` of the keys with the whole (narrowed) sketch, contracted over all 4096 columns at once, and
  block `t` of the norms is the square root of each of those rows' sum of squares.
  Region 1 (grid of 8 row blocks of the projection, run in order): two one-word scratch buffers carry the least and
  the greatest entry met so far — set to block 0's extremes at the first point, joined with block `t`'s at every later
  one — and at the last point the quantisation step and offset are formed from them and stored.
  Region 2 (grid of 16 row blocks): each block of the projection is quantised entry by entry with that step and offset.
-/
import proofs.«133292_j61151744360781_1_alg».proof.Proof.Gen.KernelIdeal.Launch
import proofs.«133292_j61151744360781_1_alg».proof.Proof.Gen.KernelIdeal.Skeleton
import proofs.«133292_j61151744360781_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Region 0: the projection and the row norms -/

/-- Window `w`'s block at grid point `t`, read off its array as region 0 finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Region 0's proof data: the two inputs stay at their blocks; the projection's buffer ends at the product of the
    keys' block with the sketch, the norms' buffer at the square roots of the keys' block's row sums of squares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => k0_pay1 (iblk0 V c 0 t) (iblk0 V c 1 t)
    | ⟨3, _⟩ => k0_pay2 (iblk0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) :
    (dat0 V c).after 2 t = k0_pay1 (iblk0 V c 0 t) (iblk0 V c 1 t) := by dsimp only [dat0]
theorem after0_3 (c : Dev nD) (t : Fin cfg0.N) : (dat0 V c).after 3 t = k0_pay2 (iblk0 V c 0 t) := by dsimp only [dat0]

/-! ## Region 1: the running extremes, then the step and the offset -/

/-- Window `w`'s block at grid point `t`, read off its array as region 1 finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The first scratch word after point `n`: the least entry of blocks `0 … n` of the projection, block by block. -/
def runMin (c : Dev nD) : (n : ℕ) → n < cfg1.N → Vec F S1x1 .f32
  | 0, hn => k1_pay4 (iblk1 V c 0 ⟨0, hn⟩)
  | n + 1, hn => k1_pay6 (iblk1 V c 0 ⟨n + 1, hn⟩) (runMin c n (Nat.lt_of_succ_lt hn))

/-- The second scratch word after point `n`: the greatest entry of blocks `0 … n`, block by block. -/
def runMax (c : Dev nD) : (n : ℕ) → n < cfg1.N → Vec F S1x1 .f32
  | 0, hn => k1_pay5 (iblk1 V c 0 ⟨0, hn⟩)
  | n + 1, hn => k1_pay7 (iblk1 V c 0 ⟨n + 1, hn⟩) (runMax c n (Nat.lt_of_succ_lt hn))

/-- The two scratch words as whole memrefs. -/
abbrev scMin : Memref sig .tc .vmem S1x1 .f32 := Memref.whole cc1_scratch0
abbrev scMax : Memref sig .tc .vmem S1x1 .f32 := Memref.whole cc1_scratch1

/-- Region 1's invariant before position `n`: before the first point every scratch buffer holds anything; afterwards
    the two carried words hold the extremes of the blocks met so far, every other scoped buffer anything. -/
def Phi1 (c : Dev nD) : (n : ℕ) → n ≤ cfg1.N → sProp 𝕄
  | 0, _ => Pipeline.ΦA spec1 c
  | n + 1, hn => iprop(owns (c : Thread nD τ) scMin fullShare (runMin V c n hn)
      ∗ owns (c : Thread nD τ) scMax fullShare (runMax V c n hn)
      ∗ Pipeline.scopedRestBut (Ix := Unit) (Name := ℕ) (U := UR sig nD τ) (Lvl := ℕ) (Val := Elt F) spec1 c [cc1_scratch0, cc1_scratch1]
      ∗ (∃ r, prngReg c r))

/-- Region 1's proof data: the input stays at its block; the step's and the offset's one-word buffers, stored at
    the last point only, are formed from the two carried words there. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => k1_pay9 (runMin V c t.val t.isLt) (runMax V c t.val t.isLt)
    | ⟨2, _⟩ => k1_pay10 (runMin V c t.val t.isLt) (runMax V c t.val t.isLt)
  Φ t := Phi1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) :
    (dat1 V c).after 1 t = k1_pay9 (runMin V c t.val t.isLt) (runMax V c t.val t.isLt) := by dsimp only [dat1]
theorem after1_2 (c : Dev nD) (t : Fin cfg1.N) :
    (dat1 V c).after 2 t = k1_pay10 (runMin V c t.val t.isLt) (runMax V c t.val t.isLt) := by dsimp only [dat1]
theorem Phi1_at (c : Dev nD) (t : Fin (cfg1.N + 1)) :
    (dat1 V c).Φ t = Phi1 V c t.val (Nat.le_of_lt_succ t.isLt) := by dsimp only [dat1]

/-! ## Region 2: the quantisation -/

/-- Window `w`'s block at grid point `t`, read off its array as region 2 finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Region 2's proof data: the three inputs stay at their blocks; the output's buffer ends at the projection's
    block quantised with the step and the offset. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => k2_pay1 (iblk2 V c 1 t) (iblk2 V c 2 t) (iblk2 V c 0 t)
  Φ _ := Pipeline.ΦA spec2 c
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = k2_pay1 (iblk2 V c 1 t) (iblk2 V c 2 t) (iblk2 V c 0 t) := by dsimp only [dat2]

end Cert.KernelIdeal.Hand

end
-- ==== Proof.KIBody0.lean ====
/-
  Region 0's body obligation. At every grid point the body finds the keys' block and the whole sketch in its two
  input buffers (the sketch is fetched once and its block index never moves), stores the product into the
  projection's buffer and the row norms into the norms' buffer, each through the whole buffer, and leaves the
  inputs as it found them.
-/
import proofs.«133292_j61151744360781_1_alg».proof.Proof.KIData

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The zero offsets of a rank-2 whole-buffer access. -/
theorem hz2 : (![0, 0] : Fin 2 → Nat) = fun _ => 0 := by
  funext a; fin_cases a <;> rfl

/-! ## The inputs' buffers hold their blocks -/

theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)

theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)

/-! ## The body's triple -/

set_option maxHeartbeats 1000000 in
/-- The kernel body on whole buffers: from the keys' block `x0` and the sketch `x1` it leaves their product in the
    third buffer and the row norms of `x0` in the fourth, the inputs untouched. -/
theorem sound_kernel0 (c : Dev nD) (E : Set ℕ) (i : grid0.Coords)
    (arg1 : Memref sig .tc .vmem S256x4096 .f32) (harg1 : arg1.IsWhole)
    (arg2 : Memref sig .tc .vmem S1024x4096 .bf16) (harg2 : arg2.IsWhole)
    (arg3 : Memref sig .tc .vmem S256x1024 .f32) (harg3 : arg3.IsWhole)
    (arg4 : Memref sig .tc .vmem S256x1 .f32) (harg4 : arg4.IsWhole)
    (x0 : Vec F S256x4096 .f32) (x1 : Vec F S1024x4096 .bf16) (K : PUnit → sProp 𝕄) :
    iprop(owns (c : Thread nD τ) arg1 fullShare x0 ∗ owns (c : Thread nD τ) arg2 fullShare x1
        ∗ (∃ d, owns (c : Thread nD τ) arg3 fullShare d) ∗ (∃ d, owns (c : Thread nD τ) arg4 fullShare d)
        ∗ (iprop(owns (c : Thread nD τ) arg1 fullShare x0 ∗ owns (c : Thread nD τ) arg2 fullShare x1
            ∗ owns (c : Thread nD τ) arg3 fullShare (k0_pay1 x0 x1)
            ∗ owns (c : Thread nD τ) arg4 fullShare (k0_pay2 x0)) -∗ K ⟨⟩))
      ⊢ wp frame (wpE (defs₀ (F := F)) Variants.none c none) E
          (cc0__mm_norm_kernel i arg1 harg1 arg2 harg2 arg3 harg3 arg4 harg4) K := by
  simp only [cc0__mm_norm_kernel_eq_skeleton]; unfold cc0__mm_norm_kernel_skel
  unfold owns
  iintro ⟨⟨%f0, %hf0, H0⟩, ⟨%f1, %hf1, H1⟩, ⟨%d2, %f2, -, H2⟩, ⟨%d3, %f3, -, H3⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    refine (View.read_writes_eq_canon _ _ _ (fun y => ⟨_, List.mem_singleton_self _, View.mem_set_unit_zero hz2 inb_S256x1024_S256x1024_0_0 y⟩)).trans ?_
    rw [View.canon_unit_zero hz2]
    simp only [View.readAt_eq_ld, View.ld_unit_zero (S := S256x4096) hz2, View.ld_unit_zero (S := S1024x4096) hz2]
  · iexists _; isplitr
    swap; · iexact H3
    ipureintro
    refine (View.read_writes_eq_canon _ _ _ (fun y => ⟨_, List.mem_singleton_self _, View.mem_set_unit_zero hz2 inb_S256x1_S256x1_0_0 y⟩)).trans ?_
    rw [View.canon_unit_zero hz2]
    simp only [View.readAt_eq_ld, View.ld_unit_zero (S := S256x4096) hz2]

/-! ## The body obligation -/

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of region 0, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KIBody1.lean ====
/-
  Region 1's body obligation. The grid's eight points run in order. At every point the body finds block `t` of the
  projection in its input buffer and reduces it to its least and its greatest entry. At the first point these two
  words are stored into the two carried one-word buffers; at every later point each carried word is joined with the
  block's extreme (the lesser of the two for the first word, the greater for the second) and stored back; at the
  last point, after that join, the two carried words are read back and the quantisation step and offset formed from
  them are stored into the two one-word output buffers. At every point but the last the body leaves the two output
  buffers as it found them, and the pipeline does not write them back there.
-/
import proofs.«133292_j61151744360781_1_alg».proof.Proof.KIData

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The zero offsets of a rank-2 whole-buffer access. -/
theorem hz1 : (![0, 0] : Fin 2 → Nat) = fun _ => 0 := by
  funext a; fin_cases a <;> rfl

/-- One store through the whole of a one-word buffer leaves its payload there, whatever the buffer held. -/
theorem read_store_word (v : View sig .tc .vmem S1x1 .f32) (f : v.ty.Contents (Elt F)) (w : Vec F S1x1 .f32) :
    v.read (Elt F) (v.writes (Elt F) f [(⟨Rect.unit ![0, 0] S1x1.size inb_S1x1_S1x1_0_0, w⟩ : View.Piece (Elt F) S1x1 .f32)]) = w := by
  refine (View.read_writes_eq_canon _ _ _ (fun y => ⟨(⟨Rect.unit ![0, 0] S1x1.size inb_S1x1_S1x1_0_0, w⟩ : View.Piece (Elt F) S1x1 .f32), List.mem_singleton_self _, View.mem_set_unit_zero hz1 inb_S1x1_S1x1_0_0 y⟩)).trans ?_
  rw [View.canon_unit_zero hz1]

/-! ## The body's three conditions, in closed form over the grid -/

/-- The condition under which the carried words are first set: the grid coordinate is `0`. -/
abbrev cond1_0 (i : grid1.Coords) : Prop := (Scalar.cmpi .ne (Scalar.extui (Scalar.cmpi .eq (BitVec.ofNat 32 (i 0).val) 0#32)) 0#32) = 1#1
/-- The condition under which the carried words are joined with the block's extremes: the coordinate is positive. -/
abbrev cond1_1 (i : grid1.Coords) : Prop := (Scalar.cmpi .ne (Scalar.extui (Scalar.cmpi .sgt (BitVec.ofNat 32 (i 0).val) 0#32)) 0#32) = 1#1
/-- The condition under which the step and the offset are stored: the coordinate is `7`. -/
abbrev cond1_2 (i : grid1.Coords) : Prop := k1_cond3 i = 1#1

/-- Each holds at exactly the points named, decided over the eight points. -/
theorem hcond1_0 : ∀ t : Fin cfg1.N, cond1_0 (grid1.coords t) ↔ t.val = 0 :=
  (by decide +kernel : ∀ t : Fin grid1.N, cond1_0 (grid1.coords t) ↔ t.val = 0)
theorem hcond1_1 : ∀ t : Fin cfg1.N, cond1_1 (grid1.coords t) ↔ t.val ≠ 0 :=
  (by decide +kernel : ∀ t : Fin grid1.N, cond1_1 (grid1.coords t) ↔ t.val ≠ 0)
theorem hcond1_2 : ∀ t : Fin cfg1.N, cond1_2 (grid1.coords t) ↔ t.val = 7 :=
  (by decide +kernel : ∀ t : Fin grid1.N, cond1_2 (grid1.coords t) ↔ t.val = 7)

/-! ## The body's triple, one per control case -/

set_option maxHeartbeats 1000000 in
/-- The first point: whatever the two carried buffers held, they end at the block's least and greatest entry;
    the input and the two output buffers are left as found. -/
theorem sound_kernel1_A (c : Dev nD) (E : Set ℕ) (i : grid1.Coords)
    (arg1 : Memref sig .tc .vmem S2048x1024 .f32) (harg1 : arg1.IsWhole)
    (arg2 : Memref sig .tc .vmem S1x1 .f32) (harg2 : arg2.IsWhole)
    (arg3 : Memref sig .tc .vmem S1x1 .f32) (harg3 : arg3.IsWhole)
    (arg4 : Memref sig .tc .vmem S1x1 .f32) (harg4 : arg4.IsWhole)
    (arg5 : Memref sig .tc .vmem S1x1 .f32) (harg5 : arg5.IsWhole)
    (hc0 : cond1_0 i) (hc1 : ¬cond1_1 i) (hc2 : ¬cond1_2 i)
    (x0 : Vec F S2048x1024 .f32) (y1 y2 : Vec F S1x1 .f32) (K : PUnit → sProp 𝕄) :
    iprop(owns (c : Thread nD τ) arg1 fullShare x0 ∗ owns (c : Thread nD τ) arg2 fullShare y1
        ∗ owns (c : Thread nD τ) arg3 fullShare y2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare y1
            ∗ owns (c : Thread nD τ) arg3 fullShare y2
            ∗ owns (c : Thread nD τ) arg4 fullShare (k1_pay4 x0)
            ∗ owns (c : Thread nD τ) arg5 fullShare (k1_pay5 x0)) -∗ K ⟨⟩))
      ⊢ wp frame (wpE (defs₀ (F := F)) Variants.none c none) E
          (cc1__minmax_kernel i arg1 harg1 arg2 harg2 arg3 harg3 arg4 harg4 arg5 harg5) K := by
  simp only [cc1__minmax_kernel_eq_skeleton]; unfold cc1__minmax_kernel_skel
  unfold owns
  iintro ⟨⟨%f0, %hf0, H0⟩, ⟨%f1, %hf1, H1⟩, ⟨%f2, %hf2, H2⟩, ⟨%d4, %f4, -, H4⟩, ⟨%d5, %f5, -, H5⟩, Hk⟩
  subst hf0; subst hf1; subst hf2
  sl_exec (disch := first | exact hc0 | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H4]
  · iexists _; isplitr
    swap; · iexact H4
    ipureintro
    refine (read_store_word _ _ _).trans ?_
    simp only [View.readAt_eq_ld, View.ld_unit_zero (S := S2048x1024) hz1]
  · iexists _; isplitr
    swap; · iexact H5
    ipureintro
    refine (read_store_word _ _ _).trans ?_
    simp only [View.readAt_eq_ld, View.ld_unit_zero (S := S2048x1024) hz1]

set_option maxHeartbeats 1000000 in
/-- A point strictly between the first and the last: the carried words `s0`, `s1` end joined with the block's
    extremes; the input and the two output buffers are left as found. -/
theorem sound_kernel1_B (c : Dev nD) (E : Set ℕ) (i : grid1.Coords)
    (arg1 : Memref sig .tc .vmem S2048x1024 .f32) (harg1 : arg1.IsWhole)
    (arg2 : Memref sig .tc .vmem S1x1 .f32) (harg2 : arg2.IsWhole)
    (arg3 : Memref sig .tc .vmem S1x1 .f32) (harg3 : arg3.IsWhole)
    (arg4 : Memref sig .tc .vmem S1x1 .f32) (harg4 : arg4.IsWhole)
    (arg5 : Memref sig .tc .vmem S1x1 .f32) (harg5 : arg5.IsWhole)
    (hc0 : ¬cond1_0 i) (hc1 : cond1_1 i) (hc2 : ¬cond1_2 i)
    (x0 : Vec F S2048x1024 .f32) (y1 y2 s0 s1 : Vec F S1x1 .f32) (K : PUnit → sProp 𝕄) :
    iprop(owns (c : Thread nD τ) arg1 fullShare x0 ∗ owns (c : Thread nD τ) arg2 fullShare y1
        ∗ owns (c : Thread nD τ) arg3 fullShare y2
        ∗ owns (c : Thread nD τ) arg4 fullShare s0 ∗ owns (c : Thread nD τ) arg5 fullShare s1
        ∗ (iprop(owns (c : Thread nD τ) arg1 fullShare x0 ∗ owns (c : Thread nD τ) arg2 fullShare y1
            ∗ owns (c : Thread nD τ) arg3 fullShare y2
            ∗ owns (c : Thread nD τ) arg4 fullShare (k1_pay6 x0 s0)
            ∗ owns (c : Thread nD τ) arg5 fullShare (k1_pay7 x0 s1)) -∗ K ⟨⟩))
      ⊢ wp frame (wpE (defs₀ (F := F)) Variants.none c none) E
          (cc1__minmax_kernel i arg1 harg1 arg2 harg2 arg3 harg3 arg4 harg4 arg5 harg5) K := by
  simp only [cc1__minmax_kernel_eq_skeleton]; unfold cc1__minmax_kernel_skel
  unfold owns
  iintro ⟨⟨%f0, %hf0, H0⟩, ⟨%f1, %hf1, H1⟩, ⟨%f2, %hf2, H2⟩, ⟨%f4, %hf4, H4⟩, ⟨%f5, %hf5, H5⟩, Hk⟩
  subst hf0; subst hf1; subst hf2; subst hf4; subst hf5
  sl_exec (disch := first | exact hc0 | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H4]
  · iexists _; isplitr
    swap; · iexact H4
    ipureintro
    refine (read_store_word _ _ _).trans ?_
    simp only [View.readAt_eq_ld, View.ld_unit_zero (S := S2048x1024) hz1, View.ld_unit_zero (S := S1x1) hz1]
  · iexists _; isplitr
    swap; · iexact H5
    ipureintro
    refine (read_store_word _ _ _).trans ?_
    simp only [View.readAt_eq_ld, View.ld_unit_zero (S := S2048x1024) hz1, View.ld_unit_zero (S := S1x1) hz1]

set_option maxHeartbeats 1000000 in
/-- The last point: the carried words end joined with the block's extremes, and the two output buffers end at
    the step and the offset formed from the joined words; the input is left as found. -/
theorem sound_kernel1_C (c : Dev nD) (E : Set ℕ) (i : grid1.Coords)
    (arg1 : Memref sig .tc .vmem S2048x1024 .f32) (harg1 : arg1.IsWhole)
    (arg2 : Memref sig .tc .vmem S1x1 .f32) (harg2 : arg2.IsWhole)
    (arg3 : Memref sig .tc .vmem S1x1 .f32) (harg3 : arg3.IsWhole)
    (arg4 : Memref sig .tc .vmem S1x1 .f32) (harg4 : arg4.IsWhole)
    (arg5 : Memref sig .tc .vmem S1x1 .f32) (harg5 : arg5.IsWhole)
    (hc0 : ¬cond1_0 i) (hc1 : cond1_1 i) (hc2 : cond1_2 i)
    (x0 : Vec F S2048x1024 .f32) (s0 s1 : Vec F S1x1 .f32) (K : PUnit → sProp 𝕄) :
    iprop(owns (c : Thread nD τ) arg1 fullShare x0 ∗ (∃ d, owns (c : Thread nD τ) arg2 fullShare d)
        ∗ (∃ d, owns (c : Thread nD τ) arg3 fullShare d)
        ∗ owns (c : Thread nD τ) arg4 fullShare s0 ∗ owns (c : Thread nD τ) arg5 fullShare s1
        ∗ (iprop(owns (c : Thread nD τ) arg1 fullShare x0
            ∗ owns (c : Thread nD τ) arg2 fullShare (k1_pay9 (k1_pay6 x0 s0) (k1_pay7 x0 s1))
            ∗ owns (c : Thread nD τ) arg3 fullShare (k1_pay10 (k1_pay6 x0 s0) (k1_pay7 x0 s1))
            ∗ owns (c : Thread nD τ) arg4 fullShare (k1_pay6 x0 s0)
            ∗ owns (c : Thread nD τ) arg5 fullShare (k1_pay7 x0 s1)) -∗ K ⟨⟩))
      ⊢ wp frame (wpE (defs₀ (F := F)) Variants.none c none) E
          (cc1__minmax_kernel i arg1 harg1 arg2 harg2 arg3 harg3 arg4 harg4 arg5 harg5) K := by
  simp only [cc1__minmax_kernel_eq_skeleton]; unfold cc1__minmax_kernel_skel
  unfold owns
  iintro ⟨⟨%f0, %hf0, H0⟩, ⟨%d1, %f1, -, H1⟩, ⟨%d2, %f2, -, H2⟩, ⟨%f4, %hf4, H4⟩, ⟨%f5, %hf5, H5⟩, Hk⟩
  subst hf0; subst hf4; subst hf5
  sl_exec (disch := first | exact hc0 | exact hc1 | exact hc2)
  sl_step
  iapply Hk
  isplitl [H0]
  · iexists f0; isplitr; · ipureintro; rfl
    iexact H0
  isplitl [H1]
  · iexists _; isplitr
    swap; · iexact H1
    ipureintro
    refine (read_store_word _ _ _).trans ?_
    sl_unfold_words
    simp only [View.readCov_unit_zero (S := S1x1) _ hz1, View.readAt_eq_ld, View.ld_unit_zero (S := S2048x1024) hz1, View.ld_unit_zero (S := S1x1) hz1]
  isplitl [H2]
  · iexists _; isplitr
    swap; · iexact H2
    ipureintro
    refine (read_store_word _ _ _).trans ?_
    sl_unfold_words
    simp only [View.readCov_unit_zero (S := S1x1) _ hz1, View.readAt_eq_ld, View.ld_unit_zero (S := S2048x1024) hz1, View.ld_unit_zero (S := S1x1) hz1]
  isplitl [H4]
  · iexists _; isplitr
    swap; · iexact H4
    ipureintro
    sl_unfold_words
    refine (read_store_word _ _ _).trans ?_
    simp only [View.readAt_eq_ld, View.ld_unit_zero (S := S2048x1024) hz1, View.ld_unit_zero (S := S1x1) hz1]
  · iexists _; isplitr
    swap; · iexact H5
    ipureintro
    sl_unfold_words
    refine (read_store_word _ _ _).trans ?_
    simp only [View.readAt_eq_ld, View.ld_unit_zero (S := S2048x1024) hz1, View.ld_unit_zero (S := S1x1) hz1]

/-! ## The invariant, position by position -/

theorem Phi1_zero (c : Dev nD) (n : ℕ) (h : n ≤ cfg1.N) (hz : n = 0) : Phi1 V c n h = Pipeline.ΦA spec1 c := by
  subst hz; rfl

/-- After point `n` (before point `n + 1`): the two carried words at that point's extremes. -/
theorem Phi1_succ (c : Dev nD) (n : ℕ) (hn : n < cfg1.N) :
    Phi1 V c (n + 1) hn = iprop(owns (c : Thread nD τ) scMin fullShare (runMin V c n hn)
      ∗ owns (c : Thread nD τ) scMax fullShare (runMax V c n hn)
      ∗ Pipeline.scopedRestBut (Ix := Unit) (Name := ℕ) (U := UR sig nD τ) (Lvl := ℕ) (Val := Elt F) spec1 c [cc1_scratch0, cc1_scratch1]
      ∗ (∃ r, prngReg c r)) := rfl

/-- Before a point that is not the first: the two carried words at what the point before left. -/
theorem Phi1_pos (c : Dev nD) (n : ℕ) (h : n ≤ cfg1.N) (hz : n ≠ 0) :
    Phi1 V c n h = iprop(owns (c : Thread nD τ) scMin fullShare (runMin V c (n - 1) (by omega))
      ∗ owns (c : Thread nD τ) scMax fullShare (runMax V c (n - 1) (by omega))
      ∗ Pipeline.scopedRestBut (Ix := Unit) (Name := ℕ) (U := UR sig nD τ) (Lvl := ℕ) (Val := Elt F) spec1 c [cc1_scratch0, cc1_scratch1]
      ∗ (∃ r, prngReg c r)) := by
  cases n with
  | zero => exact absurd rfl hz
  | succ n => rfl

theorem Phi1_castSucc (c : Dev nD) (t : Fin cfg1.N) :
    (dat1 V c).Φ t.castSucc = Phi1 V c t.val (Nat.le_of_lt t.isLt) := by
  dsimp only [dat1]; simp only [Fin.coe_castSucc]

/-- The running extremes at the first point and at a later one. -/
theorem runMin_zero (c : Dev nD) (t : Fin cfg1.N) (hz : t.val = 0) :
    runMin V c t.val t.isLt = k1_pay4 (iblk1 V c 0 t) := by
  obtain ⟨n, hn⟩ := t
  cases n with
  | zero => rfl
  | succ n => exact absurd hz (Nat.succ_ne_zero n)

theorem runMax_zero (c : Dev nD) (t : Fin cfg1.N) (hz : t.val = 0) :
    runMax V c t.val t.isLt = k1_pay5 (iblk1 V c 0 t) := by
  obtain ⟨n, hn⟩ := t
  cases n with
  | zero => rfl
  | succ n => exact absurd hz (Nat.succ_ne_zero n)

theorem runMin_pos (c : Dev nD) (t : Fin cfg1.N) (hz : t.val ≠ 0) :
    runMin V c t.val t.isLt
      = k1_pay6 (iblk1 V c 0 t) (runMin V c (t.val - 1) (Nat.lt_of_le_of_lt (Nat.sub_le _ _) t.isLt)) := by
  obtain ⟨n, hn⟩ := t
  cases n with
  | zero => exact absurd rfl hz
  | succ n => rfl

theorem runMax_pos (c : Dev nD) (t : Fin cfg1.N) (hz : t.val ≠ 0) :
    runMax V c t.val t.isLt
      = k1_pay7 (iblk1 V c 0 t) (runMax V c (t.val - 1) (Nat.lt_of_le_of_lt (Nat.sub_le _ _) t.isLt)) := by
  obtain ⟨n, hn⟩ := t
  cases n with
  | zero => exact absurd rfl hz
  | succ n => rfl

/-- What the launch hands the region, with the two carried words taken out of the scoped rest. -/
theorem PhiA1_eq (c : Dev nD) :
    (Pipeline.ΦA spec1 c : sProp 𝕄)
      = iprop((((∃ d, owns (c : Thread nD τ) scMin fullShare d) ∗ (∃ d, owns (c : Thread nD τ) scMax fullShare d))
          ∗ Pipeline.scopedRestBut (Ix := Unit) (Name := ℕ) (U := UR sig nD τ) (Lvl := ℕ) (Val := Elt F) spec1 c [cc1_scratch0, cc1_scratch1])
          ∗ (∃ r, prngReg c r)) := by
  unfold Pipeline.ΦA
  rw [Pipeline.scopedRest_split_of_list spec1 c [cc1_scratch0, cc1_scratch1] (by decide) (by decide)]
  simp only [bigSepL_cons_cons, bigSepL_singleton, scMin, scMax, owns_whole]
  try rfl

/-! ## The windows' buffers as the body finds them -/

theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)

/-- The input is never idle; the two outputs are idle, and not written back, at every point but the last. -/
theorem liveAt1_0 : ∀ t : Fin cfg1.N, cfg1.idle 0 (grid1.coords t) = false := fun _ => rfl
theorem idleAt1_1 : ∀ t : Fin cfg1.N, t.val ≠ 7 → cfg1.idle 1 (grid1.coords t) = true := by decide +kernel
theorem idleAt1_2 : ∀ t : Fin cfg1.N, t.val ≠ 7 → cfg1.idle 2 (grid1.coords t) = true := by decide +kernel
theorem liveAt1_1 : ∀ t : Fin cfg1.N, t.val = 7 → cfg1.idle 1 (grid1.coords t) = false := by decide +kernel
theorem liveAt1_2 : ∀ t : Fin cfg1.N, t.val = 7 → cfg1.idle 2 (grid1.coords t) = false := by decide +kernel
theorem noFlush1_1 (t : Fin cfg1.N) (h : t.val ≠ 7) : (cfg1.win 1).flush t = false := by
  have hN : t.val < 8 := lt_of_lt_of_eq t.isLt (show cfg1.N = 8 from N_1)
  cases hf : (cfg1.win 1).flush t with
  | false => rfl
  | true => exact absurd ((flush1_1 t).mp hf) (by omega)
theorem noFlush1_2 (t : Fin cfg1.N) (h : t.val ≠ 7) : (cfg1.win 2).flush t = false := by
  have hN : t.val < 8 := lt_of_lt_of_eq t.isLt (show cfg1.N = 8 from N_1)
  cases hf : (cfg1.win 2).flush t with
  | false => rfl
  | true => exact absurd ((flush1_2 t).mp hf) (by omega)

/-! ## The body obligation -/

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 1600000 in
/-- The body at any point, by the point's case: at the first point the invariant is the launch's, out of which the two
    carried buffers are taken at whatever they hold; at a later point it hands the body the carried words at the
    running extremes of the blocks before, and takes them back at the running extremes through this block. The two
    outputs are handed back as found at every point but the last, where they end at the step and the offset. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0]
  rw [show (dat1 V c).owesAt () t.succ = (dat1 V c).owesAt () t.castSucc from rfl]
  rw [show (dat1 V c).Φ t.succ = Phi1 V c (t.val + 1) t.isLt from rfl, Phi1_succ]
  rw [show (dat1 V c).leavesExact 0 t = owns (c : Thread nD τ) (st1_0 t) fullShare ((dat1 V c).after 0 t) from by
    unfold Dat.leavesExact; rw [liveAt1_0 t], after1_0]
  have hN : t.val < 8 := lt_of_lt_of_eq t.isLt (show cfg1.N = 8 from N_1)
  by_cases h0 : t.val = 0
  · rw [Dat.leavesExact_idle (dat1 V c) 1 t (idleAt1_1 t (by omega)) (noFlush1_1 t (by omega))]
    rw [Dat.leavesExact_idle (dat1 V c) 2 t (idleAt1_2 t (by omega)) (noFlush1_2 t (by omega))]
    rw [runMin_zero V c t h0, runMax_zero V c t h0]
    rw [Phi1_castSucc V c t, Phi1_zero V c _ _ h0, PhiA1_eq]
    iintro ⟨⟨⟨⟨HS0, HS1⟩, HR⟩, Hg⟩, Ho, ⟨%d0, H0⟩, ⟨%d1, H1⟩, ⟨%d2, H2⟩⟩
    iapply (sound_kernel1_A c Set.univ (grid1.coords t) _ _ _ _ _ _ _ _ _ _
      ((hcond1_0 t).mpr h0) (fun h => (hcond1_1 t).mp h h0) (fun h => by have := (hcond1_2 t).mp h; omega)
      (iblk1 V c 0 t) _ _ _)
    isplitl [H0]; · iexact H0
    isplitl [H1]; · iexact H1
    isplitl [H2]; · iexact H2
    isplitl [HS0]; · iexact HS0
    isplitl [HS1]; · iexact HS1
    iintro ⟨H0, H1, H2, HS0, HS1⟩
    isplitl [HS0 HS1 HR Hg]
    · isplitl [HS0]; · iexact HS0
      isplitl [HS1]; · iexact HS1
      isplitl [HR]; · iexact HR
      iexact Hg
    isplitl [Ho]; · iexact Ho
    isplitl [H0]; · iexact H0
    isplitl [H1]; · iexists _; iexact H1
    iexists _; iexact H2
  · by_cases h7 : t.val = 7
    · rw [show (dat1 V c).leavesExact 1 t = owns (c : Thread nD τ) (st1_1 t) fullShare ((dat1 V c).after 1 t) from by
        unfold Dat.leavesExact; rw [liveAt1_1 t h7], after1_1]
      rw [show (dat1 V c).leavesExact 2 t = owns (c : Thread nD τ) (st1_2 t) fullShare ((dat1 V c).after 2 t) from by
        unfold Dat.leavesExact; rw [liveAt1_2 t h7], after1_2]
      rw [runMin_pos V c t h0, runMax_pos V c t h0]
      rw [Phi1_castSucc V c t, Phi1_pos V c _ _ h0]
      iintro ⟨⟨HS0, HS1, HR, Hg⟩, Ho, ⟨%d0, H0⟩, ⟨%d1, H1⟩, ⟨%d2, H2⟩⟩
      iapply (sound_kernel1_C c Set.univ (grid1.coords t) _ _ _ _ _ _ _ _ _ _
        (fun h => h0 ((hcond1_0 t).mp h)) ((hcond1_1 t).mpr h0) ((hcond1_2 t).mpr h7)
        (iblk1 V c 0 t) _ _ _)
      isplitl [H0]; · iexact H0
      isplitl [H1]; · iexists _; iexact H1
      isplitl [H2]; · iexists _; iexact H2
      isplitl [HS0]; · iexact HS0
      isplitl [HS1]; · iexact HS1
      iintro ⟨H0, H1, H2, HS0, HS1⟩
      isplitl [HS0 HS1 HR Hg]
      · isplitl [HS0]; · iexact HS0
        isplitl [HS1]; · iexact HS1
        isplitl [HR]; · iexact HR
        iexact Hg
      isplitl [Ho]; · iexact Ho
      isplitl [H0]; · iexact H0
      isplitl [H1]; · iexact H1
      iexact H2
    · rw [Dat.leavesExact_idle (dat1 V c) 1 t (idleAt1_1 t h7) (noFlush1_1 t h7)]
      rw [Dat.leavesExact_idle (dat1 V c) 2 t (idleAt1_2 t h7) (noFlush1_2 t h7)]
      rw [runMin_pos V c t h0, runMax_pos V c t h0]
      rw [Phi1_castSucc V c t, Phi1_pos V c _ _ h0]
      iintro ⟨⟨HS0, HS1, HR, Hg⟩, Ho, ⟨%d0, H0⟩, ⟨%d1, H1⟩, ⟨%d2, H2⟩⟩
      iapply (sound_kernel1_B c Set.univ (grid1.coords t) _ _ _ _ _ _ _ _ _ _
        (fun h => h0 ((hcond1_0 t).mp h)) ((hcond1_1 t).mpr h0) (fun h => h7 ((hcond1_2 t).mp h))
        (iblk1 V c 0 t) _ _ _ _ _)
      isplitl [H0]; · iexact H0
      isplitl [H1]; · iexact H1
      isplitl [H2]; · iexact H2
      isplitl [HS0]; · iexact HS0
      isplitl [HS1]; · iexact HS1
      iintro ⟨H0, H1, H2, HS0, HS1⟩
      isplitl [HS0 HS1 HR Hg]
      · isplitl [HS0]; · iexact HS0
        isplitl [HS1]; · iexact HS1
        isplitl [HR]; · iexact HR
        iexact Hg
      isplitl [Ho]; · iexact Ho
      isplitl [H0]; · iexact H0
      isplitl [H1]; · iexists _; iexact H1
      iexists _; iexact H2

/-- The body obligation of region 1, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 (F := F) V c).Φ 0 := by
  rw [show (dat1 V c).Φ 0 = Phi1 V c 0 (Nat.zero_le _) from rfl, Phi1_zero V c 0 _ rfl]
  try exact Idealize.SL.BI.Entails.refl _

/-- After any point but the first the invariant gives the class's back: the carried words' contents are forgotten. -/
theorem Phi1_out (c : Dev nD) (t : Fin (cfg1.N + 1)) (ht : t.val ≠ 0) : (dat1 V c).Φ t ⊢ Pipeline.ΦA spec1 c := by
  rw [Phi1_at, Phi1_pos V c _ _ ht, PhiA1_eq]
  iintro ⟨HS0, HS1, HR, Hg⟩
  isplitl [HS0 HS1 HR]
  · isplitl [HS0 HS1]
    · isplitl [HS0]
      · iexists _; iexact HS0
      iexists _; iexact HS1
    iexact HR
  iexact Hg

theorem hout1 (c : Dev nD) : (dat1 (F := F) V c).Φ (Fin.last cfg1.N) ⊢ Pipeline.ΦA spec1 c :=
  Phi1_out V c _ (by rw [Fin.val_last]; have : cfg1.N = 8 := N_1; omega)

end Cert.KernelIdeal.Hand

end
-- ==== Proof.KIBody2.lean ====
/-
  Region 2's body obligation. At every grid point the body finds a block of the projection and the one-word step
  and offset in its three input buffers (the two words are fetched once and their block index never moves),
  stores the quantised block into the output's buffer through the whole buffer, and leaves the inputs as it found
  them.
-/
import proofs.«133292_j61151744360781_1_alg».proof.Proof.KIData

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The zero offsets of a rank-2 whole-buffer access. -/
theorem hz2' : (![0, 0] : Fin 2 → Nat) = fun _ => 0 := by
  funext a; fin_cases a <;> rfl

/-! ## The inputs' buffers hold their blocks -/

theorem before2_0 (c : Dev nD) (t : Fin cfg2.N) (d) : (dat2 V c).before 0 t d = iblk2 V c 0 t :=
  ((dat2 V c).before_in_eq_fetched 0 rfl (fun _ => rfl) (fun _ _ _ => rfl)
    (fun t => by rw [after2_0]; unfold Dat.blockOf iblk2; rw [A_eq2]; try rfl) t d).trans
    (by unfold Dat.fetched Dat.blockOf iblk2; rw [A_eq2]; try rfl)

theorem before2_1 (c : Dev nD) (t : Fin cfg2.N) (d) : (dat2 V c).before 1 t d = iblk2 V c 1 t :=
  ((dat2 V c).before_in_eq_fetched 1 rfl (fun _ => rfl) (fun _ _ _ => rfl)
    (fun t => by rw [after2_1]; unfold Dat.blockOf iblk2; rw [A_eq2]; try rfl) t d).trans
    (by unfold Dat.fetched Dat.blockOf iblk2; rw [A_eq2]; try rfl)

theorem before2_2 (c : Dev nD) (t : Fin cfg2.N) (d) : (dat2 V c).before 2 t d = iblk2 V c 2 t :=
  ((dat2 V c).before_in_eq_fetched 2 rfl (fun _ => rfl) (fun _ _ _ => rfl)
    (fun t => by rw [after2_2]; unfold Dat.blockOf iblk2; rw [A_eq2]; try rfl) t d).trans
    (by unfold Dat.fetched Dat.blockOf iblk2; rw [A_eq2]; try rfl)

/-! ## The body's triple -/

set_option maxHeartbeats 1000000 in
/-- The kernel body on whole buffers: from the projection's block `x0`, the step `x1` and the offset `x2` it leaves
    the quantised block in the fourth buffer, the inputs untouched. -/
theorem sound_kernel2 (c : Dev nD) (E : Set ℕ) (i : grid2.Coords)
    (arg1 : Memref sig .tc .vmem S1024x1024 .f32) (harg1 : arg1.IsWhole)
    (arg2 : Memref sig .tc .vmem S1x1 .f32) (harg2 : arg2.IsWhole)
    (arg3 : Memref sig .tc .vmem S1x1 .f32) (harg3 : arg3.IsWhole)
    (arg4 : Memref sig .tc .vmem S1024x1024 .f32) (harg4 : arg4.IsWhole)
    (x0 : Vec F S1024x1024 .f32) (x1 : Vec F S1x1 .f32) (x2 : Vec F S1x1 .f32) (K : PUnit → sProp 𝕄) :
    iprop(owns (c : Thread nD τ) arg1 fullShare x0 ∗ owns (c : Thread nD τ) arg2 fullShare x1
        ∗ owns (c : Thread nD τ) arg3 fullShare x2 ∗ (∃ d, owns (c : Thread nD τ) arg4 fullShare d)
        ∗ (iprop(owns (c : Thread nD τ) arg1 fullShare x0 ∗ owns (c : Thread nD τ) arg2 fullShare x1
            ∗ owns (c : Thread nD τ) arg3 fullShare x2
            ∗ owns (c : Thread nD τ) arg4 fullShare (k2_pay1 x1 x2 x0)) -∗ K ⟨⟩))
      ⊢ wp frame (wpE (defs₀ (F := F)) Variants.none c none) E
          (cc2__quant_kernel i arg1 harg1 arg2 harg2 arg3 harg3 arg4 harg4) K := by
  simp only [cc2__quant_kernel_eq_skeleton]; unfold cc2__quant_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  · iexists _; isplitr
    swap; · iexact H3
    ipureintro
    refine (View.read_writes_eq_canon _ _ _ (fun y => ⟨_, List.mem_singleton_self _, View.mem_set_unit_zero hz2' inb_S1024x1024_S1024x1024_0_0 y⟩)).trans ?_
    rw [View.canon_unit_zero hz2']
    simp only [View.readAt_eq_ld, View.ld_unit_zero (S := S1024x1024) hz2', View.ld_unit_zero (S := S1x1) hz2']

/-! ## The body obligation -/

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of region 2, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KIRun.lean ====
/-
  The run of the whole program: @main is a host stretch (the sketch narrowed), the three kernel regions one after
  the other, and a host stretch (three reshapes). The contents of the TensorCore's unscoped buffers at each of the
  five boundaries are a fold from the launch memory: a host stretch applies its operations; a kernel region leaves
  each of its output arrays at what its write-backs add up to and every other buffer as it found it. Each region is
  entered with every unscoped buffer held at the boundary's contents, beside the generator register and the core
  owing nothing, and left in the same form at the next boundary's contents; the launch then says that every weakly
  fair execution terminates with every unscoped buffer at the last boundary's contents.
-/
import proofs.«133292_j61151744360781_1_alg».proof.Proof.KIBody0
import proofs.«133292_j61151744360781_1_alg».proof.Proof.KIBody1
import proofs.«133292_j61151744360781_1_alg».proof.Proof.KIBody2
import proofs.«133292_j61151744360781_1_alg».proof.Proof.Gen.KernelIdeal.Regions

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

variable (m : (ℓ : Loc nD τ sig) → Buf (Elt F) ℓ) (ρ : Dev nD → PrngReg)

/-! ## The buffers' contents at the five boundaries -/

/-- At launch. -/
abbrev W0 : Dev nD → Valuation τ sig (Elt F) := fun c b => m ((c : Dev nD), b)
/-- After the first host stretch (region 0's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- After region 0 (region 1's entry): the projection and the norms written. -/
def W2 (c : Dev nD) : Valuation τ sig (Elt F) :=
  Pipeline.withArrays spec0 c (W1 m c) fun w => (dat0 (V1 m) c).arrAt w cfg0.N
abbrev V2 : (c : Dev nD) → (b : Ref sig .tc) → Buf (Elt F) ((c : Thread nD τ).loc b) := fun c b => W2 m c b
/-- After region 1 (region 2's entry): the step and the offset written. -/
def W3 (c : Dev nD) : Valuation τ sig (Elt F) :=
  Pipeline.withArrays spec1 c (W2 m c) fun w => (dat1 (V2 m) c).arrAt w cfg1.N
abbrev V3 : (c : Dev nD) → (b : Ref sig .tc) → Buf (Elt F) ((c : Thread nD τ).loc b) := fun c b => W3 m c b
/-- After region 2: the quantised projection written. -/
def W4 (c : Dev nD) : Valuation τ sig (Elt F) :=
  Pipeline.withArrays spec2 c (W3 m c) fun w => (dat2 (V3 m) c).arrAt w cfg2.N
abbrev V4 : (c : Dev nD) → (b : Ref sig .tc) → Buf (Elt F) ((c : Thread nD τ).loc b) := fun c b => W4 m c b
/-- After the last host stretch: what @main returns. -/
abbrev W5 : Dev nD → Valuation τ sig (Elt F) := fun c => StableHlo.after hostOps3 (W4 m c)

theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

theorem W3_arr (c : Dev nD) (w : Fin cfg1.W) :
    W3 m c (Proc.devRef .tc (Pipeline.arrRef spec1 w)) = (dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
theorem hF1 (c : Dev nD) (w : Fin cfg1.W) : (dat1 (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)

theorem W4_arr (c : Dev nD) (w : Fin cfg2.W) :
    W4 m c (Proc.devRef .tc (Pipeline.arrRef spec2 w)) = (dat2 (V3 m) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m c (Proc.devRef .tc b) = W3 m c (Proc.devRef .tc b) := by
  unfold W4; exact Pipeline.withArrays_of_ne spec2 c _ _ b hb
theorem hF2 (c : Dev nD) (w : Fin cfg2.W) : (dat2 (V3 m) c).arrAt w cfg2.N = V4 m c (Pipeline.arrRef spec2 w) :=
  (W4_arr m c w).symm
theorem hrest2 (c : Dev nD) : ∀ b, b ∉ Finset.univ.image (Pipeline.arrRef spec2) → V4 m c b = V3 m c b :=
  fun b hb => W4_of_ne m c b fun w e => hb (Finset.mem_image.mpr ⟨w, Finset.mem_univ _, e⟩)

/-! ## The proof data family and the thread state -/

abbrev adm : (p : Fin 3) → (pcfgs (F := F) p).Adm := fun p => (cfgs p).toPCfg_adm

/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V2 m) c
  | ⟨2, _⟩ => fun c => dat2 (V3 m) c

abbrev 𝒱₀ : Variants := Variants.none
abbrev L : GSem nD τ sig → Finset Unit := fun _ => ∅
abbrev lv : GSem nD τ sig → Unit → ℕ := fun _ _ => 0

/-- What rides beside the buffers through every segment: the generator register at some state, the core owing nothing. -/
abbrev R (c : Dev nD) : sProp 𝕄 := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state without the core's debts: every unscoped buffer at the last boundary's contents. -/
abbrev Tₙ (c : Dev nD) : sProp 𝕄 := StableHlo.held (c : Thread nD τ) (Pipeline.ucRefs τ sig) (W5 m c)

/-- What rides beside the buffers yields the core owing nothing (the generator register is let go). -/
theorem R_owes (c : Dev nD) : R c ⊢ (iprop(∃ W, owes (c : Thread nD τ) (0 : CellTallies nD τ sig Unit) W) : sProp 𝕄) := by
  iintro ⟨-, HO⟩; iexact HO

/-! ## The regions as segments -/

set_option backward.isDefEq.respectTransparency.types false in
/-- Region 0 between the contents `W1` and `W2`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 between the contents `W2` and `W3`: its invariant starts from the scoped buffers at anything and ends
    by forgetting what the two carried words hold. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : Pipeline.ΦA spec1 c ⊢ (pdats m 1 c).Φ 0 := hin1 (V2 m) c
    unfold Pipeline.ΦA at h
    iintro ⟨Hp, -, Hr⟩
    iapply h
    isplitl [Hr]; · iexact Hr
    iexact Hp
  hout c := by
    have h : (pdats m 1 c).Φ (Fin.last _) ⊢ Pipeline.ΦA spec1 c := hout1 (V2 m) c
    unfold Pipeline.ΦA at h
    rw [Pipeline.ownSems0_none]
    iintro Hphi
    ihave H := h $$ Hphi
    icases H with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 between the contents `W3` and `W4`. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V3 m) c).loose
  hwaits := Pipeline.hwaits_of_owed_zero _ _ _ _ L lv 2 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec2 c (V3 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V3 m c) (V4 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- The last host stretch as a segment whose exit splits the core's debts off (what the launch's chain ends with). -/
abbrev segs : List (Pipeline.Seg (pcfgs (F := F)) adm (pdats m) () defs₀ 𝒱₀ L lv) :=
  [ .host (hseg hostOps0 hostOps0_sub hostOps0_fresh (W0 m)),
    .region (reg0 m),
    .region (reg1 m),
    .region (reg2 m),
    .host (hseg hostOps3 hostOps3_sub hostOps3_fresh (W4 m)) ]

theorem main_run (c : Dev nD) : main (F := F) c = Pipeline.Seg.run (segs m) := (main_chain c).trans (by chain_rfl)

set_option backward.isDefEq.respectTransparency.types false in
/-- THE RUN: from any memory with zero counters every weakly fair execution of @main terminates, nothing faulting,
    and every unscoped buffer of every core ends at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun c => sep_mono .rfl (R_owes c)⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      unfold Tₙ StableHlo.held
      iintro ⟨Hh, HSI⟩
      imodintro
      iapply (pointsTo_read_all (Pipeline.ucRefs τ sig) (fun b => (((c : Thread nD τ)).1, b)) (W5 m c) s')
      isplitl [Hh] <;> iassumption)
    (hQ := fun s h c => h c)

end Cert.KernelIdeal.Hand

end
-- ==== Proof.KIFrame.lean ====
/-
  What the run leaves. No host operation writes an argument and no region has one as an output, so both arguments
  come back as launched: that is the frame. The projection reaches regions 1 and 2 as region 0 left it, the step and
  the offset reach region 2 and the last host stretch as region 1 left them, and the four results are region 2's
  output array and the reshapes of the norms, the step and the offset.
-/
import proofs.«133292_j61151744360781_1_alg».proof.Proof.KIRun

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

variable (m : (ℓ : Loc nD τ sig) → Buf (Elt F) ℓ) (ρ : Dev nD → PrngReg)

/-! ## The arguments come back as launched -/

theorem W5_of (c : Dev nD) (r : Ref sig .tc) (h : r ∉ hostOps3_W) : W5 m c r = W4 m c r :=
  StableHlo.after_of_writes_sub hostOps3 _ hostOps3_writes h
theorem W1_of (c : Dev nD) (r : Ref sig .tc) (h : r ∉ hostOps0_W) : W1 m c r = W0 m c r :=
  StableHlo.after_of_writes_sub hostOps0 _ hostOps0_writes h

/-- The keys are window 0's array of region 0 (an input: kept), no array of regions 1 and 2, and written by no host operation. -/
theorem W5_main_arg0 (c : Dev nD) : W5 m c main_arg0 = m ((c : Thread nD τ).loc main_arg0) :=
  calc W5 m c main_arg0
    _ = W4 m c main_arg0 := W5_of m c main_arg0 (by decide)
    _ = W3 m c main_arg0 := W4_of_ne m c main_arg0 (by decide)
    _ = W2 m c main_arg0 := W3_of_ne m c main_arg0 (by decide)
    _ = W1 m c main_arg0 := (W2_arr m c 0).trans (((dat0 (V1 m) c).arrAt_in 0 rfl _).trans (A_eq0 (V1 m) c 0))
    _ = W0 m c main_arg0 := W1_of m c main_arg0 (by decide)
    _ = m ((c : Thread nD τ).loc main_arg0) := rfl

/-- The sketch is no region's array (region 0 stages its narrowed copy) and is written by no host operation. -/
theorem W5_main_arg1 (c : Dev nD) : W5 m c main_arg1 = m ((c : Thread nD τ).loc main_arg1) :=
  calc W5 m c main_arg1
    _ = W4 m c main_arg1 := W5_of m c main_arg1 (by decide)
    _ = W3 m c main_arg1 := W4_of_ne m c main_arg1 (by decide)
    _ = W2 m c main_arg1 := W3_of_ne m c main_arg1 (by decide)
    _ = W1 m c main_arg1 := W2_of_ne m c main_arg1 (by decide)
    _ = W0 m c main_arg1 := W1_of m c main_arg1 (by decide)
    _ = m ((c : Thread nD τ).loc main_arg1) := rfl

/-- THE FRAME, at any instance: every weakly fair execution of @main terminates, nothing faulting, and both
    argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c _ (mem_uc main_arg0 (by decide))).trans (W5_main_arg0 m c),
     (h c _ (mem_uc main_arg1 (by decide))).trans (W5_main_arg1 m c)⟩) (run_all m ρ)

/-! ## What each region is entered with, and what @main returns -/

/-- Region 0 finds the keys as launched, -/
theorem V1_main_arg0 (c : Dev nD) : V1 m c main_arg0 = m ((c : Thread nD τ).loc main_arg0) :=
  (W1_of m c main_arg0 (by decide)).trans rfl

/-- and region 1 finds the projection as region 0's write-backs leave it. -/
theorem V2_main_v1_0 (c : Dev nD) : V2 m c main_v1_0 = (dat0 (V1 m) c).arrAt 2 cfg0.N := W2_arr m c 2

/-- Region 2 finds the projection unchanged by region 1 (its input there), -/
theorem V3_main_v1_0 (c : Dev nD) : V3 m c main_v1_0 = (dat0 (V1 m) c).arrAt 2 cfg0.N :=
  ((W3_arr m c 0).trans (((dat1 (V2 m) c).arrAt_in 0 rfl _).trans (A_eq1 (V2 m) c 0))).trans (V2_main_v1_0 m c)
/-- and the step and the offset as region 1's write-backs leave them. -/
theorem V3_main_v2_0 (c : Dev nD) : V3 m c main_v2_0 = (dat1 (V2 m) c).arrAt 1 cfg1.N := W3_arr m c 1
theorem V3_main_v2_1 (c : Dev nD) : V3 m c main_v2_1 = (dat1 (V2 m) c).arrAt 2 cfg1.N := W3_arr m c 2

/-- The first result: what region 2's write-backs leave. -/
theorem W5_main_v3 (c : Dev nD) : W5 m c main_v3 = (dat2 (V3 m) c).arrAt 3 cfg2.N :=
  (W5_of m c main_v3 (by decide)).trans (W4_arr m c 3)

/-- The norms, the step and the offset reach the last host stretch as their regions left them. -/
theorem W4_main_v1_1 (c : Dev nD) : W4 m c main_v1_1 = (dat0 (V1 m) c).arrAt 3 cfg0.N :=
  (W4_of_ne m c main_v1_1 (by decide)).trans ((W3_of_ne m c main_v1_1 (by decide)).trans (W2_arr m c 3))
theorem W4_main_v2_0 (c : Dev nD) : W4 m c main_v2_0 = (dat1 (V2 m) c).arrAt 1 cfg1.N :=
  ((W4_arr m c 1).trans (((dat2 (V3 m) c).arrAt_in 1 rfl _).trans (A_eq2 (V3 m) c 1))).trans (V3_main_v2_0 m c)
theorem W4_main_v2_1 (c : Dev nD) : W4 m c main_v2_1 = (dat1 (V2 m) c).arrAt 2 cfg1.N :=
  ((W4_arr m c 2).trans (((dat2 (V3 m) c).arrAt_in 2 rfl _).trans (A_eq2 (V3 m) c 2))).trans (V3_main_v2_1 m c)

/-! ## The host stretches' own results -/

/-- Region 0 finds the sketch narrowed entry by entry. -/
theorem V1_main_v0 (c : Dev nD) : V1 m c main_v0 = truncf .bf16 (m ((c : Thread nD τ).loc main_arg1)) bitsLt_bf16_f32 := by
  show StableHlo.after hostOps0 (W0 m c) (Proc.devRef .tc main_v0) = _
  after_results

/-- The last three results are the norms, the step and the offset re-laid without their unit axes. -/
theorem W5_main_v4 (c : Dev nD) : W5 m c main_v4 = shapeCast S16384 (W4 m c main_v1_1) shapeCasts_S16384x1_S16384 := by
  show StableHlo.after hostOps3 (W4 m c) (Proc.devRef .tc main_v4) = _
  after_results; rfl
theorem W5_main_v5 (c : Dev nD) : W5 m c main_v5 = shapeCast S_ (W4 m c main_v2_0) shapeCasts_S1x1_S_ := by
  show StableHlo.after hostOps3 (W4 m c) (Proc.devRef .tc main_v5) = _
  after_results; rfl
theorem W5_main_v6 (c : Dev nD) : W5 m c main_v6 = shapeCast S_ (W4 m c main_v2_1) shapeCasts_S1x1_S_ := by
  show StableHlo.after hostOps3 (W4 m c) (Proc.devRef .tc main_v6) = _
  after_results; rfl

end Cert.KernelIdeal.Hand

end
-- ==== Proof.KIVal0.lean ====
/-
  Region 0's two output arrays, index by index, at the ideal values.

  The region runs over 64 row blocks of the keys. At point t the body multiplies rows 256 t … 256 t + 255 of the keys,
  narrowed, with the whole narrowed sketch, contracting the 4096 columns of both at once into a zero accumulator, and
  takes the square root of each of those rows' sum of squares. On the extended reals the narrowing is the identity, a
  contraction into zero is the plain sum of the products, and a sum along one axis is the sum over that axis's
  coordinates. So:
    * entry (r, j) of the projection is the sum over the columns k of keys (r, k) times sketch (j, k)  (proj_eq, proj_apply);
    * entry (r, 0) of the norms is the square root of the sum, from zero, over k of keys (r, k) squared  (norm_eq, norm_apply).
  First each payload is read at an index of its block (proj_block_apply, norm_block_apply); then each input block is
  read as rows of its array (keys_block_apply, sketch_block_apply); then what a point writes back is its block of one
  whole-array function (proj_flushed, norm_flushed); the 64 row blocks tile each output array (proj_cover, norm_cover),
  so the array after the region is that function.

  The arrays are named by variables a, b of their literal types, tied to the entry contents by equations
  (V c main_arg0 = a, V c main_v0 = b): products and sums are then taken on the extended reals themselves.
-/
import proofs.«133292_j61151744360781_1_alg».proof.Proof.KIData
import Idealize.ShloMosaic.Lib.Pipeline.Value
import Idealize.ShloMosaic.Lib.ValueIdx
import Idealize.ShloMosaic.PureOps.Ideal.Laws

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.ValueIdx

/-! ## The block's payloads at an index -/

/-- The contraction of the body's product: on the keys' block it reads the output's row and the contracted column,
    on the sketch the output's column (a row of the sketch) and the contracted column. -/
theorem mm_lhs_0 (i : S256x1024.Idx) (q : dot_S256x4096_S1024x4096_S256x1024_1_1_0_0_n_n.contr.Idx) :
    (dot_S256x4096_S1024x4096_S256x1024_1_1_0_0_n_n.lhsIdx i q 0).val = (i 0).val := by
  unfold DotDims.lhsIdx
  rw [dif_neg (show ¬(0 : Fin S256x4096.rank) ∈ dot_S256x4096_S1024x4096_S256x1024_1_1_0_0_n_n.lhsBatch by decide), dif_pos (show (0 : Fin S256x4096.rank) ∈ dot_S256x4096_S1024x4096_S256x1024_1_1_0_0_n_n.lhsNonContracting by decide)]
  rfl
theorem mm_lhs_1 (i : S256x1024.Idx) (q : dot_S256x4096_S1024x4096_S256x1024_1_1_0_0_n_n.contr.Idx) :
    (dot_S256x4096_S1024x4096_S256x1024_1_1_0_0_n_n.lhsIdx i q 1).val = (q ⟨0, by decide⟩).val :=
  dot_S256x4096_S1024x4096_S256x1024_1_1_0_0_n_n.lhsIdx_val_of_single rfl i q
theorem mm_rhs_0 (i : S256x1024.Idx) (q : dot_S256x4096_S1024x4096_S256x1024_1_1_0_0_n_n.contr.Idx) :
    (dot_S256x4096_S1024x4096_S256x1024_1_1_0_0_n_n.rhsIdx i q 0).val = (i 1).val := by
  unfold DotDims.rhsIdx
  rw [dif_neg (show ¬(0 : Fin S1024x4096.rank) ∈ dot_S256x4096_S1024x4096_S256x1024_1_1_0_0_n_n.rhsBatch by decide), dif_pos (show (0 : Fin S1024x4096.rank) ∈ dot_S256x4096_S1024x4096_S256x1024_1_1_0_0_n_n.rhsNonContracting by decide)]
  rfl
theorem mm_rhs_1 (i : S256x1024.Idx) (q : dot_S256x4096_S1024x4096_S256x1024_1_1_0_0_n_n.contr.Idx) :
    (dot_S256x4096_S1024x4096_S256x1024_1_1_0_0_n_n.rhsIdx i q 1).val = (q ⟨0, by decide⟩).val :=
  dot_S256x4096_S1024x4096_S256x1024_1_1_0_0_n_n.rhsIdx_val_of_single rfl i q

/-- Entry (p, q) of a block's product: the sum over the 4096 columns of the keys' block's row p times the sketch's row q
    (the narrowing of the keys' block is the identity on extended reals, the accumulator is zero). -/
theorem proj_block_apply (x0 : FVec Ideal S256x4096 .f32) (x2 : FVec Ideal S1024x4096 .bf16) (p : Fin 256) (q : Fin 1024) :
    k0_pay1 (F := Ideal) x0 x2 (ix2 p q) = ∑ k : Fin 4096, x0 (ix2 p k) * x2 (ix2 q k) := by
  unfold k0_pay1
  rw [shapeCast_self]
  refine (Ideal.matmul_constant_zero_apply dot_S256x4096_S1024x4096_S256x1024_1_1_0_0_n_n none _ _ (ix2 p q)).trans ?_
  rw [← Equiv.sum_comp (contrEquiv1 dot_S256x4096_S1024x4096_S256x1024_1_1_0_0_n_n 4096 rfl rfl).symm]
  refine Finset.sum_congr rfl fun k _ => ?_
  have hk := contrEquiv1_symm_val dot_S256x4096_S1024x4096_S256x1024_1_1_0_0_n_n 4096 rfl rfl k
  have el : dot_S256x4096_S1024x4096_S256x1024_1_1_0_0_n_n.lhsIdx (ix2 p q) ((contrEquiv1 dot_S256x4096_S1024x4096_S256x1024_1_1_0_0_n_n 4096 rfl rfl).symm k) = ix2 p k := funext fun a => Fin.ext (by
    match a with
    | ⟨0, _⟩ => exact mm_lhs_0 _ _
    | ⟨1, _⟩ => exact (mm_lhs_1 _ _).trans hk)
  have er : dot_S256x4096_S1024x4096_S256x1024_1_1_0_0_n_n.rhsIdx (ix2 p q) ((contrEquiv1 dot_S256x4096_S1024x4096_S256x1024_1_1_0_0_n_n 4096 rfl rfl).symm k) = ix2 q k := funext fun a => Fin.ext (by
    match a with
    | ⟨0, _⟩ => exact mm_rhs_0 _ _
    | ⟨1, _⟩ => exact (mm_rhs_1 _ _).trans hk)
  rw [el, er]
  rfl

/-- A vector of length a viewed as a column [a, 1] reads, at (i, u), the vector at i, whatever the unit coordinate u. -/
theorem column_of_vector_apply {a : ℕ} {α : Type} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- Entry (p, 0) of a block's norms: the square root of the sum, from zero, of the squares of the keys' block's row p. -/
theorem norm_block_apply (x0 : FVec Ideal S256x4096 .f32) (p : Fin 256) (u : Fin 1) :
    k0_pay2 (F := Ideal) x0 (ix2 p u) = FloatOps.sqrt (F := Ideal) (FloatOps.ofBits (F := Ideal) .f32 0x00000000#32 + ∑ k : Fin 4096, x0 (ix2 p k) * x0 (ix2 p k)) := by
  unfold k0_pay2
  show FloatOps.sqrt (F := Ideal) (shapeCast S256x1 _ shapeCasts_S256_S256x1 (ix2 p u)) = _
  refine congrArg (FloatOps.sqrt (F := Ideal)) ?_
  refine (column_of_vector_apply _ shapeCasts_S256_S256x1 p u).trans ?_
  refine (Ideal.multiReduction_add_single (mulf x0 x0) 0x00000000#32 reduces_S256x4096_S256 _ _ (ix1 p)).trans ?_
  show _ = Ideal.ofBits .f32 0x00000000#32 + _
  rw [Ideal.ofBits_zero_f32, zero_add]
  refine Finset.sum_congr rfl fun k _ => ?_
  have e : reduces_S256x4096_S256.lift (ix1 p) k = ix2 p k := funext fun a => Fin.ext (by
    match a with
    | ⟨0, _⟩ => rfl
    | ⟨1, _⟩ => rfl)
  show x0 _ * x0 _ = _
  rw [e]
  rfl

/-! ## The two arrays, index by index -/

/-- Entry (r, j): the sum over the columns k of a (r, k) times b (j, k): the rows of a against the rows of b. -/
abbrev keysTimesSketch (a : S16384x4096.Idx → EReal) (b : S1024x4096.Idx → EReal) : S16384x1024.Idx → EReal :=
  fun i => ∑ k : Fin 4096, a (ix2 (i 0) k) * b (ix2 (i 1) k)

/-- Entry (r, 0): the square root of the sum, from zero, of the squares of row r of a. -/
abbrev keysRowNorm (a : S16384x4096.Idx → EReal) : S16384x1.Idx → EReal :=
  fun i => FloatOps.sqrt (F := Ideal) (FloatOps.ofBits (F := Ideal) .f32 0x00000000#32 + ∑ k : Fin 4096, a (ix2 (i 0) k) * a (ix2 (i 0) k))

/-! ## From the blocks to the arrays -/

variable (V : (c : Dev nD) → (b : Ref sig .tc) → Buf (Elt Ideal) ((c : Thread nD τ).loc b))

/-- The windows' index maps over the grid: at point t the keys', the projection's and the norms' blocks are row block t
    (one block of columns); the sketch's block is the whole sketch. -/
theorem block_index0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- The keys' block at point t is rows 256 t … 256 t + 255 of the keys. -/
theorem keys_block_apply (c : Dev nD) (a : S16384x4096.Idx → EReal) (ha : V c main_arg0 = a) (t : Fin cfg0.N)
    (y : S256x4096.Idx) (i : S16384x4096.Idx) (h0 : (i 0).val = t.val * 256 + (y 0).val) (h1 : (i 1).val = (y 1).val) :
    (iblk0 V c 0 t : FVec Ideal S256x4096 .f32) y = a i := by
  obtain ⟨e00, e01, -⟩ := block_index0 t
  subst ha
  unfold iblk0
  rw [View.read_apply]
  show V c main_arg0 _ = V c main_arg0 _
  congr 1
  funext d
  apply Fin.ext
  match d with
  | ⟨0, _⟩ => show win0_0.index t (0 : Fin 2) * 256 + 1 * (y 0).val = (i 0).val; rw [e00, h0]; omega
  | ⟨1, _⟩ => show win0_0.index t (1 : Fin 2) * 4096 + 1 * (y 1).val = (i 1).val; rw [e01, h1]; omega

/-- The sketch's block at every point is the whole narrowed sketch. -/
theorem sketch_block_apply (c : Dev nD) (b : S1024x4096.Idx → EReal) (hb : V c main_v0 = b) (t : Fin cfg0.N)
    (y : S1024x4096.Idx) (i : S1024x4096.Idx) (h0 : (i 0).val = (y 0).val) (h1 : (i 1).val = (y 1).val) :
    (iblk0 V c 1 t : FVec Ideal S1024x4096 .bf16) y = b i := by
  obtain ⟨-, -, e10, e11, -⟩ := block_index0 t
  subst hb
  unfold iblk0
  rw [View.read_apply]
  show V c main_v0 _ = V c main_v0 _
  congr 1
  funext d
  apply Fin.ext
  match d with
  | ⟨0, _⟩ => show win0_1.index t (0 : Fin 2) * 1024 + 1 * (y 0).val = (i 0).val; rw [e10, h0]; omega
  | ⟨1, _⟩ => show win0_1.index t (1 : Fin 2) * 4096 + 1 * (y 1).val = (i 1).val; rw [e11, h1]; omega

/-- WHAT POINT t WRITES BACK to the projection is block t of the array whose entry (r, j) is the sum over the columns k
    of keys (r, k) times sketch (j, k). -/
theorem proj_flushed (c : Dev nD) (a : S16384x4096.Idx → EReal) (b : S1024x4096.Idx → EReal) (ha : V c main_arg0 = a)
    (hb : V c main_v0 = b) (t : Fin cfg0.N) :
    (dat0 (F := Ideal) V c).flushed 2 t = ((cfg0.win 2).blk t).view.read (Elt Ideal)
      (keysTimesSketch a b) := by
  show (cfg0.win 2).cut (grid0.coords t) ((dat0 (F := Ideal) V c).after 2 t) = _
  rw [after0_2]
  obtain ⟨-, -, -, -, e20, e21, -⟩ := block_index0 t
  funext j
  have hj0 : (j 0).val < 256 := (j 0).isLt
  have hj1 : (j 1).val < 1024 := (j 1).isLt
  have hcut : (cfg0.win 2).cut (grid0.coords t) (k0_pay1 (F := Ideal) (iblk0 V c 0 t) (iblk0 V c 1 t)) j
      = k0_pay1 (F := Ideal) (iblk0 V c 0 t) (iblk0 V c 1 t) (ix2 (⟨(j 0).val, hj0⟩ : Fin 256) (⟨(j 1).val, hj1⟩ : Fin 1024)) :=
    congrArg (k0_pay1 (F := Ideal) (iblk0 V c 0 t) (iblk0 V c 1 t)) (funext fun d => Fin.ext (by
      match d with
      | ⟨0, _⟩ => rfl
      | ⟨1, _⟩ => rfl))
  refine hcut.trans ?_
  refine (proj_block_apply (iblk0 V c 0 t) (iblk0 V c 1 t) ⟨(j 0).val, hj0⟩ ⟨(j 1).val, hj1⟩).trans ?_
  rw [View.read_apply]
  refine Finset.sum_congr rfl fun k _ => ?_
  refine congrArg₂ (· * ·) (keys_block_apply V c a ha t _ _ ?_ rfl) (sketch_block_apply V c b hb t _ _ ?_ rfl)
  · show win0_2.index t (0 : Fin 2) * 256 + 1 * (j 0).val = t.val * 256 + (j 0).val
    rw [e20]; omega
  · show win0_2.index t (1 : Fin 2) * 1024 + 1 * (j 1).val = (j 1).val
    rw [e21]; omega

/-- An index of the projection is in point t's block iff each coordinate is in the block's range on its axis. -/
theorem mem_proj_block (t : Fin cfg0.N) (i : S16384x1024.Idx) :
    i ∈ ((cfg0.win 2).blk t).view.set ↔ ∀ d : Fin 2, win0_2.index t d * S256x1024.size d ≤ (i d).val ∧ (i d).val < win0_2.index t d * S256x1024.size d + S256x1024.size d := by
  show i ∈ ((View.whole main_v1_0).slice (win0_2.rect t)).set ↔ _
  rw [View.set_slice_whole, Rect.mem_set_unit]
  exact Iff.rfl

/-- Row r of the projection is written back by point r / 256: the 64 row blocks tile the array. -/
theorem proj_cover (i : S16384x1024.Idx) :
    ∃ t : Fin cfg0.N, (cfg0.win 2).flush t = true ∧ i ∈ ((cfg0.win 2).blk t).view.set := by
  have hi0 : (i 0).val < 16384 := (i 0).isLt
  have hi1 : (i 1).val < 1024 := (i 1).isLt
  have hN : cfg0.N = 64 := N_0
  refine ⟨⟨(i 0).val / 256, by rw [hN]; omega⟩, flush0_2 _, ?_⟩
  obtain ⟨-, -, -, -, e20, e21, -⟩ := block_index0 ⟨(i 0).val / 256, by rw [hN]; omega⟩
  rw [mem_proj_block]
  intro d
  match d with
  | ⟨0, _⟩ =>
    show win0_2.index _ (0 : Fin 2) * 256 ≤ (i 0).val ∧ (i 0).val < win0_2.index _ (0 : Fin 2) * 256 + 256
    rw [e20]; show (i 0).val / 256 * 256 ≤ (i 0).val ∧ (i 0).val < (i 0).val / 256 * 256 + 256; omega
  | ⟨1, _⟩ =>
    show win0_2.index _ (1 : Fin 2) * 1024 ≤ (i 1).val ∧ (i 1).val < win0_2.index _ (1 : Fin 2) * 1024 + 1024
    rw [e21]; omega

/-- THE PROJECTION after region 0: entry (r, j) is the sum over all 4096 columns k of keys (r, k) times the narrowed
    sketch (j, k). -/
theorem proj_eq (c : Dev nD) (a : S16384x4096.Idx → EReal) (b : S1024x4096.Idx → EReal) (ha : V c main_arg0 = a)
    (hb : V c main_v0 = b) : (dat0 (F := Ideal) V c).arrAt 2 cfg0.N = keysTimesSketch a b :=
  (dat0 (F := Ideal) V c).arrAt_eq_of_cover 2 (keysTimesSketch a b) (fun t _ => proj_flushed V c a b ha hb t) proj_cover

theorem proj_apply (c : Dev nD) (a : S16384x4096.Idx → EReal) (b : S1024x4096.Idx → EReal) (ha : V c main_arg0 = a)
    (hb : V c main_v0 = b) (i : S16384x1024.Idx) :
    (dat0 (F := Ideal) V c).arrAt 2 cfg0.N i = ∑ k : Fin 4096, a (ix2 (i 0) k) * b (ix2 (i 1) k) :=
  congrFun (proj_eq V c a b ha hb) i

/-- WHAT POINT t WRITES BACK to the norms is block t of the array whose entry (r, 0) is the square root of row r's sum
    of squares. -/
theorem norm_flushed (c : Dev nD) (a : S16384x4096.Idx → EReal) (ha : V c main_arg0 = a) (t : Fin cfg0.N) :
    (dat0 (F := Ideal) V c).flushed 3 t = ((cfg0.win 3).blk t).view.read (Elt Ideal) (keysRowNorm a) := by
  show (cfg0.win 3).cut (grid0.coords t) ((dat0 (F := Ideal) V c).after 3 t) = _
  rw [after0_3]
  obtain ⟨-, -, -, -, -, -, e30, e31⟩ := block_index0 t
  funext j
  have hj0 : (j 0).val < 256 := (j 0).isLt
  have hj1 : (j 1).val < 1 := (j 1).isLt
  have hcut : (cfg0.win 3).cut (grid0.coords t) (k0_pay2 (F := Ideal) (iblk0 V c 0 t)) j
      = k0_pay2 (F := Ideal) (iblk0 V c 0 t) (ix2 (⟨(j 0).val, hj0⟩ : Fin 256) (⟨(j 1).val, hj1⟩ : Fin 1)) :=
    congrArg (k0_pay2 (F := Ideal) (iblk0 V c 0 t)) (funext fun d => Fin.ext (by
      match d with
      | ⟨0, _⟩ => rfl
      | ⟨1, _⟩ => rfl))
  refine hcut.trans ?_
  refine (norm_block_apply (iblk0 V c 0 t) ⟨(j 0).val, hj0⟩ ⟨(j 1).val, hj1⟩).trans ?_
  rw [View.read_apply]
  refine congrArg (fun s : EReal => FloatOps.sqrt (F := Ideal) (FloatOps.ofBits (F := Ideal) .f32 0x00000000#32 + s)) ?_
  refine Finset.sum_congr rfl fun k _ => ?_
  have hr : (iblk0 V c 0 t : FVec Ideal S256x4096 .f32) (ix2 (⟨(j 0).val, hj0⟩ : Fin 256) k)
      = a (ix2 ((((cfg0.win 3).blk t).view.emb j) 0) k) := by
    refine keys_block_apply V c a ha t _ _ ?_ rfl
    show win0_3.index t (0 : Fin 2) * 256 + 1 * (j 0).val = t.val * 256 + (j 0).val
    rw [e30]; omega
  exact congrArg₂ (· * ·) hr hr

/-- An index of the norms is in point t's block iff each coordinate is in the block's range on its axis. -/
theorem mem_norm_block (t : Fin cfg0.N) (i : S16384x1.Idx) :
    i ∈ ((cfg0.win 3).blk t).view.set ↔ ∀ d : Fin 2, win0_3.index t d * S256x1.size d ≤ (i d).val ∧ (i d).val < win0_3.index t d * S256x1.size d + S256x1.size d := by
  show i ∈ ((View.whole main_v1_1).slice (win0_3.rect t)).set ↔ _
  rw [View.set_slice_whole, Rect.mem_set_unit]
  exact Iff.rfl

/-- Row r of the norms is written back by point r / 256: the 64 row blocks tile the array. -/
theorem norm_cover (i : S16384x1.Idx) :
    ∃ t : Fin cfg0.N, (cfg0.win 3).flush t = true ∧ i ∈ ((cfg0.win 3).blk t).view.set := by
  have hi0 : (i 0).val < 16384 := (i 0).isLt
  have hi1 : (i 1).val < 1 := (i 1).isLt
  have hN : cfg0.N = 64 := N_0
  refine ⟨⟨(i 0).val / 256, by rw [hN]; omega⟩, flush0_3 _, ?_⟩
  obtain ⟨-, -, -, -, -, -, e30, e31⟩ := block_index0 ⟨(i 0).val / 256, by rw [hN]; omega⟩
  rw [mem_norm_block]
  intro d
  match d with
  | ⟨0, _⟩ =>
    show win0_3.index _ (0 : Fin 2) * 256 ≤ (i 0).val ∧ (i 0).val < win0_3.index _ (0 : Fin 2) * 256 + 256
    rw [e30]; show (i 0).val / 256 * 256 ≤ (i 0).val ∧ (i 0).val < (i 0).val / 256 * 256 + 256; omega
  | ⟨1, _⟩ =>
    show win0_3.index _ (1 : Fin 2) * 1 ≤ (i 1).val ∧ (i 1).val < win0_3.index _ (1 : Fin 2) * 1 + 1
    rw [e31]; omega

/-- THE NORMS after region 0: entry (r, 0) is the square root of the sum, from zero, of the squares of row r of the keys. -/
theorem norm_eq (c : Dev nD) (a : S16384x4096.Idx → EReal) (ha : V c main_arg0 = a) :
    (dat0 (F := Ideal) V c).arrAt 3 cfg0.N = keysRowNorm a :=
  (dat0 (F := Ideal) V c).arrAt_eq_of_cover 3 (keysRowNorm a) (fun t _ => norm_flushed V c a ha t) norm_cover

theorem norm_apply (c : Dev nD) (a : S16384x4096.Idx → EReal) (ha : V c main_arg0 = a) (i : S16384x1.Idx) :
    (dat0 (F := Ideal) V c).arrAt 3 cfg0.N i = FloatOps.sqrt (F := Ideal) (FloatOps.ofBits (F := Ideal) .f32 0x00000000#32 + ∑ k : Fin 4096, a (ix2 (i 0) k) * a (ix2 (i 0) k)) :=
  congrFun (norm_eq V c a ha) i

end Cert.KernelIdeal.Hand

end
-- ==== Proof.KIVal1.lean ====
/-
  Region 1, read as mathematics.

  The step's and the offset's one-word arrays are written back at the last grid point only, so after the region each
  holds what the body formed there from the two carried words (`step_arr`, `offset_arr`).

  On the extended reals the carried words are the extremes of the whole projection. A block's least entry is taken
  by a reduction along the lanes and then along the sublanes, each started at +∞; since `min` is the meet of the
  order and +∞ its top, a number lies below the result exactly when it lies below every entry of the block. The
  carried word joins the blocks' results by `min`, and the eight blocks of 2048 rows tile the 16384 rows (row `r` is
  in block `r / 2048`): so a number lies below the first carried word after the last point exactly when it lies
  below every entry of the projection (`le_runMin_iff`). Dually with `max` and −∞ for the second (`runMax_le_iff`).
-/
import proofs.«133292_j61151744360781_1_alg».proof.Proof.KIData
import Idealize.ShloMosaic.Lib.Pipeline.Value
import Idealize.ShloMosaic.Lib.ValueIdx
import Idealize.ShloMosaic.PureOps.Reduce
import Idealize.ShloMosaic.PureOps.Ideal.Laws

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

section Words
variable {F : FTy → Type} [FloatOps F]
variable (V : (c : Dev nD) → (b : Ref sig .tc) → Buf (Elt F) ((c : Thread nD τ).loc b))

/-! ## The two one-word arrays after the region -/

theorem h7 : 7 < cfg1.N := by show 7 < grid1.N; rw [N_1]; decide

/-- The last point of region 1's grid. -/
abbrev tLast : Fin cfg1.N := ⟨7, h7⟩

/-- The one point whose index is 7 modulo 8 is the last. -/
theorem eq_tLast (t : Fin cfg1.N) (h : t.val % 8 = 7) : t = tLast := by
  have hN : cfg1.N = 8 := N_1
  have := t.isLt
  exact Fin.ext (show t.val = 7 by omega)

/-- The two one-word windows never move: their block index is (0, 0) at every point. -/
theorem wordIndex : ∀ t : Fin cfg1.N, win1_1.index t (0 : Fin 2) = 0 ∧ win1_1.index t (1 : Fin 2) = 0
    ∧ win1_2.index t (0 : Fin 2) = 0 ∧ win1_2.index t (1 : Fin 2) = 0 :=
  (by decide +kernel : ∀ t : Fin grid1.N, _)

/-- So a block of the step's array is the whole array: an entry of the block sits, on each axis, at block index
    × 1 + its own coordinate, and the block index is 0. -/
theorem stepBlock_read (G : Vec F S1x1 .f32) (t : Fin cfg1.N) :
    ((cfg1.win 1).blk t).view.read (Elt F) G = G := by
  obtain ⟨e0, e1, -, -⟩ := wordIndex t
  funext j
  rw [View.read_apply]
  show G _ = G j
  congr 1
  funext a
  apply Fin.ext
  match a with
  | ⟨0, _⟩ => show win1_1.index t (0 : Fin 2) * 1 + 1 * (j 0).val = (j 0).val; omega
  | ⟨1, _⟩ => show win1_1.index t (1 : Fin 2) * 1 + 1 * (j 1).val = (j 1).val; omega

/-- and the array's one index lies in every point's block. -/
theorem mem_stepBlock (t : Fin cfg1.N) (i : S1x1.Idx) : i ∈ ((cfg1.win 1).blk t).view.set := by
  obtain ⟨e0, e1, -, -⟩ := wordIndex t
  have h0 : (i 0).val < 1 := (i 0).isLt
  have h1 : (i 1).val < 1 := (i 1).isLt
  show i ∈ ((View.whole main_v2_0).slice (win1_1.rect t)).set
  rw [View.set_slice_whole, Rect.mem_set_unit]
  intro a
  match a with
  | ⟨0, _⟩ => show win1_1.index t (0 : Fin 2) * 1 ≤ (i 0).val ∧ (i 0).val < win1_1.index t (0 : Fin 2) * 1 + 1; omega
  | ⟨1, _⟩ => show win1_1.index t (1 : Fin 2) * 1 ≤ (i 1).val ∧ (i 1).val < win1_1.index t (1 : Fin 2) * 1 + 1; omega

/-- The only write-back of the step's word, at the last point, writes what the body formed from the carried words there. -/
theorem step_flushed (c : Dev nD) (t : Fin cfg1.N) (hf : (cfg1.win 1).flush t = true) :
    (dat1 V c).flushed 1 t = ((cfg1.win 1).blk t).view.read (Elt F) (k1_pay9 (runMin V c 7 h7) (runMax V c 7 h7)) := by
  obtain rfl : t = tLast := eq_tLast t ((flush1_1 t).mp hf)
  rw [stepBlock_read]
  show (dat1 V c).after 1 tLast = _
  rw [after1_1]

/-- The step's array after region 1: the quantisation step formed from the two carried words at the last point. -/
theorem step_arr (c : Dev nD) : (dat1 V c).arrAt 1 cfg1.N = k1_pay9 (runMin V c 7 h7) (runMax V c 7 h7) :=
  (dat1 V c).arrAt_eq_of_cover 1 _ (step_flushed V c) fun i => ⟨tLast, (flush1_1 tLast).mpr rfl, mem_stepBlock tLast i⟩

/-- Likewise a block of the offset's array is the whole array, -/
theorem offsetBlock_read (G : Vec F S1x1 .f32) (t : Fin cfg1.N) :
    ((cfg1.win 2).blk t).view.read (Elt F) G = G := by
  obtain ⟨-, -, e0, e1⟩ := wordIndex t
  funext j
  rw [View.read_apply]
  show G _ = G j
  congr 1
  funext a
  apply Fin.ext
  match a with
  | ⟨0, _⟩ => show win1_2.index t (0 : Fin 2) * 1 + 1 * (j 0).val = (j 0).val; omega
  | ⟨1, _⟩ => show win1_2.index t (1 : Fin 2) * 1 + 1 * (j 1).val = (j 1).val; omega

/-- its one index lies in every point's block, -/
theorem mem_offsetBlock (t : Fin cfg1.N) (i : S1x1.Idx) : i ∈ ((cfg1.win 2).blk t).view.set := by
  obtain ⟨-, -, e0, e1⟩ := wordIndex t
  have h0 : (i 0).val < 1 := (i 0).isLt
  have h1 : (i 1).val < 1 := (i 1).isLt
  show i ∈ ((View.whole main_v2_1).slice (win1_2.rect t)).set
  rw [View.set_slice_whole, Rect.mem_set_unit]
  intro a
  match a with
  | ⟨0, _⟩ => show win1_2.index t (0 : Fin 2) * 1 ≤ (i 0).val ∧ (i 0).val < win1_2.index t (0 : Fin 2) * 1 + 1; omega
  | ⟨1, _⟩ => show win1_2.index t (1 : Fin 2) * 1 ≤ (i 1).val ∧ (i 1).val < win1_2.index t (1 : Fin 2) * 1 + 1; omega

/-- and its only write-back, at the last point, writes what the body formed from the carried words there. -/
theorem offset_flushed (c : Dev nD) (t : Fin cfg1.N) (hf : (cfg1.win 2).flush t = true) :
    (dat1 V c).flushed 2 t = ((cfg1.win 2).blk t).view.read (Elt F) (k1_pay10 (runMin V c 7 h7) (runMax V c 7 h7)) := by
  obtain rfl : t = tLast := eq_tLast t ((flush1_2 t).mp hf)
  rw [offsetBlock_read]
  show (dat1 V c).after 2 tLast = _
  rw [after1_2]

/-- The offset's array after region 1: the quantisation offset formed from the two carried words at the last point. -/
theorem offset_arr (c : Dev nD) : (dat1 V c).arrAt 2 cfg1.N = k1_pay10 (runMin V c 7 h7) (runMax V c 7 h7) :=
  (dat1 V c).arrAt_eq_of_cover 2 _ (offset_flushed V c) fun i => ⟨tLast, (flush1_2 tLast).mpr rfl, mem_offsetBlock tLast i⟩

end Words

/-! ## The projection's eight blocks -/

section Blocks
variable {F : FTy → Type} [FloatOps F]
variable (V : (c : Dev nD) → (b : Ref sig .tc) → Buf (Elt F) ((c : Thread nD τ).loc b))

/-- Region 1's input window moves down the rows with the point and never sideways. -/
theorem projIndex : ∀ t : Fin cfg1.N, win1_0.index t (0 : Fin 2) = t.val ∧ win1_0.index t (1 : Fin 2) = 0 :=
  (by decide +kernel : ∀ t : Fin grid1.N, _)

/-- Block `t` of the projection is its rows `2048 t … 2048 t + 2047`. -/
theorem projBlock_apply (c : Dev nD) (t : Fin cfg1.N) (y : S2048x1024.Idx) (k : S16384x1024.Idx)
    (hk0 : (k 0).val = 2048 * t.val + (y 0).val) (hk1 : (k 1).val = (y 1).val) :
    (iblk1 V c 0 t : Vec F S2048x1024 .f32) y = (V c main_v1_0 : S16384x1024.Idx → Elt F .f32) k := by
  have hi := projIndex t
  unfold iblk1
  rw [View.read_apply]
  show V c main_v1_0 _ = V c main_v1_0 _
  congr 1
  funext a
  apply Fin.ext
  match a with
  | ⟨0, _⟩ => show win1_0.index t 0 * 2048 + 1 * (y 0).val = (k 0).val; rw [hi.1, hk0]; omega
  | ⟨1, _⟩ => show win1_0.index t 1 * 1024 + 1 * (y 1).val = (k 1).val; rw [hi.2, hk1]; omega

/-- The eight blocks are the whole projection: row `r` lies in block `r / 2048`. -/
theorem forall_projBlocks_iff (c : Dev nD) (P : Elt F .f32 → Prop) :
    (∀ (t : Fin cfg1.N) (y : S2048x1024.Idx), P ((iblk1 V c 0 t : Vec F S2048x1024 .f32) y))
      ↔ ∀ i : S16384x1024.Idx, P ((V c main_v1_0 : S16384x1024.Idx → Elt F .f32) i) := by
  have hN : cfg1.N = 8 := N_1
  constructor
  · intro H i
    have h0 : (i 0).val < 16384 := (i 0).isLt
    have h1 : (i 1).val < 1024 := (i 1).isLt
    have e := projBlock_apply V c ⟨(i 0).val / 2048, by omega⟩ (ValueIdx.ix2 ⟨(i 0).val % 2048, by omega⟩ ⟨(i 1).val, h1⟩) i
      (by show (i 0).val = 2048 * ((i 0).val / 2048) + (i 0).val % 2048; omega) rfl
    rw [← e]
    exact H _ _
  · intro H t y
    have ht : t.val < 8 := by have := t.isLt; omega
    have h0 : (y 0).val < 2048 := (y 0).isLt
    have h1 : (y 1).val < 1024 := (y 1).isLt
    rw [projBlock_apply V c t y (ValueIdx.ix2 ⟨2048 * t.val + (y 0).val, by omega⟩ ⟨(y 1).val, h1⟩) rfl rfl]
    exact H _

end Blocks

/-! ## Extremes on the extended reals -/

section Extremes
variable {φ : FTy}

/-- A property of every entry of a reshaped vector is that property of every entry of the vector. -/
theorem forall_shapeCast_iff {s t : Shape} {α : Type} (v : s.Idx → α) (h : s.ShapeCasts t) (P : α → Prop) :
    (∀ j : t.Idx, P (shapeCast t v h j)) ↔ ∀ k : s.Idx, P (v k) :=
  ⟨fun H k => by have := H ((Shape.reshapeEquiv h).symm k); unfold shapeCast at this; rwa [Equiv.apply_symm_apply] at this,
   fun H j => H _⟩

/-- A reshaped vector read at an index is the vector read at the index of the same row-major position. -/
theorem shapeCast_at {s t : Shape} {α : Type} (v : s.Idx → α) (h : s.ShapeCasts t) (j : t.Idx) :
    shapeCast t v h j = v (Shape.reshapeEquiv h j) := rfl

/-- On the extended reals a least-entry reduction started at +∞ is the greatest lower bound of the entries it joins. -/
theorem le_minReduce_iff {s t : Shape} {axes : List (Fin s.rank)} (src : FVec Ideal s φ) (acc : BitVec φ.bits)
    (h : s.Reduces axes t) (hφ : FKind.Formats φ) (hacc : acc = FKind.minimumf.neutral φ hφ)
    (htop : Ideal.ofBits φ acc = ⊤) (j : t.Idx) (x : EReal) :
    x ≤ multiReduction .minimumf axes t src acc h hφ hacc j ↔ ∀ i : s.Idx, h.drop i = j → x ≤ src i := by
  rw [multiReduction_minimumf_eq_fold]
  show x ≤ (Finset.univ.filter fun i => h.drop i = j).fold min (Ideal.ofBits φ acc) src ↔ _
  rw [Finset.le_fold_min, htop]
  simp only [le_top, true_and, Finset.mem_filter, Finset.mem_univ]

/-- Into a shape of unit axes the reduction joins every entry. -/
theorem le_minReduce_total_iff {s t : Shape} {axes : List (Fin s.rank)} (src : FVec Ideal s φ) (acc : BitVec φ.bits)
    (h : s.Reduces axes t) (ht : ∀ b, t.size b = 1) (hφ : FKind.Formats φ) (hacc : acc = FKind.minimumf.neutral φ hφ)
    (htop : Ideal.ofBits φ acc = ⊤) (j : t.Idx) (x : EReal) :
    x ≤ multiReduction .minimumf axes t src acc h hφ hacc j ↔ ∀ i : s.Idx, x ≤ src i := by
  rw [le_minReduce_iff src acc h hφ hacc htop]
  exact ⟨fun H i => H i (funext fun b => Fin.ext (by
      have := (h.drop i b).isLt; have := (j b).isLt; have := ht b; omega)), fun H i _ => H i⟩

/-- Dually, a greatest-entry reduction started at −∞ is the least upper bound of the entries it joins. -/
theorem maxReduce_le_iff {s t : Shape} {axes : List (Fin s.rank)} (src : FVec Ideal s φ) (acc : BitVec φ.bits)
    (h : s.Reduces axes t) (hφ : FKind.Formats φ) (hacc : acc = FKind.maximumf.neutral φ hφ)
    (hbot : Ideal.ofBits φ acc = ⊥) (j : t.Idx) (x : EReal) :
    multiReduction .maximumf axes t src acc h hφ hacc j ≤ x ↔ ∀ i : s.Idx, h.drop i = j → src i ≤ x := by
  rw [multiReduction_maximumf_eq_fold]
  show (Finset.univ.filter fun i => h.drop i = j).fold max (Ideal.ofBits φ acc) src ≤ x ↔ _
  rw [Finset.fold_max_le, hbot]
  simp only [bot_le, true_and, Finset.mem_filter, Finset.mem_univ]

theorem maxReduce_total_le_iff {s t : Shape} {axes : List (Fin s.rank)} (src : FVec Ideal s φ) (acc : BitVec φ.bits)
    (h : s.Reduces axes t) (ht : ∀ b, t.size b = 1) (hφ : FKind.Formats φ) (hacc : acc = FKind.maximumf.neutral φ hφ)
    (hbot : Ideal.ofBits φ acc = ⊥) (j : t.Idx) (x : EReal) :
    multiReduction .maximumf axes t src acc h hφ hacc j ≤ x ↔ ∀ i : s.Idx, src i ≤ x := by
  rw [maxReduce_le_iff src acc h hφ hacc hbot]
  exact ⟨fun H i => H i (funext fun b => Fin.ext (by
      have := (h.drop i b).isLt; have := (j b).isLt; have := ht b; omega)), fun H i _ => H i⟩

/-- The two accumulator words are the infinities. -/
theorem posInf_f32 : Ideal.ofBits .f32 0x7F800000#32 = ⊤ := by simp [Ideal.ofBits, Ideal.ieee]
theorem negInf_f32 : Ideal.ofBits .f32 0xFF800000#32 = ⊥ := by simp [Ideal.ofBits, Ideal.ieee]

/-- The same four facts at the accumulator words as the kernel's text spells them. -/
theorem le_minReduce_f32_iff {s t : Shape} {axes : List (Fin s.rank)} (src : FVec Ideal s .f32)
    (h : s.Reduces axes t) (hφ : FKind.Formats .f32) (hacc : (0x7F800000#32 : BitVec 32) = 0x7F800000#32) (j : t.Idx) (x : EReal) :
    x ≤ multiReduction .minimumf axes t src 0x7F800000#32 h hφ hacc j ↔ ∀ i : s.Idx, h.drop i = j → x ≤ src i :=
  le_minReduce_iff src _ h hφ hacc posInf_f32 j x

theorem le_minReduce_total_f32_iff {s t : Shape} {axes : List (Fin s.rank)} (src : FVec Ideal s .f32)
    (h : s.Reduces axes t) (ht : ∀ b, t.size b = 1) (hφ : FKind.Formats .f32) (hacc : (0x7F800000#32 : BitVec 32) = 0x7F800000#32)
    (j : t.Idx) (x : EReal) :
    x ≤ multiReduction .minimumf axes t src 0x7F800000#32 h hφ hacc j ↔ ∀ i : s.Idx, x ≤ src i :=
  le_minReduce_total_iff src _ h ht hφ hacc posInf_f32 j x

theorem maxReduce_le_f32_iff {s t : Shape} {axes : List (Fin s.rank)} (src : FVec Ideal s .f32)
    (h : s.Reduces axes t) (hφ : FKind.Formats .f32) (hacc : (0xFF800000#32 : BitVec 32) = 0xFF800000#32) (j : t.Idx) (x : EReal) :
    multiReduction .maximumf axes t src 0xFF800000#32 h hφ hacc j ≤ x ↔ ∀ i : s.Idx, h.drop i = j → src i ≤ x :=
  maxReduce_le_iff src _ h hφ hacc negInf_f32 j x

theorem maxReduce_total_le_f32_iff {s t : Shape} {axes : List (Fin s.rank)} (src : FVec Ideal s .f32)
    (h : s.Reduces axes t) (ht : ∀ b, t.size b = 1) (hφ : FKind.Formats .f32) (hacc : (0xFF800000#32 : BitVec 32) = 0xFF800000#32)
    (j : t.Idx) (x : EReal) :
    multiReduction .maximumf axes t src 0xFF800000#32 h hφ hacc j ≤ x ↔ ∀ i : s.Idx, src i ≤ x :=
  maxReduce_total_le_iff src _ h ht hφ hacc negInf_f32 j x

/-- The block's least entry: a lower bound of it is a lower bound of every entry of the block. -/
theorem le_blockMin_iff (v0 : Vec Ideal S2048x1024 .f32) (j : S1x1.Idx) (x : EReal) :
    x ≤ k1_pay2 v0 j ↔ ∀ i : S2048x1024.Idx, x ≤ v0 i := by
  unfold k1_pay2 k1_pay1
  dsimp only
  rw [shapeCast_self, shapeCast_at, le_minReduce_total_f32_iff _ _ (by decide)]
  refine (forall_shapeCast_iff _ _ (fun y => x ≤ y)).trans ?_
  simp only [le_minReduce_f32_iff]
  exact ⟨fun H i => H _ i rfl, fun H k i _ => H i⟩

/-- The block's greatest entry: an upper bound of it is an upper bound of every entry of the block. -/
theorem blockMax_le_iff (v0 : Vec Ideal S2048x1024 .f32) (j : S1x1.Idx) (x : EReal) :
    k1_pay3 v0 j ≤ x ↔ ∀ i : S2048x1024.Idx, v0 i ≤ x := by
  unfold k1_pay3 k1_pay1
  dsimp only
  rw [shapeCast_self, shapeCast_at, maxReduce_total_le_f32_iff _ _ (by decide)]
  refine (forall_shapeCast_iff _ _ (fun y => y ≤ x)).trans ?_
  simp only [maxReduce_le_f32_iff]
  exact ⟨fun H i => H _ i rfl, fun H k i _ => H i⟩

/-- The word stored at the first point is block 0's least entry. -/
theorem le_firstMin_iff (v0 : Vec Ideal S2048x1024 .f32) (j : S1x1.Idx) (x : EReal) :
    x ≤ k1_pay4 v0 j ↔ ∀ i : S2048x1024.Idx, x ≤ v0 i := by
  unfold k1_pay4
  rw [shapeCast_self, le_blockMin_iff]

theorem firstMax_le_iff (v0 : Vec Ideal S2048x1024 .f32) (j : S1x1.Idx) (x : EReal) :
    k1_pay5 v0 j ≤ x ↔ ∀ i : S2048x1024.Idx, v0 i ≤ x := by
  unfold k1_pay5
  rw [shapeCast_self, blockMax_le_iff]

/-- The word stored at a later point joins the carried word with the block's least entry. -/
theorem le_nextMin_iff (v0 : Vec Ideal S2048x1024 .f32) (w : Vec Ideal S1x1 .f32) (j : S1x1.Idx) (x : EReal) :
    x ≤ k1_pay6 v0 w j ↔ x ≤ w j ∧ ∀ i : S2048x1024.Idx, x ≤ v0 i := by
  unfold k1_pay6
  rw [shapeCast_self, ValueIdx.minimumf_apply, le_min_iff, le_blockMin_iff]

theorem nextMax_le_iff (v0 : Vec Ideal S2048x1024 .f32) (w : Vec Ideal S1x1 .f32) (j : S1x1.Idx) (x : EReal) :
    k1_pay7 v0 w j ≤ x ↔ w j ≤ x ∧ ∀ i : S2048x1024.Idx, v0 i ≤ x := by
  unfold k1_pay7
  rw [shapeCast_self, ValueIdx.maximumf_apply, max_le_iff, blockMax_le_iff]

end Extremes

section Carried
variable (V : (c : Dev nD) → (b : Ref sig .tc) → Buf (Elt Ideal) ((c : Thread nD τ).loc b))

/-! ## The carried words after the last point -/

/-- After point `n` the first carried word is the greatest lower bound of the entries of blocks `0 … n`. -/
theorem le_runMin_upto (c : Dev nD) (x : EReal) (j : S1x1.Idx) : ∀ (n : ℕ) (hn : n < cfg1.N),
    x ≤ runMin (F := Ideal) V c n hn j
      ↔ ∀ (m : ℕ) (hm : m < cfg1.N), m ≤ n → ∀ y : S2048x1024.Idx, x ≤ iblk1 V c 0 ⟨m, hm⟩ y
  | 0, hn => by
    rw [show runMin (F := Ideal) V c 0 hn = k1_pay4 (iblk1 V c 0 ⟨0, hn⟩) from rfl]
    refine (le_firstMin_iff _ j x).trans ⟨fun H m hm hle y => ?_, fun H y => H 0 hn le_rfl y⟩
    obtain rfl : m = 0 := by omega
    exact H y
  | n + 1, hn => by
    rw [show runMin (F := Ideal) V c (n + 1) hn
      = k1_pay6 (iblk1 V c 0 ⟨n + 1, hn⟩) (runMin V c n (Nat.lt_of_succ_lt hn)) from rfl]
    refine (le_nextMin_iff _ _ j x).trans ?_
    rw [le_runMin_upto c x j n (Nat.lt_of_succ_lt hn)]
    constructor
    · rintro ⟨H1, H2⟩ m hm hle y
      by_cases hmn : m = n + 1
      · subst hmn; exact H2 y
      · exact H1 m hm (by omega) y
    · intro H
      exact ⟨fun m hm hle y => H m hm (by omega) y, fun y => H (n + 1) hn le_rfl y⟩

/-- After point `n` the second carried word is the least upper bound of the entries of blocks `0 … n`. -/
theorem runMax_upto_le (c : Dev nD) (x : EReal) (j : S1x1.Idx) : ∀ (n : ℕ) (hn : n < cfg1.N),
    runMax (F := Ideal) V c n hn j ≤ x
      ↔ ∀ (m : ℕ) (hm : m < cfg1.N), m ≤ n → ∀ y : S2048x1024.Idx, @LE.le EReal _ (iblk1 V c 0 ⟨m, hm⟩ y) x
  | 0, hn => by
    rw [show runMax (F := Ideal) V c 0 hn = k1_pay5 (iblk1 V c 0 ⟨0, hn⟩) from rfl]
    refine (firstMax_le_iff _ j x).trans ⟨fun H m hm hle y => ?_, fun H y => H 0 hn le_rfl y⟩
    obtain rfl : m = 0 := by omega
    exact H y
  | n + 1, hn => by
    rw [show runMax (F := Ideal) V c (n + 1) hn
      = k1_pay7 (iblk1 V c 0 ⟨n + 1, hn⟩) (runMax V c n (Nat.lt_of_succ_lt hn)) from rfl]
    refine (nextMax_le_iff _ _ j x).trans ?_
    rw [runMax_upto_le c x j n (Nat.lt_of_succ_lt hn)]
    constructor
    · rintro ⟨H1, H2⟩ m hm hle y
      by_cases hmn : m = n + 1
      · subst hmn; exact H2 y
      · exact H1 m hm (by omega) y
    · intro H
      exact ⟨fun m hm hle y => H m hm (by omega) y, fun y => H (n + 1) hn le_rfl y⟩

/-- The first carried word ends as the least entry of the whole projection. -/
theorem le_runMin_iff (c : Dev nD) (x : EReal) :
    x ≤ runMin (F := Ideal) V c 7 h7 (ValueIdx.ix2 0 0) ↔ ∀ i : S16384x1024.Idx, x ≤ V c main_v1_0 i := by
  have hN : cfg1.N = 8 := N_1
  refine (le_runMin_upto V c x _ 7 h7).trans (Iff.trans ?_ (forall_projBlocks_iff V c (fun y => x ≤ y)))
  constructor
  · intro H t y
    exact H t.val t.isLt (by have := t.isLt; omega) y
  · intro H m hm _ y
    exact H ⟨m, hm⟩ y

/-- The second carried word ends as the greatest entry of the whole projection. -/
theorem runMax_le_iff (c : Dev nD) (x : EReal) :
    runMax (F := Ideal) V c 7 h7 (ValueIdx.ix2 0 0) ≤ x ↔ ∀ i : S16384x1024.Idx, @LE.le EReal _ (V c main_v1_0 i) x := by
  have hN : cfg1.N = 8 := N_1
  refine (runMax_upto_le V c x _ 7 h7).trans (Iff.trans ?_ (forall_projBlocks_iff V c (fun y => y ≤ x)))
  constructor
  · intro H t y
    exact H t.val t.isLt (by have := t.isLt; omega) y
  · intro H m hm _ y
    exact H ⟨m, hm⟩ y

end Carried

end Cert.KernelIdeal.Hand

end
-- ==== Proof.KIVal2.lean ====
/-
  Region 2's result, index by index. Every block of the projection is quantised entry by entry with the step and the
  offset region 1 left: entry `i` of the result is  step · (clamp(round(projection i / step) + offset, 0, 15) − offset),
  the rounding to the nearest even integer, the clamp a maximum with 0 followed by a minimum with 15. The sixteen
  row blocks of 1024 rows tile the 16384 rows, so the array is that function of the projection everywhere.
-/
import proofs.«133292_j61151744360781_1_alg».proof.Proof.KIData
import Idealize.ShloMosaic.Lib.Pipeline.Value
import Idealize.ShloMosaic.Lib.ValueIdx

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.KernelIdeal Cert.KernelIdeal.Gen

variable {F : FTy → Type} [FloatOps F]

variable (V : (c : Dev nD) → (b : Ref sig .tc) → Buf (Elt F) ((c : Thread nD τ).loc b))

/-! ## One entry -/

/-- One entry `x` of the projection quantised with step `s` and offset `o`: divided by the step, rounded to the
    nearest even integer, shifted by the offset, clamped to `[0, 15]`, shifted back and scaled by the step. -/
abbrev quantOf (s o x : F .f32) : F .f32 :=
  FloatOps.mulf s
    (FloatOps.subf
      (FloatOps.minimumf (FloatOps.ofBits .f32 0x41700000#32)
        (FloatOps.maximumf (FloatOps.ofBits .f32 0x00000000#32)
          (FloatOps.addf (FloatOps.roundeven (FloatOps.divf x s)) o)))
      o)

/-- A one-word vector spread over a block reads its one word everywhere. -/
theorem spread_word_apply (v : FVec F S1x1 .f32) (j : S1024x1024.Idx) :
    broadcastTo S1024x1024 v broadcasts_S1x1_S1024x1024 j = v (ix2 0 0) := by
  refine broadcastTo_apply v _ j (ix2 0 0) fun a => ?_
  match a with
  | ⟨0, _⟩ => rfl
  | ⟨1, _⟩ => rfl

/-- The body's payload at an entry of the block: that entry of the projection's block quantised with the one word of
    the step's block and the one word of the offset's. -/
theorem quant_pay_apply (s o : Vec F S1x1 .f32) (x : Vec F S1024x1024 .f32) (j : S1024x1024.Idx) :
    k2_pay1 s o x j = quantOf (s (ix2 0 0)) (o (ix2 0 0)) (x j) := by
  unfold k2_pay1
  simp only [shapeCast_self]
  show FloatOps.mulf (broadcastTo S1024x1024 s broadcasts_S1x1_S1024x1024 j)
      (FloatOps.subf
        (FloatOps.minimumf (FloatOps.ofBits .f32 0x41700000#32)
          (FloatOps.maximumf (FloatOps.ofBits .f32 0x00000000#32)
            (FloatOps.addf (FloatOps.roundeven (FloatOps.divf (x j) (broadcastTo S1024x1024 s broadcasts_S1x1_S1024x1024 j)))
              (broadcastTo S1024x1024 o broadcasts_S1x1_S1024x1024 j))))
        (broadcastTo S1024x1024 o broadcasts_S1x1_S1024x1024 j)) = _
  rw [spread_word_apply s j, spread_word_apply o j]

/-! ## The blocks -/

/-- The printed index maps over the sixteen points: the projection's and the result's block at point `t` is row block
    `t` (and the one column block), the step's and the offset's the one block there is. -/
theorem quant_blocks : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- The result as one function of the three arrays region 2 reads: every entry of the projection quantised with the
    step's and the offset's one word. -/
abbrev quantArr (c : Dev nD) : S16384x1024.Idx → F .f32 := fun i =>
  quantOf (V c main_v2_0 (ix2 0 0)) (V c main_v2_1 (ix2 0 0)) (V c main_v1_0 i)

/-- What point `t` writes back is block `t` of that function. -/
theorem quant_flushed (c : Dev nD) (t : Fin cfg2.N) :
    (dat2 V c).flushed 3 t = ((cfg2.win 3).blk t).view.read (Elt F) (quantArr V c) := by
  show (cfg2.win 3).cut (grid2.coords t) ((dat2 V c).after 3 t) = _
  rw [after2_3]
  obtain ⟨e00, e01, e10, e11, e20, e21, e30, e31⟩ := quant_blocks t
  funext j
  show k2_pay1 (iblk2 V c 1 t) (iblk2 V c 2 t) (iblk2 V c 0 t) j = quantArr V c (((cfg2.win 3).blk t).view.emb j)
  refine (quant_pay_apply (iblk2 V c 1 t) (iblk2 V c 2 t) (iblk2 V c 0 t) j).trans ?_
  have hs : iblk2 V c 1 t (ix2 0 0) = V c main_v2_0 (ix2 0 0) := by
    show V c main_v2_0 (((cfg2.win 1).blk t).view.emb (ix2 0 0)) = V c main_v2_0 (ix2 0 0)
    refine congrArg (V c main_v2_0) (funext fun a => Fin.ext ?_)
    match a with
    | ⟨0, _⟩ => show win2_1.index t (0 : Fin 2) * 1 + 1 * 0 = 0; omega
    | ⟨1, _⟩ => show win2_1.index t (1 : Fin 2) * 1 + 1 * 0 = 0; omega
  have ho : iblk2 V c 2 t (ix2 0 0) = V c main_v2_1 (ix2 0 0) := by
    show V c main_v2_1 (((cfg2.win 2).blk t).view.emb (ix2 0 0)) = V c main_v2_1 (ix2 0 0)
    refine congrArg (V c main_v2_1) (funext fun a => Fin.ext ?_)
    match a with
    | ⟨0, _⟩ => show win2_2.index t (0 : Fin 2) * 1 + 1 * 0 = 0; omega
    | ⟨1, _⟩ => show win2_2.index t (1 : Fin 2) * 1 + 1 * 0 = 0; omega
  have hx : iblk2 V c 0 t j = V c main_v1_0 (((cfg2.win 3).blk t).view.emb j) := by
    show V c main_v1_0 (((cfg2.win 0).blk t).view.emb j) = V c main_v1_0 (((cfg2.win 3).blk t).view.emb j)
    refine congrArg (V c main_v1_0) (funext fun a => Fin.ext ?_)
    match a with
    | ⟨0, _⟩ => show win2_0.index t (0 : Fin 2) * 1024 + 1 * (j 0).val = win2_3.index t (0 : Fin 2) * 1024 + 1 * (j 0).val; omega
    | ⟨1, _⟩ => show win2_0.index t (1 : Fin 2) * 1024 + 1 * (j 1).val = win2_3.index t (1 : Fin 2) * 1024 + 1 * (j 1).val; omega
  rw [hs, ho, hx]

/-- An entry of the array is in point `t`'s block iff each coordinate is in the block's range on its axis. -/
theorem quant_mem_blk (t : Fin cfg2.N) (i : S16384x1024.Idx) :
    i ∈ ((cfg2.win 3).blk t).view.set ↔ ∀ a : Fin 2, win2_3.index t a * S1024x1024.size a ≤ (i a).val ∧ (i a).val < win2_3.index t a * S1024x1024.size a + S1024x1024.size a := by
  show i ∈ ((View.whole main_v3).slice (win2_3.rect t)).set ↔ _
  rw [View.set_slice_whole, Rect.mem_set_unit]
  exact Iff.rfl

/-- Every entry of the array is in the block of the point its row falls to: row `r` in that of point `r / 1024`. -/
theorem quant_cover (i : S16384x1024.Idx) :
    ∃ t : Fin cfg2.N, (cfg2.win 3).flush t = true ∧ i ∈ ((cfg2.win 3).blk t).view.set := by
  have hi0 : (i 0).val < 16384 := (i 0).isLt
  have hi1 : (i 1).val < 1024 := (i 1).isLt
  have hN : cfg2.N = 16 := N_2
  let t : Fin cfg2.N := ⟨(i 0).val / 1024, by rw [hN]; omega⟩
  obtain ⟨e00, e01, e10, e11, e20, e21, e30, e31⟩ := quant_blocks t
  have ht : t.val = (i 0).val / 1024 := rfl
  refine ⟨t, flush2_3 t, ?_⟩
  rw [quant_mem_blk]
  intro a
  match a with
  | ⟨0, _⟩ => show win2_3.index t (0 : Fin 2) * 1024 ≤ (i 0).val ∧ (i 0).val < win2_3.index t (0 : Fin 2) * 1024 + 1024; omega
  | ⟨1, _⟩ => show win2_3.index t (1 : Fin 2) * 1024 ≤ (i 1).val ∧ (i 1).val < win2_3.index t (1 : Fin 2) * 1024 + 1024; omega

/-! ## The array -/

/-- After region 2 the result array is that function of the projection, the step and the offset. -/
theorem quant_final (c : Dev nD) : (dat2 V c).arrAt 3 cfg2.N = quantArr V c :=
  (dat2 V c).arrAt_eq_of_cover 3 (quantArr V c) (fun t _ => quant_flushed V c t) quant_cover

/-- Entry `i` of the result is  step · (clamp(round(projection i / step) + offset, 0, 15) − offset). -/
theorem quant_apply (c : Dev nD) (i : S16384x1024.Idx) :
    (dat2 V c).arrAt 3 cfg2.N i =
      FloatOps.mulf (V c main_v2_0 (ValueIdx.ix2 0 0))
        (FloatOps.subf
          (FloatOps.minimumf (FloatOps.ofBits .f32 0x41700000#32)
            (FloatOps.maximumf (FloatOps.ofBits .f32 0x00000000#32)
              (FloatOps.addf (FloatOps.roundeven (FloatOps.divf (V c main_v1_0 i) (V c main_v2_0 (ValueIdx.ix2 0 0)))) (V c main_v2_1 (ValueIdx.ix2 0 0)))))
          (V c main_v2_1 (ValueIdx.ix2 0 0))) :=
  congrFun (quant_final V c) i

end Cert.KernelIdeal.Hand

end
-- ==== Proof.KITail.lean ====
/-
  The step and the offset as functions of the two extremes. Writing `a` for the least and `b` for the greatest entry
  of the projection, both programs form `X = max |a| |b|`, replaced by 1 when it is 0, then the step
  `(X − (−X)) / 15` and the offset `round (X / step)`. The kernel writes the inner negation as `0 − X`, which is
  `−X` on the extended reals; the reference writes the offset's numerator as `−(−X)`, which is `X`. Every other
  operation is the same one on both sides, so equal extremes give equal steps and equal offsets.
-/
import proofs.«133292_j61151744360781_1_alg».proof.Proof.KIData
import proofs.«133292_j61151744360781_1_alg».proof.Proof.RefRead
import Idealize.ShloMosaic.Lib.ValueIdx
import Idealize.ShloMosaic.PureOps.Ideal.Laws

noncomputable section

namespace Cert.KernelIdeal.Hand

open Idealize.ShloMosaic Idealize.ShloMosaic.TcCoe Idealize.SL.Sem
open Idealize.ShloMosaic.ValueIdx
open Cert.KernelIdeal Cert.KernelIdeal.Gen
open Cert.ReferenceIdeal.ReadP

variable (s0 s1 : Vec Ideal S1x1 .f32)
  (x0 : (⟨Cert.ReferenceIdeal.S16384x4096, .f32⟩ : BufTy).Contents (Elt Ideal))
  (x1 : (⟨Cert.ReferenceIdeal.S1024x4096, .f32⟩ : BufTy).Contents (Elt Ideal))

/-- The clipped magnitude `X`: the kernel's, read at its one entry, is the reference's when the extremes agree. -/
theorem magnitude_tail (h0 : s0 (ix2 0 0) = val_main_v3 (F := Ideal) x0 x1 ix0)
    (h1 : s1 (ix2 0 0) = val_main_v5 (F := Ideal) x0 x1 ix0) :
    k1_pay8 (F := Ideal) s0 s1 (ix2 0 0) = val_main_v9 (F := Ideal) x0 x1 ix0 := by
  rw [val_main_v9_apply, val_main_v8_apply, val_main_v7_apply, val_main_v4_apply, val_main_v6_apply, ← h0, ← h1]
  rfl

/-- The step: `X − (0 − X)` is `X − (−X)`. -/
theorem step_tail (h0 : s0 (ix2 0 0) = val_main_v3 (F := Ideal) x0 x1 ix0)
    (h1 : s1 (ix2 0 0) = val_main_v5 (F := Ideal) x0 x1 ix0) :
    k1_pay9 (F := Ideal) s0 s1 (ix2 0 0) = val_main_v12 (F := Ideal) x0 x1 ix0 := by
  have e := magnitude_tail s0 s1 x0 x1 h0 h1
  rw [val_main_v12_apply, val_main_v11_apply, val_main_v10_apply, val_main_cst_3_apply, ← e]
  unfold k1_pay9
  simp only [divf_apply, subf_apply, broadcast_apply, Ideal.hostDivf_def, Ideal.hostNegf_def, Ideal.negf_def,
    Ideal.subf_def, Ideal.ofBits_def, Ideal.ofBits_zero_f32, zero_sub]

/-- The offset: `−(−X)` is `X`. -/
theorem offset_tail (h0 : s0 (ix2 0 0) = val_main_v3 (F := Ideal) x0 x1 ix0)
    (h1 : s1 (ix2 0 0) = val_main_v5 (F := Ideal) x0 x1 ix0) :
    k1_pay10 (F := Ideal) s0 s1 (ix2 0 0) = val_main_v15 (F := Ideal) x0 x1 ix0 := by
  have e := magnitude_tail s0 s1 x0 x1 h0 h1
  have es := step_tail s0 s1 x0 x1 h0 h1
  rw [val_main_v15_apply, val_main_v14_apply, val_main_v13_apply, val_main_v10_apply, ← e, ← es]
  unfold k1_pay10
  simp only [divf_apply, Ideal.hostDivf_def, Ideal.hostNegf_def, Ideal.negf_def, neg_neg]
  show FloatOps.roundeven (F := Ideal) (φ := .f32) (divf (k1_pay8 (F := Ideal) s0 s1) (k1_pay9 (F := Ideal) s0 s1) (ix2 0 0)) = _
  rw [divf_apply, Ideal.roundeven_def, Ideal.hostUnary_roundeven_def]

end Cert.KernelIdeal.Hand

end
-- ==== Proof.RefExt.lean ====
/- The reference's two global reductions of the projection, read at the ideal values by their universal
   property. There a float is an extended real, the minimum and maximum of two floats are the lattice's `min` and
   `max`, and the initial words denote +∞ = ⊤ and −∞ = ⊥. A reduction over both axes into a rank-zero result folds over
   every operand index (each drops to the one result index), and for a commutative, associative operation the fold is
   over the SET of indices. Hence the minimum from ⊤ is the greatest lower bound of the elements and the maximum
   from ⊥ their least upper bound: `x ≤ min ↔ ∀ i, x ≤ y i` and `max ≤ x ↔ ∀ i, y i ≤ x`. -/
import proofs.«133292_j61151744360781_1_alg».proof.Proof.RefRead
import Idealize.ShloMosaic.PureOps.Reduce
import Idealize.ShloMosaic.PureOps.Ideal.Laws
import Idealize.ShloMosaic.Lib.ValueIdx
import Mathlib.Data.Finset.Fold

noncomputable section

namespace Cert.ReferenceIdeal.RefExt

open Cert.ReferenceIdeal Cert.ReferenceIdeal.Gen Idealize.ShloMosaic Idealize.ShloMosaic.TcCoe Idealize.SL.Sem Idealize.ShloMosaic.StableHlo
open Cert.ReferenceIdeal.ReadP

/-- The f32 word of +∞ denotes the top extended real. -/
theorem ofBits_posInf : Ideal.ofBits .f32 0x7F800000#32 = (⊤ : EReal) := by simp [Ideal.ofBits, Ideal.ieee]

/-- The f32 word of −∞ denotes the bottom extended real. -/
theorem ofBits_negInf : Ideal.ofBits .f32 0xFF800000#32 = (⊥ : EReal) := by simp [Ideal.ofBits, Ideal.ieee]

/-- The result has rank zero, so every operand index drops to its one index: the fold runs over all of them. -/
theorem filter_drop_eq_univ (j : S_.Idx) :
    (Finset.univ.filter fun i : S16384x1024.Idx => reducesTo_S16384x1024_S_d0_1.drop i = j) = Finset.univ :=
  Finset.filter_true_of_mem fun i _ => funext fun a => a.elim0

/-- A minimum over both axes from +∞: `x` is below it exactly when `x` is below every element. -/
theorem le_reduce_min_iff (y : S16384x1024.Idx → EReal) (x : EReal) :
    x ≤ Host.reduce (FloatOps.minimumf (F := Ideal) (φ := .f32)) y (val_main_cst (F := Ideal)) reducesTo_S16384x1024_S_d0_1 h_S_ ValueIdx.ix0
      ↔ ∀ i : S16384x1024.Idx, x ≤ y i := by
  rw [Host.reduce_eq_fold, filter_drop_eq_univ]
  show x ≤ Finset.fold min (Ideal.ofBits .f32 0x7F800000#32) y Finset.univ ↔ _
  rw [ofBits_posInf, Finset.le_fold_min]
  exact ⟨fun h i => h.2 i (Finset.mem_univ i), fun h => ⟨le_top, fun i _ => h i⟩⟩

/-- A maximum over both axes from −∞: it is below `x` exactly when every element is below `x`. -/
theorem reduce_max_le_iff (y : S16384x1024.Idx → EReal) (x : EReal) :
    Host.reduce (FloatOps.maximumf (F := Ideal) (φ := .f32)) y (val_main_cst_0 (F := Ideal)) reducesTo_S16384x1024_S_d0_1 h_S_ ValueIdx.ix0 ≤ x
      ↔ ∀ i : S16384x1024.Idx, y i ≤ x := by
  rw [Host.reduce_eq_fold, filter_drop_eq_univ]
  show Finset.fold max (Ideal.ofBits .f32 0xFF800000#32) y Finset.univ ≤ x ↔ _
  rw [ofBits_negInf, Finset.fold_max_le]
  exact ⟨fun h i => h.2 i (Finset.mem_univ i), fun h => ⟨bot_le, fun i _ => h i⟩⟩

/-- The reference's global minimum of the projection, by its universal property. -/
theorem le_val_main_v3_iff (x0 : (⟨S16384x4096, .f32⟩ : BufTy).Contents (Elt Ideal)) (x1 : (⟨S1024x4096, .f32⟩ : BufTy).Contents (Elt Ideal)) (x : EReal) :
    x ≤ val_main_v3 (F := Ideal) x0 x1 ValueIdx.ix0 ↔ ∀ i : S16384x1024.Idx, x ≤ val_main_v1 (F := Ideal) x0 x1 i :=
  le_reduce_min_iff (val_main_v1 (F := Ideal) x0 x1) x

/-- The reference's global maximum of the projection, by its universal property. -/
theorem val_main_v5_le_iff (x0 : (⟨S16384x4096, .f32⟩ : BufTy).Contents (Elt Ideal)) (x1 : (⟨S1024x4096, .f32⟩ : BufTy).Contents (Elt Ideal)) (x : EReal) :
    val_main_v5 (F := Ideal) x0 x1 ValueIdx.ix0 ≤ x ↔ ∀ i : S16384x1024.Idx, val_main_v1 (F := Ideal) x0 x1 i ≤ x :=
  reduce_max_le_iff (val_main_v1 (F := Ideal) x0 x1) x

end Cert.ReferenceIdeal.RefExt

end
-- ==== Proof.KIJoin.lean ====
/-
  The two programs compute the same four results, at the ideal values.

  Write `a` for the keys and `b` for the sketch. Entry (r, j) of the projection is `∑ₖ a (r, k) · b (j, k)` in both
  programs: the kernel contracts the narrowed blocks (narrowing is the identity on the extended reals), the reference
  transposes the sketch and contracts over the transposed axis. The least and the greatest entry of the projection
  are characterised on both sides by their universal property, so they agree; hence so do the step and the offset,
  which are one scalar chain of the two extremes. The quantised projection is one entry-by-entry function of the
  projection, the step and the offset on both sides, and the norms are the square root of each row's sum of squares
  from a zero accumulator on both sides. The last three results are re-laid without their unit axes.
-/
import proofs.«133292_j61151744360781_1_alg».proof.Proof.KIFrame
import proofs.«133292_j61151744360781_1_alg».proof.Proof.KIVal0
import proofs.«133292_j61151744360781_1_alg».proof.Proof.KIVal1
import proofs.«133292_j61151744360781_1_alg».proof.Proof.KIVal2
import proofs.«133292_j61151744360781_1_alg».proof.Proof.KITail
import proofs.«133292_j61151744360781_1_alg».proof.Proof.RefExt
import Idealize.ShloMosaic.Lib.Pipeline.Value
import Idealize.ShloMosaic.Lib.ValueIdx

noncomputable section

namespace Cert.KernelIdeal.Hand

open Idealize.ShloMosaic Idealize.ShloMosaic.TcCoe Idealize.SL.Sem
open Idealize.ShloMosaic.ValueIdx
open Cert.KernelIdeal Cert.KernelIdeal.Gen
open Cert.ReferenceIdeal.ReadP

variable (m : (ℓ : Loc nD τ sig) → Buf (Elt Ideal) ℓ)

/-- The two arguments as launched, at their literal types. -/
abbrev keysOf (c : Dev nD) : S16384x4096.Idx → EReal := m ((c : Thread nD τ).loc main_arg0)
abbrev sketchOf (c : Dev nD) : S1024x4096.Idx → EReal := m ((c : Thread nD τ).loc main_arg1)

/-- The one index of a rank-0 array. -/
theorem idx0_eq (j : S_.Idx) : j = ix0 := funext fun d => d.elim0

/-! ## The projection -/

theorem V1_keys (c : Dev nD) : V1 m c main_arg0 = keysOf m c := V1_main_arg0 m c

/-- Narrowing is the identity on the extended reals. -/
theorem V1_sketch (c : Dev nD) : V1 m c main_v0 = sketchOf m c :=
  (V1_main_v0 m c).trans (funext fun j => rfl)

theorem proj_join (c : Dev nD) :
    (dat0 (F := Ideal) (V1 m) c).arrAt 2 cfg0.N = val_main_v1 (F := Ideal) (keysOf m c) (sketchOf m c) := by
  rw [proj_eq (V1 m) c (keysOf m c) (sketchOf m c) (V1_keys m c) (V1_sketch m c)]
  funext i
  rw [val_main_v1_apply]
  show (∑ k : Fin 4096, keysOf m c (ix2 (i 0) k) * sketchOf m c (ix2 (i 1) k)) = _
  refine Finset.sum_congr rfl fun k _ => ?_
  rw [val_main_v0_apply]
  have e1 : lidx_main_v1 i k = ix2 (i 0) k :=
    funext fun a => Fin.ext (by match a with | ⟨0, _⟩ => rfl | ⟨1, _⟩ => rfl)
  have e2 : idx_main_v0 (ridx_main_v1 i k) = ix2 (i 1) k :=
    funext fun a => Fin.ext (by match a with | ⟨0, _⟩ => rfl | ⟨1, _⟩ => rfl)
  rw [e1, e2]
  rfl

/-- Regions 1 and 2 find the projection. -/
theorem V2_proj (c : Dev nD) : V2 m c main_v1_0 = val_main_v1 (F := Ideal) (keysOf m c) (sketchOf m c) :=
  (V2_main_v1_0 m c).trans (proj_join m c)
theorem V3_proj (c : Dev nD) : V3 m c main_v1_0 = val_main_v1 (F := Ideal) (keysOf m c) (sketchOf m c) :=
  (V3_main_v1_0 m c).trans (proj_join m c)

/-! ## The extremes, the step and the offset -/

theorem runMin_join (c : Dev nD) :
    runMin (F := Ideal) (V2 m) c 7 h7 (ix2 0 0) = val_main_v3 (F := Ideal) (keysOf m c) (sketchOf m c) ix0 := by
  apply le_antisymm
  · rw [Cert.ReferenceIdeal.RefExt.le_val_main_v3_iff]
    intro i
    have h := (le_runMin_iff (V2 m) c (runMin (F := Ideal) (V2 m) c 7 h7 (ix2 0 0))).mp le_rfl i
    rw [V2_proj m c] at h
    exact h
  · rw [le_runMin_iff]
    intro i
    rw [V2_proj m c]
    exact (Cert.ReferenceIdeal.RefExt.le_val_main_v3_iff _ _ _).mp le_rfl i

theorem runMax_join (c : Dev nD) :
    runMax (F := Ideal) (V2 m) c 7 h7 (ix2 0 0) = val_main_v5 (F := Ideal) (keysOf m c) (sketchOf m c) ix0 := by
  apply le_antisymm
  · rw [runMax_le_iff]
    intro i
    rw [V2_proj m c]
    exact (Cert.ReferenceIdeal.RefExt.val_main_v5_le_iff _ _ _).mp le_rfl i
  · rw [Cert.ReferenceIdeal.RefExt.val_main_v5_le_iff]
    intro i
    have h := (runMax_le_iff (V2 m) c (runMax (F := Ideal) (V2 m) c 7 h7 (ix2 0 0))).mp le_rfl i
    rw [V2_proj m c] at h
    exact h

theorem step_word (c : Dev nD) :
    (dat1 (F := Ideal) (V2 m) c).arrAt 1 cfg1.N (ix2 0 0) = val_main_v12 (F := Ideal) (keysOf m c) (sketchOf m c) ix0 := by
  rw [step_arr]
  exact step_tail _ _ _ _ (runMin_join m c) (runMax_join m c)

theorem offset_word (c : Dev nD) :
    (dat1 (F := Ideal) (V2 m) c).arrAt 2 cfg1.N (ix2 0 0) = val_main_v15 (F := Ideal) (keysOf m c) (sketchOf m c) ix0 := by
  rw [offset_arr]
  exact offset_tail _ _ _ _ (runMin_join m c) (runMax_join m c)

/-! ## The four results -/

/-- The step, re-laid to rank 0. -/
theorem step_join (c : Dev nD) : val_main_v12 (F := Ideal) (keysOf m c) (sketchOf m c) = W5 m c main_v5 := by
  funext j
  rw [idx0_eq j, W5_main_v5, shapeCast_apply (W4 m c main_v2_0) shapeCasts_S1x1_S_ ix0 (ix2 0 0) rfl, W4_main_v2_0]
  exact (step_word m c).symm

/-- The offset, re-laid to rank 0. -/
theorem offset_join (c : Dev nD) : val_main_v15 (F := Ideal) (keysOf m c) (sketchOf m c) = W5 m c main_v6 := by
  funext j
  rw [idx0_eq j, W5_main_v6, shapeCast_apply (W4 m c main_v2_1) shapeCasts_S1x1_S_ ix0 (ix2 0 0) rfl, W4_main_v2_1]
  exact (offset_word m c).symm

/-- The quantised projection. -/
theorem quant_join (c : Dev nD) : val_main_v25 (F := Ideal) (keysOf m c) (sketchOf m c) = W5 m c main_v3 := by
  funext i
  have es : V3 m c main_v2_0 (ix2 0 0) = val_main_v12 (F := Ideal) (keysOf m c) (sketchOf m c) ix0 := by
    rw [V3_main_v2_0]; exact step_word m c
  have eo : V3 m c main_v2_1 (ix2 0 0) = val_main_v15 (F := Ideal) (keysOf m c) (sketchOf m c) ix0 := by
    rw [V3_main_v2_1]; exact offset_word m c
  rw [W5_main_v3, quant_apply (V3 m) c i, es, eo, V3_proj m c,
    val_main_v25_apply, val_main_v24_apply, val_main_v23_apply, val_main_v22_apply, val_main_v21_apply,
    val_main_call4_v4_apply, val_main_call4_v3_apply, val_main_cst_5_apply, val_main_call4_v2_apply,
    val_main_call4_v1_apply, val_main_call4_v0_apply, val_main_cst_4_apply, val_main_v20_apply, val_main_v19_apply,
    val_main_v18_apply, val_main_v17_apply, val_main_v16_apply,
    idx0_eq (idx_main_v24 i), idx0_eq (idx_main_v22 i), idx0_eq (idx_main_v19 i), idx0_eq (idx_main_v16 i)]
  simp only [Ideal.hostUnary_roundeven_def, Ideal.roundeven_def, Ideal.hostDivf_def, Ideal.divf_def]

/-- The norms, re-laid to rank 1: row `r` of the one-column array is entry `r` of the vector. -/
theorem norm_join (c : Dev nD) : val_main_v2 (F := Ideal) (keysOf m c) = W5 m c main_v4 := by
  funext i
  obtain ⟨r, rfl⟩ : ∃ r : Fin 16384, i = ix1 r := ⟨i 0, funext fun d => by match d with | ⟨0, _⟩ => rfl⟩
  have hk : (S16384x1.rowMajor (ix2 r (0 : Fin 1))).val = (S16384.rowMajor (ix1 r)).val := by
    simp [Shape.rowMajor_val_two, Shape.rowMajor_val_one]
  rw [W5_main_v4, shapeCast_apply (W4 m c main_v1_1) shapeCasts_S16384x1_S16384 (ix1 r) (ix2 r (0 : Fin 1)) hk,
    W4_main_v1_1, norm_eq (V1 m) c (keysOf m c) (V1_keys m c), val_main_v2_apply, val_main_call0_v1_apply,
    val_main_call0_cst_apply]
  show _ = FloatOps.sqrt (F := Ideal) (FloatOps.ofBits (F := Ideal) .f32 0x00000000#32
    + ∑ k : Fin 4096, keysOf m c (ix2 r k) * keysOf m c (ix2 r k))
  rw [Ideal.hostUnary_sqrt_def, Ideal.sqrt_def]
  refine congrArg _ (congrArg _ (Finset.sum_congr rfl fun k _ => ?_))
  rw [val_main_call0_v0_apply, Ideal.mulf_def]
  have e : idx_main_call0_v1 (ix1 r) k = ix2 r k :=
    funext fun a => Fin.ext (by match a with | ⟨0, _⟩ => rfl | ⟨1, _⟩ => rfl)
  rw [e]

end Cert.KernelIdeal.Hand

end
-- ==== Proof.RefRun.lean ====
/-
  The reference program's run. Its @main is a list of 41 host operations (the five outlined functions inlined at
  their calls), cut here into three stretches: the projection and the row norms (operations 1–6); the scalar chain
  from the two global extremes to the step and the offset (7–24); the entry-by-entry quantisation (25–41). Each
  stretch's results are read off an arbitrary entry valuation, with what earlier stretches left handed in as
  equations, so that the projection stays one name throughout; the stretches are then joined. Every weakly fair
  execution terminates with the four results at the stage functions of the two arguments and the arguments unchanged.
-/
import proofs.«133292_j61151744360781_1_alg».proof.Proof.RefRead
import Idealize.ShloMosaic.Lib.StableHlo.Run

noncomputable section

namespace Cert.ReferenceIdeal.RunH

open Cert.ReferenceIdeal Cert.ReferenceIdeal.Gen Idealize.ShloMosaic Idealize.ShloMosaic.TcCoe Idealize.SL.Sem Idealize.ShloMosaic.StableHlo
open Cert.ReferenceIdeal.ReadP

variable {F : FTy → Type} [FloatOps F]

/-! # The reference program's run, stretch by stretch

The reference's `@main` is a straight line of 41 operations. Its effect on the buffers is the fold of the
operations' results over the launch contents. The line is cut into three stretches:

* operations 1 to 6: the product `main_v1` of the first argument with the transposed second argument, and the
  row norms `main_v2` of the first argument — functions of the two arguments;
* operations 7 to 24: a chain of scalars ending in the step `main_v12` and the offset `main_v15` — functions of
  the product alone, which the stretch only reads;
* operations 25 to 41: the elementwise tail ending in `main_v25` — a function of the product, the step and the
  offset, each of which the stretch only reads.

The effect of each stretch is stated for an ARBITRARY valuation on entry. A stretch that reads a buffer computed
earlier is given that buffer's contents as a hypothesis, as the stage function of the two arguments, so that those
contents stay one atom in every term compared: the product occurs eight times in the step and twelve in the
offset, and is never written out. The three stretches are then joined: the fold over a concatenation is the fold
over its second part from the fold over its first. -/

/-- Operations 1 to 6: the transposed second argument, the product, and the first argument's row norms. -/
abbrev opsA : List (HloOp τ sig (Elt F)) :=
  [ unary main_arg1 main_v0 ((transpose S4096x1024 [1, 0] · transposes_S1024x4096_S4096x1024_1_0) : (⟨S1024x4096, .f32⟩ : BufTy).Contents (Elt F) → (⟨S4096x1024, .f32⟩ : BufTy).Contents (Elt F)),
    binary main_arg0 main_v0 main_v1 ((fun l r => Host.dotGeneral dot_S16384x4096_S4096x1024_S16384x1024_1_0_0_1_n_n none l r) : (⟨S16384x4096, .f32⟩ : BufTy).Contents (Elt F) → (⟨S4096x1024, .f32⟩ : BufTy).Contents (Elt F) → (⟨S16384x1024, .f32⟩ : BufTy).Contents (Elt F)),
    TRef.binary (TRef.of (T := ⟨S16384x4096, .f32⟩) main_arg0) (TRef.of (T := ⟨S16384x4096, .f32⟩) main_arg0) (TRef.of (T := ⟨S16384x4096, .f32⟩) main_call0_v0) mulf,
    TRef.nullary (TRef.of (T := ⟨S_, .f32⟩) main_call0_cst) (constant S_ .f32 0x00000000#32),
    TRef.binary (TRef.of (T := ⟨S16384x4096, .f32⟩) main_call0_v0) (TRef.of (T := ⟨S_, .f32⟩) main_call0_cst) (TRef.of (T := ⟨S16384, .f32⟩) main_call0_v1) (fun x v => Host.reduceAdd x v reducesTo_S16384x4096_S16384_d1 h_S_),
    TRef.unary (TRef.of (T := ⟨S16384, .f32⟩) main_call0_v1) (TRef.of (T := ⟨S16384, .f32⟩) main_v2) Host.sqrt ]

/-- Operations 7 to 24: from the product's least and greatest entries to the step and the offset. -/
abbrev opsB : List (HloOp τ sig (Elt F)) :=
  [ nullary main_cst (constant S_ .f32 0x7F800000#32),
    binary main_v1 main_cst main_v3 ((fun x v => Host.reduce FloatOps.minimumf x v reducesTo_S16384x1024_S_d0_1 h_S_) : (⟨S16384x1024, .f32⟩ : BufTy).Contents (Elt F) → (⟨S_, .f32⟩ : BufTy).Contents (Elt F) → (⟨S_, .f32⟩ : BufTy).Contents (Elt F)),
    unary main_v3 main_v4 (Host.absf : (⟨S_, .f32⟩ : BufTy).Contents (Elt F) → (⟨S_, .f32⟩ : BufTy).Contents (Elt F)),
    nullary main_cst_0 (constant S_ .f32 0xFF800000#32),
    binary main_v1 main_cst_0 main_v5 ((fun x v => Host.reduce FloatOps.maximumf x v reducesTo_S16384x1024_S_d0_1 h_S_) : (⟨S16384x1024, .f32⟩ : BufTy).Contents (Elt F) → (⟨S_, .f32⟩ : BufTy).Contents (Elt F) → (⟨S_, .f32⟩ : BufTy).Contents (Elt F)),
    unary main_v5 main_v6 (Host.absf : (⟨S_, .f32⟩ : BufTy).Contents (Elt F) → (⟨S_, .f32⟩ : BufTy).Contents (Elt F)),
    binary main_v4 main_v6 main_v7 (maximumf : (⟨S_, .f32⟩ : BufTy).Contents (Elt F) → (⟨S_, .f32⟩ : BufTy).Contents (Elt F) → (⟨S_, .f32⟩ : BufTy).Contents (Elt F)),
    nullary main_cst_1 (constant S_ .f32 0x00000000#32),
    binary main_v7 main_cst_1 main_v8 (cmpf .oeq : (⟨S_, .f32⟩ : BufTy).Contents (Elt F) → (⟨S_, .f32⟩ : BufTy).Contents (Elt F) → (⟨S_, .i1⟩ : BufTy).Contents (Elt F)),
    nullary main_cst_2 (constant S_ .f32 0x3F800000#32),
    TRef.ternary (TRef.of (T := ⟨S_, .i1⟩) main_v8) (TRef.of (T := ⟨S_, .f32⟩) main_cst_2) (TRef.of (T := ⟨S_, .f32⟩) main_v7) (TRef.of (T := ⟨S_, .f32⟩) main_v9) select,
    unary main_v9 main_v10 (Host.negf : (⟨S_, .f32⟩ : BufTy).Contents (Elt F) → (⟨S_, .f32⟩ : BufTy).Contents (Elt F)),
    binary main_v9 main_v10 main_v11 (subf : (⟨S_, .f32⟩ : BufTy).Contents (Elt F) → (⟨S_, .f32⟩ : BufTy).Contents (Elt F) → (⟨S_, .f32⟩ : BufTy).Contents (Elt F)),
    nullary main_cst_3 (constant S_ .f32 0x41700000#32),
    binary main_v11 main_cst_3 main_v12 (Host.divf : (⟨S_, .f32⟩ : BufTy).Contents (Elt F) → (⟨S_, .f32⟩ : BufTy).Contents (Elt F) → (⟨S_, .f32⟩ : BufTy).Contents (Elt F)),
    unary main_v10 main_v13 (Host.negf : (⟨S_, .f32⟩ : BufTy).Contents (Elt F) → (⟨S_, .f32⟩ : BufTy).Contents (Elt F)),
    binary main_v13 main_v12 main_v14 (Host.divf : (⟨S_, .f32⟩ : BufTy).Contents (Elt F) → (⟨S_, .f32⟩ : BufTy).Contents (Elt F) → (⟨S_, .f32⟩ : BufTy).Contents (Elt F)),
    TRef.unary (TRef.of (T := ⟨S_, .f32⟩) main_v14) (TRef.of (T := ⟨S_, .f32⟩) main_v15) Host.roundeven ]

/-- Operations 25 to 41: the elementwise tail, from the product, the step and the offset to the result. -/
abbrev opsC : List (HloOp τ sig (Elt F)) :=
  [ unary main_v12 main_v16 (broadcastInDim S16384x1024 ![] bcast_S_S16384x1024 : (⟨S_, .f32⟩ : BufTy).Contents (Elt F) → (⟨S16384x1024, .f32⟩ : BufTy).Contents (Elt F)),
    binary main_v1 main_v16 main_v17 (Host.divf : (⟨S16384x1024, .f32⟩ : BufTy).Contents (Elt F) → (⟨S16384x1024, .f32⟩ : BufTy).Contents (Elt F) → (⟨S16384x1024, .f32⟩ : BufTy).Contents (Elt F)),
    TRef.unary (TRef.of (T := ⟨S16384x1024, .f32⟩) main_v17) (TRef.of (T := ⟨S16384x1024, .f32⟩) main_v18) Host.roundeven,
    unary main_v15 main_v19 (broadcastInDim S16384x1024 ![] bcast_S_S16384x1024 : (⟨S_, .f32⟩ : BufTy).Contents (Elt F) → (⟨S16384x1024, .f32⟩ : BufTy).Contents (Elt F)),
    binary main_v18 main_v19 main_v20 (addf : (⟨S16384x1024, .f32⟩ : BufTy).Contents (Elt F) → (⟨S16384x1024, .f32⟩ : BufTy).Contents (Elt F) → (⟨S16384x1024, .f32⟩ : BufTy).Contents (Elt F)),
    nullary main_cst_4 (constant S_ .f32 0x00000000#32),
    nullary main_cst_5 (constant S_ .f32 0x41700000#32),
    TRef.unary (TRef.of (T := ⟨S_, .f32⟩) main_cst_4) (TRef.of (T := ⟨S_, .f32⟩) main_call4_v0) id,
    TRef.unary (TRef.of (T := ⟨S_, .f32⟩) main_call4_v0) (TRef.of (T := ⟨S16384x1024, .f32⟩) main_call4_v1) (broadcastInDim S16384x1024 ![] bcast_S_S16384x1024),
    TRef.binary (TRef.of (T := ⟨S16384x1024, .f32⟩) main_call4_v1) (TRef.of (T := ⟨S16384x1024, .f32⟩) main_v20) (TRef.of (T := ⟨S16384x1024, .f32⟩) main_call4_v2) maximumf,
    TRef.unary (TRef.of (T := ⟨S_, .f32⟩) main_cst_5) (TRef.of (T := ⟨S_, .f32⟩) main_call4_v3) id,
    TRef.unary (TRef.of (T := ⟨S_, .f32⟩) main_call4_v3) (TRef.of (T := ⟨S16384x1024, .f32⟩) main_call4_v4) (broadcastInDim S16384x1024 ![] bcast_S_S16384x1024),
    TRef.binary (TRef.of (T := ⟨S16384x1024, .f32⟩) main_call4_v4) (TRef.of (T := ⟨S16384x1024, .f32⟩) main_call4_v2) (TRef.of (T := ⟨S16384x1024, .f32⟩) main_v21) minimumf,
    unary main_v15 main_v22 (broadcastInDim S16384x1024 ![] bcast_S_S16384x1024 : (⟨S_, .f32⟩ : BufTy).Contents (Elt F) → (⟨S16384x1024, .f32⟩ : BufTy).Contents (Elt F)),
    binary main_v21 main_v22 main_v23 (subf : (⟨S16384x1024, .f32⟩ : BufTy).Contents (Elt F) → (⟨S16384x1024, .f32⟩ : BufTy).Contents (Elt F) → (⟨S16384x1024, .f32⟩ : BufTy).Contents (Elt F)),
    unary main_v12 main_v24 (broadcastInDim S16384x1024 ![] bcast_S_S16384x1024 : (⟨S_, .f32⟩ : BufTy).Contents (Elt F) → (⟨S16384x1024, .f32⟩ : BufTy).Contents (Elt F)),
    binary main_v24 main_v23 main_v25 (mulf : (⟨S16384x1024, .f32⟩ : BufTy).Contents (Elt F) → (⟨S16384x1024, .f32⟩ : BufTy).Contents (Elt F) → (⟨S16384x1024, .f32⟩ : BufTy).Contents (Elt F)) ]

/-- `@main`'s 41 operations, in order: the three stretches in a row. -/
abbrev ops : List (HloOp τ sig (Elt F)) := opsA ++ (opsB ++ opsC)

-- the chain nests forty-one binds one inside the next: the recursion bound is raised to reach the innermost
set_option maxRecDepth 2048 in
/-- `@main` is that straight line: with the five outlined functions' definitions opened at their calls, both sides
    are one chain of operation steps once sequencing is re-associated (a bind of a bind is a bind; a bind of a
    pure value is its continuation). -/
theorem main_eq (c : Dev nD) : main (F := F) c = seq ops := by
  simp only [main, fn_norm.body, fn_where.body, fn_round.body, fn_round_0.body, fn_clip.body,
    ops, opsA, opsB, opsC, List.cons_append, List.nil_append, seq, bind_assoc, pure_bind]
theorem scopedRefs_eq : (Finset.univ.filter fun b : Ref sig .tc => b.isScoped) = ∅ := by decide
theorem scopedSems_eq : (Finset.univ.filter fun sm : SemLoc sig => sm.isScoped .tc) = ∅ := by decide

/-! ## Every operation touches TensorCore references only, and determines its results -/

theorem opsA_sub : (opsA : List (HloOp τ sig (Elt F))).Forall fun op => op.bufs ⊆ tcRefs τ sig :=
  ⟨unary_bufs_sub .., binary_bufs_sub .., binary_bufs_sub .., nullary_bufs_sub .., binary_bufs_sub .., unary_bufs_sub ..⟩
theorem opsB_sub : (opsB : List (HloOp τ sig (Elt F))).Forall fun op => op.bufs ⊆ tcRefs τ sig :=
  ⟨nullary_bufs_sub .., binary_bufs_sub .., unary_bufs_sub .., nullary_bufs_sub .., binary_bufs_sub .., unary_bufs_sub .., binary_bufs_sub .., nullary_bufs_sub .., binary_bufs_sub .., nullary_bufs_sub .., ternary_bufs_sub .., unary_bufs_sub .., binary_bufs_sub .., nullary_bufs_sub .., binary_bufs_sub .., unary_bufs_sub .., binary_bufs_sub .., unary_bufs_sub ..⟩
theorem opsC_sub : (opsC : List (HloOp τ sig (Elt F))).Forall fun op => op.bufs ⊆ tcRefs τ sig :=
  ⟨unary_bufs_sub .., binary_bufs_sub .., unary_bufs_sub .., unary_bufs_sub .., binary_bufs_sub .., nullary_bufs_sub .., nullary_bufs_sub .., unary_bufs_sub .., unary_bufs_sub .., binary_bufs_sub .., unary_bufs_sub .., unary_bufs_sub .., binary_bufs_sub .., unary_bufs_sub .., binary_bufs_sub .., unary_bufs_sub .., binary_bufs_sub ..⟩

theorem ops_sub : (ops : List (HloOp τ sig (Elt F))).Forall fun op => op.bufs ⊆ tcRefs τ sig := by
  refine List.forall_iff_forall_mem.2 fun op h => ?_
  rcases List.mem_append.1 h with h | h
  · exact List.forall_iff_forall_mem.1 opsA_sub op h
  rcases List.mem_append.1 h with h | h
  · exact List.forall_iff_forall_mem.1 opsB_sub op h
  · exact List.forall_iff_forall_mem.1 opsC_sub op h

theorem opsA_fresh : ∀ op ∈ (opsA : List (HloOp τ sig (Elt F))), op.fresh = ∅ := by
  intro _ h; (repeat (cases h with | head => rfl | tail _ h => ?_)); exact nomatch h
theorem opsB_fresh : ∀ op ∈ (opsB : List (HloOp τ sig (Elt F))), op.fresh = ∅ := by
  intro _ h; (repeat (cases h with | head => rfl | tail _ h => ?_)); exact nomatch h
theorem opsC_fresh : ∀ op ∈ (opsC : List (HloOp τ sig (Elt F))), op.fresh = ∅ := by
  intro _ h; (repeat (cases h with | head => rfl | tail _ h => ?_)); exact nomatch h

theorem ops_fresh : ∀ op ∈ (ops : List (HloOp τ sig (Elt F))), op.fresh = ∅ := by
  intro op h
  rcases List.mem_append.1 h with h | h
  · exact opsA_fresh op h
  rcases List.mem_append.1 h with h | h
  · exact opsB_fresh op h
  · exact opsC_fresh op h

/-! ## Operations 1 to 6, from any valuation -/

/-- The product: the first argument times the transposed second argument. -/
theorem afterA_v1 (W : Valuation τ sig (Elt F)) :
    after opsA W (Proc.devRef .tc main_v1) = val_main_v1 (F := F) (W (Proc.devRef .tc main_arg0)) (W (Proc.devRef .tc main_arg1)) := by
  after_results_simp <;> rfl

/-- The row norms of the first argument: the square root of each row's sum of squares. -/
theorem afterA_v2 (W : Valuation τ sig (Elt F)) :
    after opsA W (Proc.devRef .tc main_v2) = val_main_v2 (F := F) (W (Proc.devRef .tc main_arg0)) := by
  after_results_simp <;> rfl

theorem afterA_arg0 (W : Valuation τ sig (Elt F)) :
    after opsA W (Proc.devRef .tc main_arg0) = W (Proc.devRef .tc main_arg0) := by
  after_results_simp

theorem afterA_arg1 (W : Valuation τ sig (Elt F)) :
    after opsA W (Proc.devRef .tc main_arg1) = W (Proc.devRef .tc main_arg1) := by
  after_results_simp

/-! ## Operations 7 to 24, from any valuation that holds the product -/

/-- The step: a function of the product's contents alone. -/
theorem afterB_v12 (W : Valuation τ sig (Elt F)) (x0 : (⟨S16384x4096, .f32⟩ : BufTy).Contents (Elt F)) (x1 : (⟨S1024x4096, .f32⟩ : BufTy).Contents (Elt F))
    (h1 : W (Proc.devRef .tc main_v1) = val_main_v1 (F := F) x0 x1) :
    after opsB W (Proc.devRef .tc main_v12) = val_main_v12 (F := F) x0 x1 := by
  after_results_simp
  rw [h1]
  rfl

/-- The offset: a function of the product's contents alone. -/
theorem afterB_v15 (W : Valuation τ sig (Elt F)) (x0 : (⟨S16384x4096, .f32⟩ : BufTy).Contents (Elt F)) (x1 : (⟨S1024x4096, .f32⟩ : BufTy).Contents (Elt F))
    (h1 : W (Proc.devRef .tc main_v1) = val_main_v1 (F := F) x0 x1) :
    after opsB W (Proc.devRef .tc main_v15) = val_main_v15 (F := F) x0 x1 := by
  after_results_simp
  rw [h1]
  rfl

theorem afterB_v1 (W : Valuation τ sig (Elt F)) :
    after opsB W (Proc.devRef .tc main_v1) = W (Proc.devRef .tc main_v1) := by
  after_results_simp

theorem afterB_v2 (W : Valuation τ sig (Elt F)) :
    after opsB W (Proc.devRef .tc main_v2) = W (Proc.devRef .tc main_v2) := by
  after_results_simp

theorem afterB_arg0 (W : Valuation τ sig (Elt F)) :
    after opsB W (Proc.devRef .tc main_arg0) = W (Proc.devRef .tc main_arg0) := by
  after_results_simp

theorem afterB_arg1 (W : Valuation τ sig (Elt F)) :
    after opsB W (Proc.devRef .tc main_arg1) = W (Proc.devRef .tc main_arg1) := by
  after_results_simp

/-! ## Operations 25 to 41, from any valuation that holds the product, the step and the offset -/

/-- The result: elementwise in the product, the step and the offset. -/
theorem afterC_v25 (W : Valuation τ sig (Elt F)) (x0 : (⟨S16384x4096, .f32⟩ : BufTy).Contents (Elt F)) (x1 : (⟨S1024x4096, .f32⟩ : BufTy).Contents (Elt F))
    (h1 : W (Proc.devRef .tc main_v1) = val_main_v1 (F := F) x0 x1)
    (h12 : W (Proc.devRef .tc main_v12) = val_main_v12 (F := F) x0 x1)
    (h15 : W (Proc.devRef .tc main_v15) = val_main_v15 (F := F) x0 x1) :
    after opsC W (Proc.devRef .tc main_v25) = val_main_v25 (F := F) x0 x1 := by
  after_results_simp
  rw [h1, h12, h15]
  rfl

theorem afterC_v2 (W : Valuation τ sig (Elt F)) :
    after opsC W (Proc.devRef .tc main_v2) = W (Proc.devRef .tc main_v2) := by
  after_results_simp

theorem afterC_v12 (W : Valuation τ sig (Elt F)) :
    after opsC W (Proc.devRef .tc main_v12) = W (Proc.devRef .tc main_v12) := by
  after_results_simp

theorem afterC_v15 (W : Valuation τ sig (Elt F)) :
    after opsC W (Proc.devRef .tc main_v15) = W (Proc.devRef .tc main_v15) := by
  after_results_simp

theorem afterC_arg0 (W : Valuation τ sig (Elt F)) :
    after opsC W (Proc.devRef .tc main_arg0) = W (Proc.devRef .tc main_arg0) := by
  after_results_simp

theorem afterC_arg1 (W : Valuation τ sig (Elt F)) :
    after opsC W (Proc.devRef .tc main_arg1) = W (Proc.devRef .tc main_arg1) := by
  after_results_simp

/-! ## The three stretches joined -/

/-- The fold over the whole line is the fold over the third stretch, from the fold over the second, from the fold
    over the first. -/
theorem after_ops (V : Valuation τ sig (Elt F)) :
    after (ops : List (HloOp τ sig (Elt F))) V = after opsC (after opsB (after opsA V)) := by
  show after (opsA ++ (opsB ++ opsC)) V = _
  rw [after_append, after_append]

theorem res_v25 (V : Valuation τ sig (Elt F)) :
    after ops V (Proc.devRef .tc main_v25) = val_main_v25 (F := F) (V (Proc.devRef .tc main_arg0)) (V (Proc.devRef .tc main_arg1)) := by
  rw [after_ops]
  exact afterC_v25 _ _ _ ((afterB_v1 _).trans (afterA_v1 V)) (afterB_v12 _ _ _ (afterA_v1 V)) (afterB_v15 _ _ _ (afterA_v1 V))

theorem res_v2 (V : Valuation τ sig (Elt F)) :
    after ops V (Proc.devRef .tc main_v2) = val_main_v2 (F := F) (V (Proc.devRef .tc main_arg0)) := by
  rw [after_ops]
  exact (afterC_v2 _).trans ((afterB_v2 _).trans (afterA_v2 V))

theorem res_v12 (V : Valuation τ sig (Elt F)) :
    after ops V (Proc.devRef .tc main_v12) = val_main_v12 (F := F) (V (Proc.devRef .tc main_arg0)) (V (Proc.devRef .tc main_arg1)) := by
  rw [after_ops]
  exact (afterC_v12 _).trans (afterB_v12 _ _ _ (afterA_v1 V))

theorem res_v15 (V : Valuation τ sig (Elt F)) :
    after ops V (Proc.devRef .tc main_v15) = val_main_v15 (F := F) (V (Proc.devRef .tc main_arg0)) (V (Proc.devRef .tc main_arg1)) := by
  rw [after_ops]
  exact (afterC_v15 _).trans (afterB_v15 _ _ _ (afterA_v1 V))

theorem res_arg0 (V : Valuation τ sig (Elt F)) :
    after ops V (Proc.devRef .tc main_arg0) = V (Proc.devRef .tc main_arg0) := by
  rw [after_ops]
  exact (afterC_arg0 _).trans ((afterB_arg0 _).trans (afterA_arg0 V))

theorem res_arg1 (V : Valuation τ sig (Elt F)) :
    after ops V (Proc.devRef .tc main_arg1) = V (Proc.devRef .tc main_arg1) := by
  rw [after_ops]
  exact (afterC_arg1 _).trans ((afterB_arg1 _).trans (afterA_arg1 V))

/-! ## The run -/

/-- On every device, for any float values, from any memory with zero counters: every weakly fair execution of
    `@main` terminates with each result at its stage function of the arguments' launch contents, and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v25) = val_main_v25 (F := F) (m ((c.tc : Thread nD τ).loc main_arg0)) (m ((c.tc : Thread nD τ).loc main_arg1))
      ∧ r.2.mem ((c.tc : Thread nD τ).loc main_v2) = val_main_v2 (F := F) (m ((c.tc : Thread nD τ).loc main_arg0))
      ∧ r.2.mem ((c.tc : Thread nD τ).loc main_v12) = val_main_v12 (F := F) (m ((c.tc : Thread nD τ).loc main_arg0)) (m ((c.tc : Thread nD τ).loc main_arg1))
      ∧ r.2.mem ((c.tc : Thread nD τ).loc main_v15) = val_main_v15 (F := F) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v25).trans (res_v25 _),
      (h c main_v2).trans (res_v2 _),
      (h c main_v12).trans (res_v12 _),
      (h c main_v15).trans (res_v15 _),
      (h c main_arg0).trans (res_arg0 _),
      (h c main_arg1).trans (res_arg1 _)⟩)
    (run_seq scopedRefs_eq scopedSems_eq defs main (fun _ => ops) main_eq (fun _ => ops_sub) m ρ (fun _ => ops_fresh))

end Cert.ReferenceIdeal.RunH

end
-- ==== Proof.lean ====
/-
  The certificate of the JL-projection quantiser: a kernel of three pipelined regions — the projection
  `keys · sketchᵀ` with the keys' row norms; the global least and greatest entry of the projection, turned into a
  quantisation step and offset; the entry-by-entry fake quantisation — against the plain array program.

  Frames. Each kernel program runs host stretch, three regions, host stretch; every region's body stores whole
  blocks computed from the blocks it is handed, region 1 carrying its two running extremes in scratch from point to
  point; no item writes an argument. The same text proves the frame of the program as printed and of its
  idealization. The reference is a host program; its frame is its run with the results dropped.
  `preserves`: the ideal pass rewrote nothing, so there is nothing to state.
  `algebraic`: on the extended reals both programs compute, from keys `a` and sketch `b`, the projection
  `P (r, j) = ∑ₖ a (r, k) · b (j, k)`, the norms `√(∑ₖ a (r, k)²)`, `X = max |min P| |max P|` (1 if that is 0), the step
  `(X − (−X)) / 15`, the offset `round (X / step)`, and `step · (clamp (round (P / step) + offset, 0, 15) − offset)`.
  The kernel reaches the extremes block by block and the reference in one reduction; both are the extremes of the
  same set of numbers. The kernel writes `−X` as `0 − X`, the reference writes `X` as `−(−X)`: the same numbers.
-/
import proofs.«133292_j61151744360781_1_alg».proof.Defs
import proofs.«133292_j61151744360781_1_alg».proof.Proof.Gen.Kernel
import proofs.«133292_j61151744360781_1_alg».proof.Proof.Gen.KernelIdeal
import proofs.«133292_j61151744360781_1_alg».proof.Proof.Gen.ReferenceIdeal
import proofs.«133292_j61151744360781_1_alg».proof.Proof.Gen.Pre_finite_inputs
import proofs.«133292_j61151744360781_1_alg».proof.Proof.KBFrame
import proofs.«133292_j61151744360781_1_alg».proof.Proof.KIJoin
import proofs.«133292_j61151744360781_1_alg».proof.Proof.RefRun
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Hand.frame m ρ

theorem frame_ki : Cert.frame_KernelIdeal := fun m ρ _ => Cert.KernelIdeal.Hand.frame m ρ

theorem frame_ri : Cert.frame_ReferenceIdeal := fun m ρ _ =>
  (θ_run Cert.ReferenceIdeal.defs _ _).mono (fun _ h c => (h c).2.2.2.2)
    (Cert.ReferenceIdeal.RunH.run (F := Ideal) m ρ)

theorem preserves : Cert.preserves_Kernel_KernelIdeal := trivial

open Cert.KernelIdeal Cert.KernelIdeal.Hand in
theorem algebraic : Cert.algebraic_KernelIdeal_ReferenceIdeal := by
  intro m ρ m' ρ' _ hagree
  refine ⟨fun c => W5 m c main_v3, fun c => W5 m c main_v4, fun c => W5 m c main_v5, fun c => W5 m c main_v6, ?_, ?_⟩
  · exact (θ_run Cert.KernelIdeal.defs _ _).mono (fun r h c =>
      ⟨h c _ (mem_uc main_v3 (by decide)), h c _ (mem_uc main_v4 (by decide)),
       h c _ (mem_uc main_v5 (by decide)), h c _ (mem_uc main_v6 (by decide)),
       (h c _ (mem_uc main_arg0 (by decide))).trans (W5_main_arg0 m c),
       (h c _ (mem_uc main_arg1 (by decide))).trans (W5_main_arg1 m c)⟩) (run_all m ρ)
  · refine (θ_run Cert.ReferenceIdeal.defs _ _).mono (fun r h c => ?_)
      (Cert.ReferenceIdeal.RunH.run (F := Ideal) m' ρ')
    obtain ⟨h25, h2, h12, h15, ha0, ha1⟩ := h c
    rw [(hagree c).1, (hagree c).2] at h25 h12 h15
    rw [(hagree c).1] at h2
    exact ⟨h25.trans (quant_join m c), h2.trans (norm_join m c), h12.trans (step_join m c),
      h15.trans (offset_join m c), ha0, ha1⟩

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
